-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau" .f32 0x41A00000#32 ((268435456 / 13421773 : ℝ) : EReal)
  ∧ IdealRules.named_const.Statement Cert.KernelIdeal.κ "inv_tau" .f32 0x41A00000#32 ((268435456 / 13421773 : ℝ) : EReal)
  ∧ IdealRules.named_const.Statement Cert.KernelIdeal.κ "inv_tau" .f32 0x41A00000#32 ((268435456 / 13421773 : ℝ) : EReal)
  ∧ IdealRules.named_const.Statement Cert.KernelIdeal.κ "inv_tau" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S4096x2 : Shape := ⟨2, ![4096, 2]⟩
abbrev S_ : Shape := ⟨0, ![]⟩
abbrev S100000 : Shape := ⟨1, ![100000]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  reducesTo_S100000x768_S100000_d1 : S100000x768.ReducesTo [1] S100000
  bcast_S_S100000 : S_.BroadcastsInDim S100000 (![] : Fin 0 → Fin S100000.rank)
  reducesTo_S100000_S_d0 : S100000.ReducesTo [0] S_

variable [Facts]

def fn_part1 {F : FTy → Type} [FloatOps F] (main_v10 : IVec S_ 1) (main_v15 : IVec S_ 1) : IVec S_ 1 :=
  let main_v16 : IVec S_ 1 := andi main_v10 main_v15
  main_v16

def fn {F : FTy → Type} [FloatOps F] (main_arg0 : FVec F S100000x768 .f32) (main_arg1 : IVec S4096x2 32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_c_0 : IVec S_ 32 := constantI S_ 32 0#32
  let main_v4 : IVec S4096x2 32 := broadcastInDim S4096x2 ![] bcast_S_S4096x2 main_c_0
  let main_v5 : IVec S4096x2 1 := cmpi .sge main_arg1 main_v4
  let main_c_1 : IVec S_ 32 := constantI S_ 32 100000#32
  let main_v6 : IVec S4096x2 32 := broadcastInDim S4096x2 ![] bcast_S_S4096x2 main_c_1
  let main_v7 : IVec S4096x2 1 := cmpi .slt main_arg1 main_v6
  let main_v8 : IVec S4096x2 1 := andi main_v5 main_v7
  let main_c_2 : IVec S_ 1 := constantI S_ 1 1#1
  let main_v9 : IVec S_ 1 := (fun x v => Host.reduce IntOp.andi x v reducesTo_S4096x2_S_d0_1 h_S_) main_v8 main_c_2
  let main_v10 : IVec S_ 1 := andi main_v3 main_v9
  let main_v11 : FVec F S100000x768 .f32 := mulf main_arg0 main_arg0
  let main_cst_3 : FVec F S_ .f32 := constant S_ .f32 0x00000000#32
  let main_v12 : FVec F S100000 .f32 := (fun x v => Host.reduceAdd x v reducesTo_S100000x768_S100000_d1 h_S_) main_v11 main_cst_3
  let main_cst_4 : FVec F S_ .f32 := constant S_ .f32 0x00000000#32
  let main_v13 : FVec F S100000 .f32 := broadcastInDim S100000 ![] bcast_S_S100000 main_cst_4
  let main_v14 : IVec S100000 1 := cmpf .ogt main_v12 main_v13
  let main_c_5 : IVec S_ 1 := constantI S_ 1 1#1
  let main_v15 : IVec S_ 1 := (fun x v => Host.reduce IntOp.andi x v reducesTo_S100000_S_d0 h_S_) main_v14 main_c_5
  fn_part1 (F := F) main_v10 main_v15
-- ==== Kernel.lean ====
abbrev S100000x768 : Shape := ⟨2, ![100000, 768]⟩
abbrev S4096x2 : Shape := ⟨2, ![4096, 2]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x768 : Shape := ⟨2, ![4096, 768]⟩
abbrev S512x768 : Shape := ⟨2, ![512, 768]⟩
abbrev S512x1 : Shape := ⟨2, ![512, 1]⟩
abbrev S768x512 : Shape := ⟨2, ![768, 512]⟩
abbrev S512x512 : Shape := ⟨2, ![512, 512]⟩
abbrev S512 : Shape := ⟨1, ![512]⟩

abbrev nBuf : Space → Nat
  | .hbm => 73
  | .vmem => 15
  | .smem => 0
  | _ => 0

abbrev bufTy : (tb : Table) → Fin (tcTables nBuf tb) → BufTy
  | .hbm, ⟨0, _⟩ => ⟨S100000x768, .f32⟩
  | .hbm, ⟨1, _⟩ => ⟨S4096x2, .i32⟩
  | .hbm, ⟨2, _⟩ => ⟨S4096x1, .i32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x768, .f32⟩
  | .hbm, ⟨25, _⟩ => ⟨S4096x768, .i1⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x768, .f32⟩
  | .hbm, ⟨35, _⟩ => ⟨S4096x768, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S1x1, .i32⟩
  | .hbm, ⟨49, _⟩ => ⟨S4096x1, .i32⟩
  | .hbm, ⟨50, _⟩ => ⟨S4096x1, .i1⟩
  | .hbm, ⟨51, _⟩ => ⟨S4096x1, .i1⟩
  | .hbm, ⟨52, _⟩ => ⟨S_, .i1⟩
  | .hbm, ⟨53, _⟩ => ⟨S4096, .i1⟩
  | .hbm, ⟨54, _⟩ => ⟨S4096x768, .f32⟩
  | .hbm, ⟨55, _⟩ => ⟨S4096x768, .i1⟩
  | .hbm, ⟨56, _⟩ => ⟨S_, .f32⟩
  | .hbm, ⟨57, _⟩ => ⟨S4096x768, .f32⟩
  | .hbm, ⟨58, _⟩ => ⟨S4096x768, .f32⟩
  | .hbm, ⟨59, _⟩ => ⟨S4096x768, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1, .f32⟩
  | .hbm, ⟨64, _⟩ => ⟨S4096x768, .f32⟩
  | .hbm, ⟨65, _⟩ => ⟨S4096x768, .f32⟩
  | .hbm, ⟨66, _⟩ => ⟨S4096x768, .bf16⟩
  | .hbm, ⟨67, _⟩ => ⟨S4096x768, .bf16⟩
  | .hbm, ⟨68, _⟩ => ⟨S4096x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_call0_c : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_c_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_c_1 : Ref sig .tc := ⟨.hbm, 14, rfl⟩
abbrev main_call0_call0_c_2 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_3 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst : Ref sig .tc := ⟨.hbm, 26, rfl⟩
abbrev main_call0_call0_v15 : Ref sig .tc := ⟨.hbm, 27, rfl⟩
abbrev main_call0_v4 : Ref sig .tc := ⟨.hbm, 28, rfl⟩
abbrev main_call0_v5 : Ref sig .tc := ⟨.hbm, 29, rfl⟩
abbrev main_call0_cst : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_call1_c : Ref sig .tc := ⟨.hbm, 36, rfl⟩
abbrev main_call0_call1_v0 : Ref sig .tc := ⟨.hbm, 37, rfl⟩
abbrev main_call0_call1_v1 : Ref sig .tc := ⟨.hbm, 38, rfl⟩
abbrev main_call0_call1_c_0 : Ref sig .tc := ⟨.hbm, 39, rfl⟩
abbrev main_call0_call1_v2 : Ref sig .tc := ⟨.hbm, 40, rfl⟩
abbrev main_call0_call1_v3 : Ref sig .tc := ⟨.hbm, 41, rfl⟩
abbrev main_call0_call1_v4 : Ref sig .tc := ⟨.hbm, 42, rfl⟩
abbrev main_call0_call1_v5 : Ref sig .tc := ⟨.hbm, 43, rfl⟩
abbrev main_call0_call1_c_1 : Ref sig .tc := ⟨.hbm, 44, rfl⟩
abbrev main_call0_call1_c_2 : Ref sig .tc := ⟨.hbm, 45, rfl⟩
abbrev main_call0_call1_v6 : Ref sig .tc := ⟨.hbm, 46, rfl⟩
abbrev main_call0_call1_v7 : Ref sig .tc := ⟨.hbm, 47, rfl⟩
abbrev main_call0_call1_v8 : Ref sig .tc := ⟨.hbm, 48, rfl⟩
abbrev main_call0_call1_v9 : Ref sig .tc := ⟨.hbm, 49, rfl⟩
abbrev main_call0_call1_v10 : Ref sig .tc := ⟨.hbm, 50, rfl⟩
abbrev main_call0_call1_v11 : Ref sig .tc := ⟨.hbm, 51, rfl⟩
abbrev main_call0_call1_c_3 : Ref sig .tc := ⟨.hbm, 52, rfl⟩
abbrev main_call0_call1_v12 : Ref sig .tc := ⟨.hbm, 53, rfl⟩
abbrev main_call0_call1_v13 : Ref sig .tc := ⟨.hbm, 54, rfl⟩
abbrev main_call0_call1_v14 : Ref sig .tc := ⟨.hbm, 55, rfl⟩
abbrev main_call0_call1_cst : Ref sig .tc := ⟨.hbm, 56, rfl⟩
abbrev main_call0_call1_v15 : Ref sig .tc := ⟨.hbm, 57, rfl⟩
abbrev main_call0_v11 : Ref sig .tc := ⟨.hbm, 58, rfl⟩
abbrev main_call0_v12 : Ref sig .tc := ⟨.hbm, 59, rfl⟩
abbrev main_call0_cst_0 : Ref sig .tc := ⟨.hbm, 60, rfl⟩
abbrev main_call0_v13 : Ref sig .tc := ⟨.hbm, 61, rfl⟩
abbrev main_call0_v14 : Ref sig .tc := ⟨.hbm, 62, rfl⟩
abbrev main_call0_v15 : Ref sig .tc := ⟨.hbm, 63, rfl⟩
abbrev main_call0_v16 : Ref sig .tc := ⟨.hbm, 64, rfl⟩
abbrev main_call0_v17 : Ref sig .tc := ⟨.hbm, 65, rfl⟩
abbrev main_call0_v18 : Ref sig .tc := ⟨.hbm, 66, rfl⟩
abbrev main_call0_v19 : Ref sig .tc := ⟨.hbm, 67, rfl⟩
abbrev main_call0_v20 : Ref sig .tc := ⟨.hbm, 68, rfl⟩
abbrev main_call0_cst_1 : Ref sig .tc := ⟨.hbm, 69, rfl⟩
abbrev main_call0_v21 : Ref sig .tc := ⟨.hbm, 70, rfl⟩
abbrev main_call0_cst_2 : Ref sig .tc := ⟨.hbm, 71, rfl⟩
abbrev main_v0 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v112 : BitVec 1 := Scalar.cmpi .eq arg1 c7_i32
  let v113 : BitVec 32 := Scalar.extui v112
  let c0_i32_51 : BitVec 32 := 0#32
  let v114 : BitVec 1 := Scalar.cmpi .ne v113 c0_i32_51
  v114

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x768_0 : S4096.BroadcastsInDim S4096x768 (![0] : Fin 1 → Fin S4096x768.rank)
  bcast_S_S4096x768 : S_.BroadcastsInDim S4096x768 (![] : Fin 0 → Fin S4096x768.rank)
  reducesTo_S4096x768_S4096_d1 : S4096x768.ReducesTo [1] S4096
  bcast_S4096x1_S4096x768_0_1 : S4096x1.BroadcastsInDim S4096x768 (![0, 1] : Fin 2 → Fin S4096x768.rank)
  bitsLt_bf16_f32 : FTy.bits .bf16 < FTy.bits .f32
  reducesTo_S4096x1_S_d0_1 : S4096x1.ReducesTo [0, 1] S_
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  transposes_S512x768_p1_0_S768x512 : S512x768.Transposes [1, 0] S768x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  broadcasts_S512x1_S512x512 : S512x1.Broadcasts S512x512
  gather_S100000x768_S4096x1_S4096x768_1_0_n_n_0_1_1768_wf : GatherDims.WF S100000x768 S4096x1 S4096x768 [1] [0] [] [0] [] 1 ![1, 768]
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .bf16 = 32 ∨ (Rect.block (s := S4096x768) S512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .bf16 = 32 ∨ (Rect.block (s := S4096x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S4096x768.size a
  hwx0_2 : ∀ i : grid0.Coords, EltTy.bits .bf16 = 32 ∨ (Rect.block (s := S4096x768) S512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S4096x768.size a
  hwx0_3 : ∀ i : grid0.Coords, EltTy.bits .bf16 = 32 ∨ (Rect.block (s := S4096x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def gather_S100000x768_S4096x1_S4096x768_1_0_n_n_0_1_1768 : GatherDims S100000x768 S4096x1 S4096x768 where
  offsetDims := [1]
  collapsedSliceDims := [0]
  operandBatchingDims := []
  startIndicesBatchingDims := []
  startIndexMap := [0]
  indexVectorDim := 1
  sliceSizes := ![1, 768]
  wf := gather_S100000x768_S4096x1_S4096x768_1_0_n_n_0_1_1768_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_call0_v18) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v20) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000x768 : Shape := ⟨2, ![100000, 768]⟩
abbrev S4096x2 : Shape := ⟨2, ![4096, 2]⟩
abbrev S_ : Shape := ⟨0, ![]⟩
abbrev S100000 : Shape := ⟨1, ![100000]⟩
abbrev S100000x1 : Shape := ⟨2, ![100000, 1]⟩
abbrev S4096x1 : Shape := ⟨2, ![4096, 1]⟩
abbrev S4096 : Shape := ⟨1, ![4096]⟩
abbrev S4096x768 : Shape := ⟨2, ![4096, 768]⟩
abbrev S4096x4096 : Shape := ⟨2, ![4096, 4096]⟩
abbrev S768x4096 : Shape := ⟨2, ![768, 4096]⟩
abbrev S4096x8192 : Shape := ⟨2, ![4096, 8192]⟩

abbrev nBuf : Space → Nat
  | .hbm => 150
  | .vmem => 0
  | .smem => 0
  | _ => 0

abbrev hbmTy0_0 (i : Nat) : BufTy := match i % 128 with
  | 0 => ⟨S100000x768, .f32⟩
  | 1 => ⟨S4096x2, .i32⟩
  | 2 => ⟨S100000x768, .f32⟩
  | 3 => ⟨S_, .f32⟩
  | 4 => ⟨S100000, .f32⟩
  | 5 => ⟨S100000x1, .f32⟩
  | 6 => ⟨S100000x1, .f32⟩
  | 7 => ⟨S100000x768, .f32⟩
  | 8 => ⟨S100000x768, .f32⟩
  | 9 => ⟨S4096x1, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096x768, .f32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x768, .f32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i1⟩
  | 37 => ⟨S4096x4096, .f32⟩
  | 38 => ⟨S_, .f32⟩
  | 39 => ⟨S4096x4096, .f32⟩
  | 40 => ⟨S4096x4096, .f32⟩
  | 41 => ⟨S768x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S768x4096, .f32⟩
  | 48 => ⟨S4096x4096, .f32⟩
  | 49 => ⟨S_, .f32⟩
  | 50 => ⟨S4096x4096, .f32⟩
  | 51 => ⟨S4096x4096, .f32⟩
  | 52 => ⟨S4096x4096, .f32⟩
  | 53 => ⟨S768x4096, .f32⟩
  | 54 => ⟨S4096x4096, .f32⟩
  | 55 => ⟨S_, .f32⟩
  | 56 => ⟨S4096x4096, .f32⟩
  | 57 => ⟨S4096x4096, .f32⟩
  | 58 => ⟨S768x4096, .f32⟩
  | 59 => ⟨S4096x4096, .f32⟩
  | 60 => ⟨S_, .f32⟩
  | 61 => ⟨S4096x4096, .f32⟩
  | 62 => ⟨S4096x4096, .f32⟩
  | 63 => ⟨S4096x8192, .f32⟩
  | 64 => ⟨S4096x8192, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x8192, .f32⟩
  | 72 => ⟨S4096x8192, .f32⟩
  | 73 => ⟨S4096x8192, .f32⟩
  | 74 => ⟨S_, .f32⟩
  | 75 => ⟨S4096, .f32⟩
  | 76 => ⟨S4096x1, .f32⟩
  | 77 => ⟨S4096x1, .f32⟩
  | 78 => ⟨S4096x8192, .f32⟩
  | 79 => ⟨S4096x8192, .f32⟩
  | 80 => ⟨S4096, .i32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S4096x1, .i32⟩
  | 98 => ⟨S4096x2, .i32⟩
  | 99 => ⟨S4096, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x8192, .f32⟩
  | 112 => ⟨S4096x8192, .f32⟩
  | 113 => ⟨S4096x8192, .f32⟩
  | 114 => ⟨S_, .f32⟩
  | 115 => ⟨S4096, .f32⟩
  | 116 => ⟨S4096x1, .f32⟩
  | 117 => ⟨S4096x1, .f32⟩
  | 118 => ⟨S4096x8192, .f32⟩
  | 119 => ⟨S4096x8192, .f32⟩
  | 120 => ⟨S4096, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S100000x768, .f32⟩

abbrev hbmTy0_1 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096x1, .i32⟩
  | 10 => ⟨S4096x2, .i32⟩
  | 11 => ⟨S4096, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_14 : Ref sig .tc := ⟨.hbm, 122, rfl⟩
abbrev main_v72 : Ref sig .tc := ⟨.hbm, 123, rfl⟩
abbrev main_v73 : Ref sig .tc := ⟨.hbm, 124, rfl⟩
abbrev main_c_15 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_16 : Ref sig .tc := ⟨.hbm, 129, rfl⟩
abbrev main_v77 : Ref sig .tc := ⟨.hbm, 130, rfl⟩
abbrev main_v78 : Ref sig .tc := ⟨.hbm, 131, rfl⟩
abbrev main_c_17 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_18 : Ref sig .tc := ⟨.hbm, 140, rfl⟩
abbrev main_v86 : Ref sig .tc := ⟨.hbm, 141, rfl⟩
abbrev main_v87 : Ref sig .tc := ⟨.hbm, 142, rfl⟩
abbrev main_cst_19 : Ref sig .tc := ⟨.hbm, 143, rfl⟩
abbrev main_v88 : Ref sig .tc := ⟨.hbm, 144, rfl⟩
abbrev main_cst_20 : Ref sig .tc := ⟨.hbm, 145, rfl⟩
abbrev main_v89 : Ref sig .tc := ⟨.hbm, 146, rfl⟩
abbrev main_cst_21 : Ref sig .tc := ⟨.hbm, 147, rfl⟩
abbrev main_v90 : Ref sig .tc := ⟨.hbm, 148, rfl⟩
abbrev main_v91 : Ref sig .tc := ⟨.hbm, 149, rfl⟩

abbrev nD : Nat := 1
abbrev τ : Topo := Topo.v7x

variable {F : FTy → Type} [FloatOps F]

class Facts₀ : Prop where
  reducesTo_S100000x768_S100000_d1 : S100000x768.ReducesTo [1] S100000
  h_S_ : 0 < S_.numel
  bcast_S100000_S100000x1_0 : S100000.BroadcastsInDim S100000x1 (![0] : Fin 1 → Fin S100000x1.rank)
  bcast_S100000x1_S100000x768_0_1 : S100000x1.BroadcastsInDim S100000x768 (![0, 1] : Fin 2 → Fin S100000x768.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  bcast_S_S4096x4096 : S_.BroadcastsInDim S4096x4096 (![] : Fin 0 → Fin S4096x4096.rank)
  transposes_S4096x768_S768x4096_1_0 : S4096x768.Transposes [1, 0] S768x4096
  concatenates_S4096x4096_S4096x4096_S4096x8192_d1 : Shape.Concatenates [S4096x4096, S4096x4096] S4096x8192 1
  reducesTo_S4096x8192_S4096_d1 : S4096x8192.ReducesTo [1] S4096
  bcast_S4096x1_S4096x8192_0_1 : S4096x1.BroadcastsInDim S4096x8192 (![0, 1] : Fin 2 → Fin S4096x8192.rank)
  concatenates_S4096x1_S4096x1_S4096x2_d1 : Shape.Concatenates [S4096x1, S4096x1] S4096x2 1
  reducesTo_S4096_S_d0 : S4096.ReducesTo [0] S_
  gather_S100000x768_S4096x1_S4096x768_1_0_n_n_0_1_1768_wf : GatherDims.WF S100000x768 S4096x1 S4096x768 [1] [0] [] [0] [] 1 ![1, 768]
  dot_S4096x768_S768x4096_S4096x4096_1_0_0_1_n_n_wf : DotDims.WF S4096x768 S768x4096 S4096x4096 [1] [0] [0] [1] [] []
  gather_S4096x8192_S4096x2_S4096_n_01_n_n_01_1_11_wf : GatherDims.WF S4096x8192 S4096x2 S4096 [] [0, 1] [] [0, 1] [] 1 ![1, 1]

variable [Facts₀]

def gather_S100000x768_S4096x1_S4096x768_1_0_n_n_0_1_1768 : GatherDims S100000x768 S4096x1 S4096x768 where
  offsetDims := [1]
  collapsedSliceDims := [0]
  operandBatchingDims := []
  startIndicesBatchingDims := []
  startIndexMap := [0]
  indexVectorDim := 1
  sliceSizes := ![1, 768]
  wf := gather_S100000x768_S4096x1_S4096x768_1_0_n_n_0_1_1768_wf
def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf
def gather_S4096x8192_S4096x2_S4096_n_01_n_n_01_1_11 : GatherDims S4096x8192 S4096x2 S4096 where
  offsetDims := []
  collapsedSliceDims := [0, 1]
  operandBatchingDims := []
  startIndicesBatchingDims := []
  startIndexMap := [0, 1]
  indexVectorDim := 1
  sliceSizes := ![1, 1]
  wf := gather_S4096x8192_S4096x2_S4096_n_01_n_n_01_1_11_wf

class Facts : Prop extends Facts₀ where

variable [Facts]
-- ==== Proof.WordTiledStep.lean ====
/-
  One grid point of the tiled program as a pure function, and the five running columns point by point.

  The grid is 8 row blocks by 8 column blocks of 512, walked row block by row block: point `t = 8·i + j` sees row block `i`
  of the two normalised tables (`x0`, `x1`) and column block `j` of the same two tables (`x2`, `x3`).  Five columns of 512
  entries live in scratch across the points of one row block: the running maximum and the running sum of exponentials of
  each row of `[x0·x3ᵀ | x0·x2ᵀ]` (`ma`, `la`), the same two of `[x1·x2ᵀ | x1·x3ᵀ]` (`mb`, `lb`), and the running diagonal
  pick of `x0·x3ᵀ` (`pos`).  At `j = 0` they are first reset to `(-∞, 0, -∞, 0, 0)`; every point
  merges its column block into them; at `j = 7` the row block's 512 losses are formed from them.  Everything here is the
  body's own arithmetic, by its named pieces, at any float instance.
-/
import proofs.«403767_j22084721836062_1_alg».proof.Proof.Gen.Kernel.Skeleton
import proofs.«403767_j22084721836062_1_alg».proof.Proof.Gen.Kernel.Launch
import proofs.«403767_j22084721836062_1_alg».proof.Proof.Gen.Kernel.Points

noncomputable section

namespace Cert.Kernel.Gen

open Idealize.ShloMosaic Idealize.ShloMosaic.TcCoe Idealize.SL.Sem

variable {F : FTy → Type} [FloatOps F]

/-- The five columns carried across the column blocks of one row block. -/
structure Carried (F : FTy → Type) [FloatOps F] where
  ma : Vec F S512x1 .f32
  la : Vec F S512x1 .f32
  mb : Vec F S512x1 .f32
  lb : Vec F S512x1 .f32
  pos : Vec F S512x1 .f32

/-- What the first column block's reset stores: `(-∞, 0, -∞, 0, 0)`. -/
def Carried.fresh : Carried F := ⟨k0_pay2 (F := F), k0_pay3 (F := F), k0_pay4 (F := F), k0_pay5 (F := F), k0_pay6 (F := F)⟩

/-- The columns a point starts from: reset at the first column block, else as the point before left them. -/
def Carried.start (i : grid0.Coords) (S : Carried F) : Carried F := if (i 1).val = 0 then Carried.fresh else S

/-- One point: the column block merged into the five columns. `x0`, `x1` are the row blocks of the two tables, `x2`, `x3`
    their column blocks. -/
def Carried.merge (i : grid0.Coords) (x0 x1 x2 x3 : Vec F S512x768 .bf16) (S : Carried F) : Carried F :=
  { ma := k0_pay23 (k0_pay20 (k0_pay11 x0 x3) (k0_pay12 x0 x2) (k0_pay15 i) (Carried.start i S).ma)
    la := k0_pay22 (k0_pay21 (k0_pay11 x0 x3) (k0_pay12 x0 x2) (k0_pay15 i) (Carried.start i S).ma (Carried.start i S).ma (Carried.start i S).la)
    mb := k0_pay26 (k0_pay13 x1 x2) (k0_pay18 (k0_pay14 x1 x3) (k0_pay15 i)) (Carried.start i S).mb
    lb := k0_pay25 (k0_pay13 x1 x2) (k0_pay18 (k0_pay14 x1 x3) (k0_pay15 i)) (Carried.start i S).mb (Carried.start i S).mb (Carried.start i S).lb
    pos := k0_pay19 (k0_pay11 x0 x3) (k0_pay15 i) (Carried.start i S).pos }

/-- The row block's 512 losses, from the five columns after the last column block. -/
def Carried.loss (S : Carried F) : FVec F S512x1 .f32 := k0_pay1 S.ma S.la S.mb S.lb S.pos

end Cert.Kernel.Gen

end
-- ==== Proof.WordTiledData.lean ====
/-
  What the tiled region holds, point by point, at any float instance: each window's block of its array as the region
  finds the arrays; the five carried columns after each point, by recursion on the point from the reset values; the
  region's invariant, which after a point names the five scratch buffers' contents; and the proof data of the pipeline.

  The two normalised tables are each read through TWO windows (row blocks and column blocks), so each table's array is
  held by halves: the row-block window takes the left half share, the column-block window the right half.  The output
  column has a window of its own at the full share; it is stored only at the last column block of a row block, where it
  is also written back, and is left alone elsewhere.
-/
import proofs.«403767_j22084721836062_1_alg».proof.Proof.WordTiledStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five carried columns after the first `n` points: from the reset values, each point's merge of its blocks. -/
def carriedAt (c : Dev nD) : (n : ℕ) → n ≤ cfg0.N → Carried F
  | 0, _ => Carried.fresh
  | n + 1, h => Carried.merge (grid0.coords ⟨n, h⟩) (iblk V c 0 ⟨n, h⟩) (iblk V c 1 ⟨n, h⟩) (iblk V c 2 ⟨n, h⟩) (iblk V c 3 ⟨n, h⟩)
      (carriedAt c n (Nat.le_of_succ_le h))

theorem carriedAt_succ (c : Dev nD) (n : ℕ) (h : n + 1 ≤ cfg0.N) :
    carriedAt V c (n + 1) h = Carried.merge (grid0.coords ⟨n, h⟩) (iblk V c 0 ⟨n, h⟩) (iblk V c 1 ⟨n, h⟩) (iblk V c 2 ⟨n, h⟩) (iblk V c 3 ⟨n, h⟩)
      (carriedAt V c n (Nat.le_of_succ_le h)) := rfl

/-- The five scratch buffers, whole, at the columns `S`. -/
def scratchAt (c : Dev nD) (S : Carried F) : sProp 𝕄 :=
  iprop(owns (c : Thread nD τ) (Memref.whole cc0_scratch0) fullShare S.ma
    ∗ owns (c : Thread nD τ) (Memref.whole cc0_scratch1) fullShare S.la
    ∗ owns (c : Thread nD τ) (Memref.whole cc0_scratch2) fullShare S.mb
    ∗ owns (c : Thread nD τ) (Memref.whole cc0_scratch3) fullShare S.lb
    ∗ owns (c : Thread nD τ) (Memref.whole cc0_scratch4) fullShare S.pos)

/-- The region's invariant before point `n`: before the first point every scratch buffer at anything and the generator
    register at some state; afterwards the scratch buffers at the carried columns and the register at some state. -/
def PhiS (c : Dev nD) : (n : ℕ) → n ≤ cfg0.N → sProp 𝕄
  | 0, _ => Pipeline.ΦA spec0 c
  | n + 1, h => iprop(scratchAt c (carriedAt V c (n + 1) h) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (h : n + 1 ≤ cfg0.N) :
    PhiS V c (n + 1) h = iprop(scratchAt c (carriedAt V c (n + 1) h) ∗ (∃ r, prngReg c r)) := rfl

/-- The pipeline's proof data on core `c`: the arrays as the region finds them; after the body at a point each input's
    buffer at its block and the output's at the losses formed from the carried columns; the invariant above; each table's
    array held by halves between its two windows; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => Carried.loss (carriedAt V c (t.val + 1) t.isLt)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dat V c).A w = V c (Pipeline.arrRef spec0 w) := by dsimp only [dat]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) :
    (dat V c).after 4 t = Carried.loss (carriedAt V c (t.val + 1) t.isLt) := by dsimp only [dat]
theorem Phi_eq (c : Dev nD) (t : Fin (cfg0.N + 1)) : (dat V c).Φ t = PhiS V c t.val (Nat.le_of_lt_succ t.isLt) := by dsimp only [dat]

end Cert.Kernel.Gen

end
-- ==== Proof.WordTiledRunCases.lean ====
/-
  The kernel function of the tiled program on any whole memrefs, in the three cases its two tests on the column block
  allow: at the first column block of a row block the five carried columns are reset and the block merged into the reset
  columns; at a middle column block the block is merged into the columns as they stand; at the last the block is merged
  and the row block's losses are formed from the merged columns and stored into the output's buffer.  In each case the
  inputs' buffers are left as found, and off the last column block so is the output's.  Every load reads either a buffer's
  contents as handed in or the payload of the store before it through the same whole-block rectangle, so what each
  scratch buffer ends with is the component of `Carried.merge` that names its last store.
-/
import proofs.«403767_j22084721836062_1_alg».proof.Proof.WordTiledData
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a load through the whole block reads, and what a store through it leaves -/

theorem zeros2 : (![0, 0] : Fin 2 → ℕ) = fun _ => 0 := by funext a; fin_cases a <;> rfl

/-- After a store through the whole column, last, the column reads the stored payload. -/
theorem read_writes_top {sg : RefSig} {κ : Kind} {sp : Space} (v : View sg κ sp S512x1 .f32) (f : v.ty.Contents (Elt F))
    (inb : ∀ a, (![0, 0] : Fin 2 → ℕ) a + S512x1.size a ≤ S512x1.size a) (w : S512x1.Idx → Elt F .f32)
    (L : List (View.Piece (Elt F) S512x1 .f32)) :
    v.read (Elt F) (v.writes (Elt F) f ((⟨Rect.unit ![0, 0] S512x1.size inb, w⟩ : View.Piece (Elt F) S512x1 .f32) :: L)) = w := by
  rw [View.read_writes_eq_canon _ _ _ (fun y => ⟨_, List.mem_cons_self, View.mem_set_unit_zero zeros2 inb y⟩)]
  exact View.canon_cons_unit_zero zeros2 inb w L

/-- A load of the whole column after a store through the whole column reads the stored payload. -/
theorem readCov_top {sg : RefSig} {κ : Kind} {sp : Space} (v : View sg κ sp S512x1 .f32)
    (inb inb' : ∀ a, (![0, 0] : Fin 2 → ℕ) a + S512x1.size a ≤ S512x1.size a) (w : S512x1.Idx → Elt F .f32)
    (L : List (View.Piece (Elt F) S512x1 .f32)) :
    v.readCov ((⟨Rect.unit ![0, 0] S512x1.size inb, w⟩ : View.Piece (Elt F) S512x1 .f32) :: L) (Rect.unit ![0, 0] S512x1.size inb').toLoadRect = w :=
  View.readCov_cons_toLoadRect v (Rect.unit ![0, 0] S512x1.size inb) w L

/-- A load of the whole block of a whole buffer held at contents that read `X` reads `X`. -/
theorem readAt_unit_unread {sp : Space} {s : Shape} {e : EltTy} {m : Memref sig .tc sp s e} (h : m.IsWhole) {off : Fin s.rank → ℕ}
    (h0 : off = fun _ => 0) (inb : ∀ a, off a + s.size a ≤ s.size a) (X : s.Idx → Elt F e) :
    View.readAt (Elt F) m.view (Rect.unit off s.size inb).toLoadRect (h.unread X) = X := by
  rw [View.readAt_eq_ld, h.read_unread]; exact View.ld_unit_zero h0 inb X

theorem readAt_col_unread {m : Memref sig .tc .vmem S512x1 .f32} (h : m.IsWhole)
    (inb : ∀ a, (![0, 0] : Fin 2 → ℕ) a + S512x1.size a ≤ S512x1.size a) (X : S512x1.Idx → Elt F .f32) :
    View.readAt (Elt F) m.view (Rect.unit ![0, 0] S512x1.size inb).toLoadRect (h.unread X) = X :=
  readAt_unit_unread h zeros2 inb X

theorem readAt_blk_unread {m : Memref sig .tc .vmem S512x768 .bf16} (h : m.IsWhole)
    (inb : ∀ a, (![0, 0] : Fin 2 → ℕ) a + S512x768.size a ≤ S512x768.size a) (X : S512x768.Idx → Elt F .bf16) :
    View.readAt (Elt F) m.view (Rect.unit ![0, 0] S512x768.size inb).toLoadRect (h.unread X) = X :=
  readAt_unit_unread h zeros2 inb X

/-! ## The body's two tests, from the coordinates -/

/-- The first conditional's test (is this the first column block?), as the body computes it. -/
abbrev condFirst (i : grid0.Coords) : Prop := (Scalar.cmpi .ne (Scalar.extui (Scalar.cmpi .eq (BitVec.ofNat 32 (i 1).val) 0#32)) 0#32) = 1#1

theorem condFirst_iff : ∀ i : grid0.Coords, condFirst i ↔ (i 1).val = 0 := by decide +kernel
theorem condLast_iff : ∀ i : grid0.Coords, k0_cond2 i = 1#1 ↔ (i 1).val = 7 := by decide +kernel

/-! ## The three runs -/

set_option maxHeartbeats 4000000 in
/-- The body at the first column block of a row block: the five columns are reset, whatever they held, and the block
    is merged into the reset columns; the output's buffer is not touched. -/
theorem runFirst (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj : (i 1).val = 0)
    (x0 x1 x2 x3 : Vec F S512x768 .bf16) (xo : Vec F S512x1 .f32) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hc0 : condFirst i := (condFirst_iff i).mpr hj
  have hc1 : ¬ k0_cond2 i = 1#1 := fun h => by have := (condLast_iff i).mp h; omega
  have hs : Carried.start i S = Carried.fresh := if_pos hj
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%fo, %hfo, HO⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr; · ipureintro; exact hfo
    iexact HO
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

set_option maxHeartbeats 4000000 in
/-- The body at a column block that is neither the first nor the last of its row block: the block is merged into the
    five columns as the point before left them; the output's buffer is not touched. -/
theorem runMid (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj0 : (i 1).val ≠ 0) (hj7 : (i 1).val ≠ 7)
    (x0 x1 x2 x3 : Vec F S512x768 .bf16) (xo : Vec F S512x1 .f32) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ owns (c : Thread nD τ) arg7 fullShare S.ma ∗ owns (c : Thread nD τ) arg8 fullShare S.la ∗ owns (c : Thread nD τ) arg9 fullShare S.mb ∗ owns (c : Thread nD τ) arg10 fullShare S.lb ∗ owns (c : Thread nD τ) arg11 fullShare S.pos
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hc0 : ¬ condFirst i := fun h => hj0 ((condFirst_iff i).mp h)
  have hc1 : ¬ k0_cond2 i = 1#1 := fun h => hj7 ((condLast_iff i).mp h)
  have hs : Carried.start i S = S := if_neg hj0
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%fo, %hfo, HO⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr; · ipureintro; exact hfo
    iexact HO
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

set_option maxHeartbeats 4000000 in
/-- The body at the last column block of a row block: the block is merged into the five columns as the point before
    left them, and the row block's losses, formed from the merged columns, are stored into the output's buffer whatever
    it held. -/
theorem runLast (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj : (i 1).val = 7)
    (x0 x1 x2 x3 : Vec F S512x768 .bf16) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare S.ma ∗ owns (c : Thread nD τ) arg8 fullShare S.la ∗ owns (c : Thread nD τ) arg9 fullShare S.mb ∗ owns (c : Thread nD τ) arg10 fullShare S.lb ∗ owns (c : Thread nD τ) arg11 fullShare S.pos
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (Carried.loss (Carried.merge i x0 x1 x2 x3 S))
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hj0 : (i 1).val ≠ 0 := by omega
  have hc0 : ¬ condFirst i := fun h => hj0 ((condFirst_iff i).mp h)
  have hc1 : k0_cond2 i = 1#1 := (condLast_iff i).mpr hj
  have hs : Carried.start i S = S := if_neg hj0
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%dO, %fo, -, HO⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr
    swap; · iexact HO
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.loss Carried.merge; dsimp only; rw [hs] <;> rfl
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

end Cert.Kernel.Gen

end
-- ==== Proof.WordTiledBody.lean ====
/-
  The body of the tiled program at every grid point: from the invariant before the point and each window's staging buffer
  at what the pipeline left in it, the kernel function runs without fault to the invariant after the point, the inputs'
  buffers as found and, at the last column block of a row block, the output's buffer at the row block's losses.
-/
import proofs.«403767_j22084721836062_1_alg».proof.Proof.WordTiledRunCases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule, from the point's column block -/

/-- A point's column block is its number modulo 8. -/
theorem col_eq : ∀ t : Fin cfg0.N, ((grid0.coords t) 1).val = t.val % 8 :=
  (by decide +kernel : ∀ t : Fin grid0.N, ((grid0.coords t) 1).val = t.val % 8)

/-- Off the last column block the output's window is idle, -/
theorem idleOut : ∀ t : Fin cfg0.N, ((grid0.coords t) 1).val ≠ 7 → cfg0.idle 4 (grid0.coords t) = true := by decide +kernel
/-- and is not written back; -/
theorem noFlushOut : ∀ t : Fin cfg0.N, ((grid0.coords t) 1).val ≠ 7 → (cfg0.win 4).flush t = false := by decide +kernel
/-- at the last column block it is live. -/
theorem liveOut : ∀ t : Fin cfg0.N, ((grid0.coords t) 1).val = 7 → cfg0.idle 4 (grid0.coords t) = false := by decide +kernel

/-! ## What the inputs' buffers hold when the body runs -/

/-- Each input's current staging buffer holds its block at every point, fetched there or not: a row block is fetched
    at the first column block of its row and stays in place, its index unmoved, for the other seven. -/
theorem before0_0 (c : Dev nD) (t : Fin cfg0.N) (d) : (dat V c).before 0 t d = iblk V c 0 t :=
  ((dat V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat V c).before 1 t d = iblk V c 1 t :=
  ((dat V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat V c).before 2 t d = iblk V c 2 t :=
  ((dat V c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dat V c).before 3 t d = iblk V c 3 t :=
  ((dat V c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The invariant, opened -/

/-- Before a point that is not the first: the scratch buffers at the columns carried so far. -/
theorem PhiS_pos (c : Dev nD) (n : ℕ) (h : n ≤ cfg0.N) (hz : n ≠ 0) :
    PhiS V c n h = iprop(scratchAt c (carriedAt V c n h) ∗ (∃ r, prngReg c r)) := by
  cases n with
  | zero => exact absurd rfl hz
  | succ n => rfl

/-- What the launch hands the region, with the five scratch buffers as memrefs owned at some contents. -/
theorem PhiA0_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

/-! ## The body obligation, at a generic point -/

set_option maxHeartbeats 4800000 in
/-- The body at any point: the inputs' buffers hold their blocks; the column block says which of the three runs applies;
    the invariant hands the run the scratch buffers (at anything before the first point, else at the columns carried so
    far) and takes them back at the columns with this point's block merged in; off the last column block the output's
    buffer goes through untouched, at it the buffer is left at the row block's losses. -/
theorem sound_body (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ (dat V c).leavesExact 0 t ∗ (dat V c).leavesExact 1 t ∗ (dat V c).leavesExact 2 t
        ∗ (dat V c).leavesExact 3 t ∗ (dat V c).leavesExact 4 t)) := by
  unfold bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ, carriedAt_succ]
  rw [show (dat V c).Φ t.castSucc = PhiS V c t.val (Nat.le_of_lt t.isLt) from rfl]
  rw [show (dat V c).leavesExact 0 t = owns (c : Thread nD τ) (st0_0 t) fullShare (iblk V c 0 t) from by
    unfold Dat.leavesExact; rw [show cfg0.idle 0 (grid0.coords t) = false from rfl, after0_0]]
  rw [show (dat V c).leavesExact 1 t = owns (c : Thread nD τ) (st0_1 t) fullShare (iblk V c 1 t) from by
    unfold Dat.leavesExact; rw [show cfg0.idle 1 (grid0.coords t) = false from rfl, after0_1]]
  rw [show (dat V c).leavesExact 2 t = owns (c : Thread nD τ) (st0_2 t) fullShare (iblk V c 2 t) from by
    unfold Dat.leavesExact; rw [show cfg0.idle 2 (grid0.coords t) = false from rfl, after0_2]]
  rw [show (dat V c).leavesExact 3 t = owns (c : Thread nD τ) (st0_3 t) fullShare (iblk V c 3 t) from by
    unfold Dat.leavesExact; rw [show cfg0.idle 3 (grid0.coords t) = false from rfl, after0_3]]
  by_cases hj0 : ((grid0.coords t) 1).val = 0
  · have hj7 : ((grid0.coords t) 1).val ≠ 7 := by omega
    rw [Dat.leavesExact_idle (dat V c) 4 t (idleOut t hj7) (noFlushOut t hj7)]
    by_cases hz : t.val = 0
    · rw [PhiS_zero V c _ _ hz, PhiA0_eq]; unfold scratchAt
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runFirst c (grid0.coords t) _ _ _ _ _ _ _ _ _ _ _ _ _ _ _ _ _ _ _ _ hj0 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4
    · rw [PhiS_pos V c _ _ hz]; unfold scratchAt
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runFirst c (grid0.coords t) _ _ _ _ _ _ _ _ _ _ _ _ _ _ _ _ _ _ _ _ hj0 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hj0 (by rw [col_eq, h])
    rw [PhiS_pos V c _ _ hz]; unfold scratchAt
    by_cases hj7 : ((grid0.coords t) 1).val = 7
    · rw [show (dat V c).leavesExact 4 t = owns (c : Thread nD τ) (st0_4 t) fullShare (Carried.loss (carriedAt V c (t.val + 1) t.isLt)) from by
        unfold Dat.leavesExact; rw [liveOut t hj7, after0_4], carriedAt_succ]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ _ _ _ _ hj7 (iblk V c 0 t) (iblk V c 1 t) (iblk V c 2 t) (iblk V c 3 t) (carriedAt V c t.val (Nat.le_of_lt t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleOut t hj7) (noFlushOut t hj7)]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ _ _ _ _ hj0 hj7 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the scoped rest and the generator register back, the scratch buffers'
    named contents forgotten. -/
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  unfold scratchAt
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.Kernel.Gen

end
-- ==== Proof.WordTiledShares.lean ====
/-
  The two normalised tables are each read through two windows, so the launch cannot hand each window its array at the
  full share: of the three distinct buffers behind the five windows, each table's is dealt by halves (the left half to
  the row-block window, the right half to the column-block window) and the output column's goes whole to its one window.
  At the region's exit the halves of each table, at one and the same contents, are joined again.
-/
import proofs.«403767_j22084721836062_1_alg».proof.Proof.WordTiledData

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the five windows' arrays: the two tables and the output column. -/
theorem arrRefs_eq : (Finset.univ.image (Pipeline.arrRef spec0) : Finset (Ref sig .tc))
    = [main_call0_v18, main_call0_v19, main_call0_v20].toFinset := by decide

/-- Those three buffers, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_call0_v18) ↦{fullShare} V' main_call0_v18)
          ∗ (((c : Thread nD τ).loc main_call0_v19) ↦{fullShare} V' main_call0_v19)
          ∗ (((c : Thread nD τ).loc main_call0_v20) ↦{fullShare} V' main_call0_v20)) := by
  unfold Pipeline.arrBufs
  exact bigSep_eq_bigSepL_of_eq [main_call0_v18, main_call0_v19, main_call0_v20] arrRefs_eq (by decide) _

/-- Each window's share of its array: the tables by halves, the output column whole. -/
theorem share0_0 (c : Dev nD) : (dat V c).share 0 = fullShare.left := by
  unfold Dat.share; rw [if_neg (by decide)]; dsimp only [dat]
theorem share0_1 (c : Dev nD) : (dat V c).share 1 = fullShare.left := by
  unfold Dat.share; rw [if_neg (by decide)]; dsimp only [dat]
theorem share0_2 (c : Dev nD) : (dat V c).share 2 = fullShare.right := by
  unfold Dat.share; rw [if_neg (by decide)]; dsimp only [dat]
theorem share0_3 (c : Dev nD) : (dat V c).share 3 = fullShare.right := by
  unfold Dat.share; rw [if_neg (by decide)]; dsimp only [dat]
theorem share0_4 (c : Dev nD) : (dat V c).share 4 = fullShare := by
  unfold Dat.share; rw [if_pos (by decide)]

/-- One window's array: a whole buffer, held at the window's share. -/
theorem arr_pt (c : Dev nD) (w : Fin cfg0.W) (q : PosShare TreeShare) (hq : (dat V c).share w = q)
    (X : Buf (Elt F) ((cfg0.win w).arr.view.loc (c : Thread nD τ))) :
    ((cfg0.win w).arr.view.loc (c : Thread nD τ) ↦[(cfg0.win w).arr.view.set]{(dat V c).share w} X : sProp 𝕄)
      = (((c : Thread nD τ).loc (Pipeline.arrRef spec0 w)) ↦{q} X) := by
  rw [(arr_whole0 w).set_eq_univ, hq]

/-- The five windows' arrays, window by window, each at its share. -/
theorem arrays_eq_chain (c : Dev nD) (G : (w : Fin cfg0.W) → Buf (Elt F) ((cfg0.win w).arr.view.loc (c : Thread nD τ))) :
    ((dat V c).arrays G : sProp 𝕄)
      = iprop((((c : Thread nD τ).loc main_call0_v18) ↦{fullShare.left} G 0)
          ∗ (((c : Thread nD τ).loc main_call0_v19) ↦{fullShare.left} G 1)
          ∗ (((c : Thread nD τ).loc main_call0_v18) ↦{fullShare.right} G 2)
          ∗ (((c : Thread nD τ).loc main_call0_v19) ↦{fullShare.right} G 3)
          ∗ (((c : Thread nD τ).loc main_call0_v20) ↦{fullShare} G 4)) := by
  unfold Dat.arrays
  refine (bigSep_W0 _).trans ?_
  exact congrArg₂ BI.sep (arr_pt V c 0 _ (share0_0 V c) _) (congrArg₂ BI.sep (arr_pt V c 1 _ (share0_1 V c) _)
    (congrArg₂ BI.sep (arr_pt V c 2 _ (share0_2 V c) _) (congrArg₂ BI.sep (arr_pt V c 3 _ (share0_3 V c) _) (arr_pt V c 4 _ (share0_4 V c) _))))

/-- ENTRY, the arrays' part: the three buffers behind the windows' arrays, whole at the full share at the entry
    contents, are the five windows' arrays at those contents, each table's full share dealt by halves. -/
theorem arrays_entry (c : Dev nD) : (Pipeline.arrBufs spec0 c (V c) : sProp 𝕄) ⊢ (dat V c).arrays (dat V c).A := by
  rw [arrBufs_eq, arrays_eq_chain]
  iintro ⟨HA, HB, HO⟩
  ihave HA2 := (pointsTo_share (PosShare.mem_left_op_right fullShare)).1 $$ HA
  ihave HB2 := (pointsTo_share (PosShare.mem_left_op_right fullShare)).1 $$ HB
  icases HA2 with ⟨HAl, HAr⟩
  icases HB2 with ⟨HBl, HBr⟩
  isplitl [HAl]; · iexact HAl
  isplitl [HBl]; · iexact HBl
  isplitl [HAr]; · iexact HAr
  isplitl [HBr]; · iexact HBr
  iexact HO

/-- The same, the entry contents named as the arrays before any write-back. -/
theorem arrays_entry₀ (c : Dev nD) : (Pipeline.arrBufs spec0 c (V c) : sProp 𝕄) ⊢ (dat V c).arrays ((dat V c).arrAt · 0) :=
  arrays_entry V c

/-- EXIT, the arrays' part: the five windows' arrays at contents that are one valuation's read at each window's array
    (so the two windows on a table agree) are the three buffers behind them, whole at the full share at that valuation:
    each table's halves joined. -/
theorem arrays_exit (c : Dev nD) (G : (w : Fin cfg0.W) → Buf (Elt F) ((cfg0.win w).arr.view.loc (c : Thread nD τ)))
    (V' : (b : Ref sig .tc) → Buf (Elt F) ((c : Thread nD τ).loc b)) (hG : ∀ w, G w = V' (Pipeline.arrRef spec0 w)) :
    ((dat V c).arrays G : sProp 𝕄) ⊢ Pipeline.arrBufs spec0 c V' := by
  rw [arrBufs_eq, arrays_eq_chain, hG 0, hG 1, hG 2, hG 3, hG 4]
  iintro ⟨HAl, HBl, HAr, HBr, HO⟩
  isplitl [HAl HAr]
  · iapply (pointsTo_share (PosShare.mem_left_op_right fullShare)).2
    isplitl [HAl]; · iexact HAl
    iexact HAr
  isplitl [HBl HBr]
  · iapply (pointsTo_share (PosShare.mem_left_op_right fullShare)).2
    isplitl [HBl]; · iexact HBl
    iexact HBr
  iexact HO

end Cert.Kernel.Gen

end
-- ==== Proof.WordTiledLaunch.lean ====
/-
  The launch of the tiled program: @main is a stretch of host operations (which forms the two normalised tables), the
  tiled region, and a last stretch of host operations (which averages the output column).  The thread state between
  segments is "every unscoped buffer of the TensorCore at a named valuation, the generator register at some state,
  nothing owed".  At the region's entry the three buffers behind the five windows' arrays are split out of the unscoped
  buffers and each table's full share is dealt by halves to its two windows; at the exit the halves are joined again and
  the buffers put back, the output column at what the write-backs left and every other buffer as entered.  Neither
  stretch and no write-back touches an argument, so both arguments end as launched.
-/
import proofs.«403767_j22084721836062_1_alg».proof.Proof.WordTiledBody
import proofs.«403767_j22084721836062_1_alg».proof.Proof.WordTiledShares
import Mathlib.Logic.Function.Basic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- At the region's exit: the output column at what the write-backs left, every other buffer as entered. -/
def W2 (c : Dev nD) : Valuation τ sig (Elt F) :=
  Function.update (W1 m ρ c) (Proc.devRef .tc main_call0_v20) ((dat (V1 m ρ) c).arrAt 4 cfg0.N)
theorem W2_out (c : Dev nD) : W2 m ρ c (Proc.devRef .tc main_call0_v20) = (dat (V1 m ρ) c).arrAt 4 cfg0.N := by
  unfold W2; exact Function.update_self _ _ _
theorem W2_of_ne (c : Dev nD) (b : Ref sig .tc) (hb : b ≠ main_call0_v20) :
    W2 m ρ c (Proc.devRef .tc b) = W1 m ρ c (Proc.devRef .tc b) := by
  unfold W2; exact Function.update_of_ne (fun e => hb (Proc.devRef_injective _ e)) _ _
/-- The same read at the TensorCore's references. -/
abbrev V2 : (c : Dev nD) → (b : Ref sig .tc) → Buf (Elt F) ((c : Thread nD τ).loc b) := fun c b => W2 m ρ c b
/-- After the last host stretch: what the launch reads at the end. -/
abbrev W3 : Dev nD → Valuation τ sig (Elt F) := fun c => StableHlo.after hostOps1 (W2 m ρ c)

/-- At the exit each window's array holds what the pipeline leaves: an input's is never written, so both windows on a
    table read the table's entry contents; the output's is at its write-backs. -/
theorem hF0 (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_call0_v18 (by decide)).symm
  | ⟨1, _⟩ => (((dat (V1 m ρ) c).arrAt_in 1 rfl _).trans (A_eq (V1 m ρ) c 1)).trans (W2_of_ne m ρ c main_call0_v19 (by decide)).symm
  | ⟨2, _⟩ => (((dat (V1 m ρ) c).arrAt_in 2 rfl _).trans (A_eq (V1 m ρ) c 2)).trans (W2_of_ne m ρ c main_call0_v18 (by decide)).symm
  | ⟨3, _⟩ => (((dat (V1 m ρ) c).arrAt_in 3 rfl _).trans (A_eq (V1 m ρ) c 3)).trans (W2_of_ne m ρ c main_call0_v19 (by decide)).symm
  | ⟨4, _⟩ => (W2_out m ρ c).symm
/-- Off the windows' arrays the exit contents are the entry contents. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ### The arguments end as launched: no host operation and no write-back touches one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The region's arrays out of the unscoped buffers and back -/

/-- ENTRY: every unscoped buffer at the entry contents is the five windows' arrays at those contents, the tables by
    halves, and the unscoped buffers that are no window's array. -/
theorem arrays_of_held (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_entry₀ (V1 m ρ) c) .rfl

/-- EXIT: the windows' arrays as the pipeline leaves them and the other unscoped buffers as entered are every unscoped
    buffer at the exit contents. -/
theorem held_of_arrays (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c)]
  refine sep_mono (arrays_exit (V1 m ρ) c _ (V2 m ρ c) (hF0 m ρ c)) (Entails.of_eq ?_)
  unfold Pipeline.unscopedRest
  exact bigSep_congr fun b hb => by rw [hrest0 m ρ c b (Finset.mem_sdiff.mp hb).2]

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The tiled region over the thread state: entered from every unscoped buffer at the entry contents, left at the exit
    contents. Its arrays are split out of the unscoped buffers and put back; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := arrays_of_held m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := held_of_arrays m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the first host stretch, the region, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
set_option maxHeartbeats 40000000 in
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer of every core at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has both
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.Kernel.Gen

end
-- ==== Proof.TiledStep.lean ====
/-
  One grid point of the tiled program as a pure function, and the five running columns point by point.

  The grid is 8 row blocks by 8 column blocks of 512, walked row block by row block: point `t = 8·i + j` sees row block `i`
  of the two normalised tables (`x0`, `x1`) and column block `j` of the same two tables (`x2`, `x3`).  Five columns of 512
  entries live in scratch across the points of one row block: the running maximum and the running sum of exponentials of
  each row of `[x0·x3ᵀ | x0·x2ᵀ]` (`ma`, `la`), the same two of `[x1·x2ᵀ | x1·x3ᵀ]` (`mb`, `lb`), and the running diagonal
  pick of `x0·x3ᵀ` (`pos`).  At `j = 0` they are first reset to `(-∞, 0, -∞, 0, 0)`; every point
  merges its column block into them; at `j = 7` the row block's 512 losses are formed from them.  Everything here is the
  body's own arithmetic, by its named pieces, at any float instance.
-/
import proofs.«403767_j22084721836062_1_alg».proof.Proof.Gen.KernelIdeal.Skeleton
import proofs.«403767_j22084721836062_1_alg».proof.Proof.Gen.KernelIdeal.Launch
import proofs.«403767_j22084721836062_1_alg».proof.Proof.Gen.KernelIdeal.Points

noncomputable section

namespace Cert.KernelIdeal.Gen

open Idealize.ShloMosaic Idealize.ShloMosaic.TcCoe Idealize.SL.Sem

variable {F : FTy → Type} [FloatOps F] [Named F]

/-- The five columns carried across the column blocks of one row block. -/
structure Carried (F : FTy → Type) [FloatOps F] where
  ma : Vec F S512x1 .f32
  la : Vec F S512x1 .f32
  mb : Vec F S512x1 .f32
  lb : Vec F S512x1 .f32
  pos : Vec F S512x1 .f32

/-- What the first column block's reset stores: `(-∞, 0, -∞, 0, 0)`. -/
def Carried.fresh : Carried F := ⟨k0_pay2 (F := F), k0_pay3 (F := F), k0_pay4 (F := F), k0_pay5 (F := F), k0_pay6 (F := F)⟩

/-- The columns a point starts from: reset at the first column block, else as the point before left them. -/
def Carried.start (i : grid0.Coords) (S : Carried F) : Carried F := if (i 1).val = 0 then Carried.fresh else S

/-- One point: the column block merged into the five columns. `x0`, `x1` are the row blocks of the two tables, `x2`, `x3`
    their column blocks. -/
def Carried.merge (i : grid0.Coords) (x0 x1 x2 x3 : Vec F S512x768 .bf16) (S : Carried F) : Carried F :=
  { ma := k0_pay23 (k0_pay20 (k0_pay11 x0 x3) (k0_pay12 x0 x2) (k0_pay15 i) (Carried.start i S).ma)
    la := k0_pay22 (k0_pay21 (k0_pay11 x0 x3) (k0_pay12 x0 x2) (k0_pay15 i) (Carried.start i S).ma (Carried.start i S).ma (Carried.start i S).la)
    mb := k0_pay26 (k0_pay13 x1 x2) (k0_pay18 (k0_pay14 x1 x3) (k0_pay15 i)) (Carried.start i S).mb
    lb := k0_pay25 (k0_pay13 x1 x2) (k0_pay18 (k0_pay14 x1 x3) (k0_pay15 i)) (Carried.start i S).mb (Carried.start i S).mb (Carried.start i S).lb
    pos := k0_pay19 (k0_pay11 x0 x3) (k0_pay15 i) (Carried.start i S).pos }

/-- The row block's 512 losses, from the five columns after the last column block. -/
def Carried.loss (S : Carried F) : FVec F S512x1 .f32 := k0_pay1 S.ma S.la S.mb S.lb S.pos

end Cert.KernelIdeal.Gen

end
-- ==== Proof.TiledData.lean ====
/-
  What the tiled region holds, point by point, at any float instance: each window's block of its array as the region
  finds the arrays; the five carried columns after each point, by recursion on the point from the reset values; the
  region's invariant, which after a point names the five scratch buffers' contents; and the proof data of the pipeline.

  The two normalised tables are each read through TWO windows (row blocks and column blocks), so each table's array is
  held by halves: the row-block window takes the left half share, the column-block window the right half.  The output
  column has a window of its own at the full share; it is stored only at the last column block of a row block, where it
  is also written back, and is left alone elsewhere.
-/
import proofs.«403767_j22084721836062_1_alg».proof.Proof.TiledStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five carried columns after the first `n` points: from the reset values, each point's merge of its blocks. -/
def carriedAt (c : Dev nD) : (n : ℕ) → n ≤ cfg0.N → Carried F
  | 0, _ => Carried.fresh
  | n + 1, h => Carried.merge (grid0.coords ⟨n, h⟩) (iblk V c 0 ⟨n, h⟩) (iblk V c 1 ⟨n, h⟩) (iblk V c 2 ⟨n, h⟩) (iblk V c 3 ⟨n, h⟩)
      (carriedAt c n (Nat.le_of_succ_le h))

theorem carriedAt_succ (c : Dev nD) (n : ℕ) (h : n + 1 ≤ cfg0.N) :
    carriedAt V c (n + 1) h = Carried.merge (grid0.coords ⟨n, h⟩) (iblk V c 0 ⟨n, h⟩) (iblk V c 1 ⟨n, h⟩) (iblk V c 2 ⟨n, h⟩) (iblk V c 3 ⟨n, h⟩)
      (carriedAt V c n (Nat.le_of_succ_le h)) := rfl

/-- The five scratch buffers, whole, at the columns `S`. -/
def scratchAt (c : Dev nD) (S : Carried F) : sProp 𝕄 :=
  iprop(owns (c : Thread nD τ) (Memref.whole cc0_scratch0) fullShare S.ma
    ∗ owns (c : Thread nD τ) (Memref.whole cc0_scratch1) fullShare S.la
    ∗ owns (c : Thread nD τ) (Memref.whole cc0_scratch2) fullShare S.mb
    ∗ owns (c : Thread nD τ) (Memref.whole cc0_scratch3) fullShare S.lb
    ∗ owns (c : Thread nD τ) (Memref.whole cc0_scratch4) fullShare S.pos)

/-- The region's invariant before point `n`: before the first point every scratch buffer at anything and the generator
    register at some state; afterwards the scratch buffers at the carried columns and the register at some state. -/
def PhiS (c : Dev nD) : (n : ℕ) → n ≤ cfg0.N → sProp 𝕄
  | 0, _ => Pipeline.ΦA spec0 c
  | n + 1, h => iprop(scratchAt c (carriedAt V c (n + 1) h) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (h : n + 1 ≤ cfg0.N) :
    PhiS V c (n + 1) h = iprop(scratchAt c (carriedAt V c (n + 1) h) ∗ (∃ r, prngReg c r)) := rfl

/-- The pipeline's proof data on core `c`: the arrays as the region finds them; after the body at a point each input's
    buffer at its block and the output's at the losses formed from the carried columns; the invariant above; each table's
    array held by halves between its two windows; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => Carried.loss (carriedAt V c (t.val + 1) t.isLt)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dat V c).A w = V c (Pipeline.arrRef spec0 w) := by dsimp only [dat]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) :
    (dat V c).after 4 t = Carried.loss (carriedAt V c (t.val + 1) t.isLt) := by dsimp only [dat]
theorem Phi_eq (c : Dev nD) (t : Fin (cfg0.N + 1)) : (dat V c).Φ t = PhiS V c t.val (Nat.le_of_lt_succ t.isLt) := by dsimp only [dat]

end Cert.KernelIdeal.Gen

end
-- ==== Proof.TiledRunCases.lean ====
/-
  The kernel function of the tiled program on any whole memrefs, in the three cases its two tests on the column block
  allow: at the first column block of a row block the five carried columns are reset and the block merged into the reset
  columns; at a middle column block the block is merged into the columns as they stand; at the last the block is merged
  and the row block's losses are formed from the merged columns and stored into the output's buffer.  In each case the
  inputs' buffers are left as found, and off the last column block so is the output's.  Every load reads either a buffer's
  contents as handed in or the payload of the store before it through the same whole-block rectangle, so what each
  scratch buffer ends with is the component of `Carried.merge` that names its last store.
-/
import proofs.«403767_j22084721836062_1_alg».proof.Proof.TiledData
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a load through the whole block reads, and what a store through it leaves -/

theorem zeros2 : (![0, 0] : Fin 2 → ℕ) = fun _ => 0 := by funext a; fin_cases a <;> rfl

/-- After a store through the whole column, last, the column reads the stored payload. -/
theorem read_writes_top {sg : RefSig} {κ : Kind} {sp : Space} (v : View sg κ sp S512x1 .f32) (f : v.ty.Contents (Elt F))
    (inb : ∀ a, (![0, 0] : Fin 2 → ℕ) a + S512x1.size a ≤ S512x1.size a) (w : S512x1.Idx → Elt F .f32)
    (L : List (View.Piece (Elt F) S512x1 .f32)) :
    v.read (Elt F) (v.writes (Elt F) f ((⟨Rect.unit ![0, 0] S512x1.size inb, w⟩ : View.Piece (Elt F) S512x1 .f32) :: L)) = w := by
  rw [View.read_writes_eq_canon _ _ _ (fun y => ⟨_, List.mem_cons_self, View.mem_set_unit_zero zeros2 inb y⟩)]
  exact View.canon_cons_unit_zero zeros2 inb w L

/-- A load of the whole column after a store through the whole column reads the stored payload. -/
theorem readCov_top {sg : RefSig} {κ : Kind} {sp : Space} (v : View sg κ sp S512x1 .f32)
    (inb inb' : ∀ a, (![0, 0] : Fin 2 → ℕ) a + S512x1.size a ≤ S512x1.size a) (w : S512x1.Idx → Elt F .f32)
    (L : List (View.Piece (Elt F) S512x1 .f32)) :
    v.readCov ((⟨Rect.unit ![0, 0] S512x1.size inb, w⟩ : View.Piece (Elt F) S512x1 .f32) :: L) (Rect.unit ![0, 0] S512x1.size inb').toLoadRect = w :=
  View.readCov_cons_toLoadRect v (Rect.unit ![0, 0] S512x1.size inb) w L

/-- A load of the whole block of a whole buffer held at contents that read `X` reads `X`. -/
theorem readAt_unit_unread {sp : Space} {s : Shape} {e : EltTy} {m : Memref sig .tc sp s e} (h : m.IsWhole) {off : Fin s.rank → ℕ}
    (h0 : off = fun _ => 0) (inb : ∀ a, off a + s.size a ≤ s.size a) (X : s.Idx → Elt F e) :
    View.readAt (Elt F) m.view (Rect.unit off s.size inb).toLoadRect (h.unread X) = X := by
  rw [View.readAt_eq_ld, h.read_unread]; exact View.ld_unit_zero h0 inb X

theorem readAt_col_unread {m : Memref sig .tc .vmem S512x1 .f32} (h : m.IsWhole)
    (inb : ∀ a, (![0, 0] : Fin 2 → ℕ) a + S512x1.size a ≤ S512x1.size a) (X : S512x1.Idx → Elt F .f32) :
    View.readAt (Elt F) m.view (Rect.unit ![0, 0] S512x1.size inb).toLoadRect (h.unread X) = X :=
  readAt_unit_unread h zeros2 inb X

theorem readAt_blk_unread {m : Memref sig .tc .vmem S512x768 .bf16} (h : m.IsWhole)
    (inb : ∀ a, (![0, 0] : Fin 2 → ℕ) a + S512x768.size a ≤ S512x768.size a) (X : S512x768.Idx → Elt F .bf16) :
    View.readAt (Elt F) m.view (Rect.unit ![0, 0] S512x768.size inb).toLoadRect (h.unread X) = X :=
  readAt_unit_unread h zeros2 inb X

/-! ## The body's two tests, from the coordinates -/

/-- The first conditional's test (is this the first column block?), as the body computes it. -/
abbrev condFirst (i : grid0.Coords) : Prop := (Scalar.cmpi .ne (Scalar.extui (Scalar.cmpi .eq (BitVec.ofNat 32 (i 1).val) 0#32)) 0#32) = 1#1

theorem condFirst_iff : ∀ i : grid0.Coords, condFirst i ↔ (i 1).val = 0 := by decide +kernel
theorem condLast_iff : ∀ i : grid0.Coords, k0_cond2 i = 1#1 ↔ (i 1).val = 7 := by decide +kernel

/-! ## The three runs -/

set_option maxHeartbeats 4000000 in
/-- The body at the first column block of a row block: the five columns are reset, whatever they held, and the block
    is merged into the reset columns; the output's buffer is not touched. -/
theorem runFirst (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj : (i 1).val = 0)
    (x0 x1 x2 x3 : Vec F S512x768 .bf16) (xo : Vec F S512x1 .f32) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hc0 : condFirst i := (condFirst_iff i).mpr hj
  have hc1 : ¬ k0_cond2 i = 1#1 := fun h => by have := (condLast_iff i).mp h; omega
  have hs : Carried.start i S = Carried.fresh := if_pos hj
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%fo, %hfo, HO⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr; · ipureintro; exact hfo
    iexact HO
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

set_option maxHeartbeats 4000000 in
/-- The body at a column block that is neither the first nor the last of its row block: the block is merged into the
    five columns as the point before left them; the output's buffer is not touched. -/
theorem runMid (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj0 : (i 1).val ≠ 0) (hj7 : (i 1).val ≠ 7)
    (x0 x1 x2 x3 : Vec F S512x768 .bf16) (xo : Vec F S512x1 .f32) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ owns (c : Thread nD τ) arg7 fullShare S.ma ∗ owns (c : Thread nD τ) arg8 fullShare S.la ∗ owns (c : Thread nD τ) arg9 fullShare S.mb ∗ owns (c : Thread nD τ) arg10 fullShare S.lb ∗ owns (c : Thread nD τ) arg11 fullShare S.pos
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hc0 : ¬ condFirst i := fun h => hj0 ((condFirst_iff i).mp h)
  have hc1 : ¬ k0_cond2 i = 1#1 := fun h => hj7 ((condLast_iff i).mp h)
  have hs : Carried.start i S = S := if_neg hj0
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%fo, %hfo, HO⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr; · ipureintro; exact hfo
    iexact HO
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

set_option maxHeartbeats 4000000 in
/-- The body at the last column block of a row block: the block is merged into the five columns as the point before
    left them, and the row block's losses, formed from the merged columns, are stored into the output's buffer whatever
    it held. -/
theorem runLast (c : Dev nD) (i : grid0.Coords) (arg2 : Memref sig .tc .vmem S512x768 .bf16) (harg2 : arg2.IsWhole) (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hj : (i 1).val = 7)
    (x0 x1 x2 x3 : Vec F S512x768 .bf16) (S : Carried F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare S.ma ∗ owns (c : Thread nD τ) arg8 fullShare S.la ∗ owns (c : Thread nD τ) arg9 fullShare S.mb ∗ owns (c : Thread nD τ) arg10 fullShare S.lb ∗ owns (c : Thread nD τ) arg11 fullShare S.pos
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (Carried.loss (Carried.merge i x0 x1 x2 x3 S))
            ∗ owns (c : Thread nD τ) arg7 fullShare (Carried.merge i x0 x1 x2 x3 S).ma
            ∗ owns (c : Thread nD τ) arg8 fullShare (Carried.merge i x0 x1 x2 x3 S).la
            ∗ owns (c : Thread nD τ) arg9 fullShare (Carried.merge i x0 x1 x2 x3 S).mb
            ∗ owns (c : Thread nD τ) arg10 fullShare (Carried.merge i x0 x1 x2 x3 S).lb
            ∗ owns (c : Thread nD τ) arg11 fullShare (Carried.merge i x0 x1 x2 x3 S).pos) -∗ K ⟨⟩))
      ⊢ wp frame (wpE (defs₀ (F := F)) Variants.none c none) E (cc0__icl_loss_kernel i arg2 harg2 arg3 harg3 arg4 harg4 arg5 harg5 arg6 harg6 arg7 harg7 arg8 harg8 arg9 harg9 arg10 harg10 arg11 harg11) K := by
  have hj0 : (i 1).val ≠ 0 := by omega
  have hc0 : ¬ condFirst i := fun h => hj0 ((condFirst_iff i).mp h)
  have hc1 : k0_cond2 i = 1#1 := (condLast_iff i).mpr hj
  have hs : Carried.start i S = S := if_neg hj0
  simp only [cc0__icl_loss_kernel_eq_skeleton]; unfold cc0__icl_loss_kernel_skel
  unfold owns
  iintro ⟨⟨%f0, %hf0, H0⟩, ⟨%f1, %hf1, H1⟩, ⟨%f2, %hf2, H2⟩, ⟨%f3, %hf3, H3⟩, ⟨%dO, %fo, -, HO⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HO]
  · iexists _; isplitr
    swap; · iexact HO
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.loss Carried.merge; dsimp only; rw [hs] <;> rfl
  isplitl [H7]
  · iexists _; isplitr
    swap; · iexact H7
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H8]
  · iexists _; isplitr
    swap; · iexact H8
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H9]
  · iexists _; isplitr
    swap; · iexact H9
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  isplitl [H10]
  · iexists _; isplitr
    swap; · iexact H10
    ipureintro
    sl_unfold_run_names
    rw [read_writes_top]
    try rw [readAt_blk_unread harg2]
    try rw [readAt_blk_unread harg3]
    try rw [readAt_blk_unread harg4]
    try rw [readAt_blk_unread harg5]
    repeat rw [readCov_top]
    repeat rw [readAt_col_unread]
    unfold Carried.merge; dsimp only; rw [hs] <;> rfl
  iexists _; isplitr
  swap; · iexact H11
  ipureintro
  sl_unfold_run_names
  rw [read_writes_top]
  try rw [readAt_blk_unread harg2]
  try rw [readAt_blk_unread harg3]
  try rw [readAt_blk_unread harg4]
  try rw [readAt_blk_unread harg5]
  repeat rw [readCov_top]
  repeat rw [readAt_col_unread]
  unfold Carried.merge; dsimp only; rw [hs] <;> rfl

end Cert.KernelIdeal.Gen

end
-- ==== Proof.TiledBody.lean ====
/-
  The body of the tiled program at every grid point: from the invariant before the point and each window's staging buffer
  at what the pipeline left in it, the kernel function runs without fault to the invariant after the point, the inputs'
  buffers as found and, at the last column block of a row block, the output's buffer at the row block's losses.
-/
import proofs.«403767_j22084721836062_1_alg».proof.Proof.TiledRunCases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The schedule, from the point's column block -/

/-- A point's column block is its number modulo 8. -/
theorem col_eq : ∀ t : Fin cfg0.N, ((grid0.coords t) 1).val = t.val % 8 :=
  (by decide +kernel : ∀ t : Fin grid0.N, ((grid0.coords t) 1).val = t.val % 8)

/-- Off the last column block the output's window is idle, -/
theorem idleOut : ∀ t : Fin cfg0.N, ((grid0.coords t) 1).val ≠ 7 → cfg0.idle 4 (grid0.coords t) = true := by decide +kernel
/-- and is not written back; -/
theorem noFlushOut : ∀ t : Fin cfg0.N, ((grid0.coords t) 1).val ≠ 7 → (cfg0.win 4).flush t = false := by decide +kernel
/-- at the last column block it is live. -/
theorem liveOut : ∀ t : Fin cfg0.N, ((grid0.coords t) 1).val = 7 → cfg0.idle 4 (grid0.coords t) = false := by decide +kernel

/-! ## What the inputs' buffers hold when the body runs -/

/-- Each input's current staging buffer holds its block at every point, fetched there or not: a row block is fetched
    at the first column block of its row and stays in place, its index unmoved, for the other seven. -/
theorem before0_0 (c : Dev nD) (t : Fin cfg0.N) (d) : (dat V c).before 0 t d = iblk V c 0 t :=
  ((dat V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat V c).before 1 t d = iblk V c 1 t :=
  ((dat V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat V c).before 2 t d = iblk V c 2 t :=
  ((dat V c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dat V c).before 3 t d = iblk V c 3 t :=
  ((dat V c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The invariant, opened -/

/-- Before a point that is not the first: the scratch buffers at the columns carried so far. -/
theorem PhiS_pos (c : Dev nD) (n : ℕ) (h : n ≤ cfg0.N) (hz : n ≠ 0) :
    PhiS V c n h = iprop(scratchAt c (carriedAt V c n h) ∗ (∃ r, prngReg c r)) := by
  cases n with
  | zero => exact absurd rfl hz
  | succ n => rfl

/-- What the launch hands the region, with the five scratch buffers as memrefs owned at some contents. -/
theorem PhiA0_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

/-! ## The body obligation, at a generic point -/

set_option maxHeartbeats 4800000 in
/-- The body at any point: the inputs' buffers hold their blocks; the column block says which of the three runs applies;
    the invariant hands the run the scratch buffers (at anything before the first point, else at the columns carried so
    far) and takes them back at the columns with this point's block merged in; off the last column block the output's
    buffer goes through untouched, at it the buffer is left at the row block's losses. -/
theorem sound_body (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ (dat V c).leavesExact 0 t ∗ (dat V c).leavesExact 1 t ∗ (dat V c).leavesExact 2 t
        ∗ (dat V c).leavesExact 3 t ∗ (dat V c).leavesExact 4 t)) := by
  unfold bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ, carriedAt_succ]
  rw [show (dat V c).Φ t.castSucc = PhiS V c t.val (Nat.le_of_lt t.isLt) from rfl]
  rw [show (dat V c).leavesExact 0 t = owns (c : Thread nD τ) (st0_0 t) fullShare (iblk V c 0 t) from by
    unfold Dat.leavesExact; rw [show cfg0.idle 0 (grid0.coords t) = false from rfl, after0_0]]
  rw [show (dat V c).leavesExact 1 t = owns (c : Thread nD τ) (st0_1 t) fullShare (iblk V c 1 t) from by
    unfold Dat.leavesExact; rw [show cfg0.idle 1 (grid0.coords t) = false from rfl, after0_1]]
  rw [show (dat V c).leavesExact 2 t = owns (c : Thread nD τ) (st0_2 t) fullShare (iblk V c 2 t) from by
    unfold Dat.leavesExact; rw [show cfg0.idle 2 (grid0.coords t) = false from rfl, after0_2]]
  rw [show (dat V c).leavesExact 3 t = owns (c : Thread nD τ) (st0_3 t) fullShare (iblk V c 3 t) from by
    unfold Dat.leavesExact; rw [show cfg0.idle 3 (grid0.coords t) = false from rfl, after0_3]]
  by_cases hj0 : ((grid0.coords t) 1).val = 0
  · have hj7 : ((grid0.coords t) 1).val ≠ 7 := by omega
    rw [Dat.leavesExact_idle (dat V c) 4 t (idleOut t hj7) (noFlushOut t hj7)]
    by_cases hz : t.val = 0
    · rw [PhiS_zero V c _ _ hz, PhiA0_eq]; unfold scratchAt
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runFirst c (grid0.coords t) _ _ _ _ _ _ _ _ _ _ _ _ _ _ _ _ _ _ _ _ hj0 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4
    · rw [PhiS_pos V c _ _ hz]; unfold scratchAt
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runFirst c (grid0.coords t) _ _ _ _ _ _ _ _ _ _ _ _ _ _ _ _ _ _ _ _ hj0 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hj0 (by rw [col_eq, h])
    rw [PhiS_pos V c _ _ hz]; unfold scratchAt
    by_cases hj7 : ((grid0.coords t) 1).val = 7
    · rw [show (dat V c).leavesExact 4 t = owns (c : Thread nD τ) (st0_4 t) fullShare (Carried.loss (carriedAt V c (t.val + 1) t.isLt)) from by
        unfold Dat.leavesExact; rw [liveOut t hj7, after0_4], carriedAt_succ]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ _ _ _ _ hj7 (iblk V c 0 t) (iblk V c 1 t) (iblk V c 2 t) (iblk V c 3 t) (carriedAt V c t.val (Nat.le_of_lt t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleOut t hj7) (noFlushOut t hj7)]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ _ _ _ _ hj0 hj7 (iblk V c 0 t) (iblk V c 1 t) (iblk V c 2 t) (iblk V c 3 t) _ (carriedAt V c t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitr [Hg]
        · isplitl [HS0]; · iexact HS0
          isplitl [HS1]; · iexact HS1
          isplitl [HS2]; · iexact HS2
          isplitl [HS3]; · iexact HS3
          iexact HS4
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the scoped rest and the generator register back, the scratch buffers'
    named contents forgotten. -/
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  unfold scratchAt
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.KernelIdeal.Gen

end
-- ==== Proof.TiledShares.lean ====
/-
  The two normalised tables are each read through two windows, so the launch cannot hand each window its array at the
  full share: of the three distinct buffers behind the five windows, each table's is dealt by halves (the left half to
  the row-block window, the right half to the column-block window) and the output column's goes whole to its one window.
  At the region's exit the halves of each table, at one and the same contents, are joined again.
-/
import proofs.«403767_j22084721836062_1_alg».proof.Proof.TiledData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The distinct buffers behind the five windows' arrays: the two tables and the output column. -/
theorem arrRefs_eq : (Finset.univ.image (Pipeline.arrRef spec0) : Finset (Ref sig .tc))
    = [main_call0_v18, main_call0_v19, main_call0_v20].toFinset := by decide

/-- Those three buffers, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_call0_v18) ↦{fullShare} V' main_call0_v18)
          ∗ (((c : Thread nD τ).loc main_call0_v19) ↦{fullShare} V' main_call0_v19)
          ∗ (((c : Thread nD τ).loc main_call0_v20) ↦{fullShare} V' main_call0_v20)) := by
  unfold Pipeline.arrBufs
  exact bigSep_eq_bigSepL_of_eq [main_call0_v18, main_call0_v19, main_call0_v20] arrRefs_eq (by decide) _

/-- Each window's share of its array: the tables by halves, the output column whole. -/
theorem share0_0 (c : Dev nD) : (dat V c).share 0 = fullShare.left := by
  unfold Dat.share; rw [if_neg (by decide)]; dsimp only [dat]
theorem share0_1 (c : Dev nD) : (dat V c).share 1 = fullShare.left := by
  unfold Dat.share; rw [if_neg (by decide)]; dsimp only [dat]
theorem share0_2 (c : Dev nD) : (dat V c).share 2 = fullShare.right := by
  unfold Dat.share; rw [if_neg (by decide)]; dsimp only [dat]
theorem share0_3 (c : Dev nD) : (dat V c).share 3 = fullShare.right := by
  unfold Dat.share; rw [if_neg (by decide)]; dsimp only [dat]
theorem share0_4 (c : Dev nD) : (dat V c).share 4 = fullShare := by
  unfold Dat.share; rw [if_pos (by decide)]

/-- One window's array: a whole buffer, held at the window's share. -/
theorem arr_pt (c : Dev nD) (w : Fin cfg0.W) (q : PosShare TreeShare) (hq : (dat V c).share w = q)
    (X : Buf (Elt F) ((cfg0.win w).arr.view.loc (c : Thread nD τ))) :
    ((cfg0.win w).arr.view.loc (c : Thread nD τ) ↦[(cfg0.win w).arr.view.set]{(dat V c).share w} X : sProp 𝕄)
      = (((c : Thread nD τ).loc (Pipeline.arrRef spec0 w)) ↦{q} X) := by
  rw [(arr_whole0 w).set_eq_univ, hq]

/-- The five windows' arrays, window by window, each at its share. -/
theorem arrays_eq_chain (c : Dev nD) (G : (w : Fin cfg0.W) → Buf (Elt F) ((cfg0.win w).arr.view.loc (c : Thread nD τ))) :
    ((dat V c).arrays G : sProp 𝕄)
      = iprop((((c : Thread nD τ).loc main_call0_v18) ↦{fullShare.left} G 0)
          ∗ (((c : Thread nD τ).loc main_call0_v19) ↦{fullShare.left} G 1)
          ∗ (((c : Thread nD τ).loc main_call0_v18) ↦{fullShare.right} G 2)
          ∗ (((c : Thread nD τ).loc main_call0_v19) ↦{fullShare.right} G 3)
          ∗ (((c : Thread nD τ).loc main_call0_v20) ↦{fullShare} G 4)) := by
  unfold Dat.arrays
  refine (bigSep_W0 _).trans ?_
  exact congrArg₂ BI.sep (arr_pt V c 0 _ (share0_0 V c) _) (congrArg₂ BI.sep (arr_pt V c 1 _ (share0_1 V c) _)
    (congrArg₂ BI.sep (arr_pt V c 2 _ (share0_2 V c) _) (congrArg₂ BI.sep (arr_pt V c 3 _ (share0_3 V c) _) (arr_pt V c 4 _ (share0_4 V c) _))))

/-- ENTRY, the arrays' part: the three buffers behind the windows' arrays, whole at the full share at the entry
    contents, are the five windows' arrays at those contents, each table's full share dealt by halves. -/
theorem arrays_entry (c : Dev nD) : (Pipeline.arrBufs spec0 c (V c) : sProp 𝕄) ⊢ (dat V c).arrays (dat V c).A := by
  rw [arrBufs_eq, arrays_eq_chain]
  iintro ⟨HA, HB, HO⟩
  ihave HA2 := (pointsTo_share (PosShare.mem_left_op_right fullShare)).1 $$ HA
  ihave HB2 := (pointsTo_share (PosShare.mem_left_op_right fullShare)).1 $$ HB
  icases HA2 with ⟨HAl, HAr⟩
  icases HB2 with ⟨HBl, HBr⟩
  isplitl [HAl]; · iexact HAl
  isplitl [HBl]; · iexact HBl
  isplitl [HAr]; · iexact HAr
  isplitl [HBr]; · iexact HBr
  iexact HO

/-- The same, the entry contents named as the arrays before any write-back. -/
theorem arrays_entry₀ (c : Dev nD) : (Pipeline.arrBufs spec0 c (V c) : sProp 𝕄) ⊢ (dat V c).arrays ((dat V c).arrAt · 0) :=
  arrays_entry V c

/-- EXIT, the arrays' part: the five windows' arrays at contents that are one valuation's read at each window's array
    (so the two windows on a table agree) are the three buffers behind them, whole at the full share at that valuation:
    each table's halves joined. -/
theorem arrays_exit (c : Dev nD) (G : (w : Fin cfg0.W) → Buf (Elt F) ((cfg0.win w).arr.view.loc (c : Thread nD τ)))
    (V' : (b : Ref sig .tc) → Buf (Elt F) ((c : Thread nD τ).loc b)) (hG : ∀ w, G w = V' (Pipeline.arrRef spec0 w)) :
    ((dat V c).arrays G : sProp 𝕄) ⊢ Pipeline.arrBufs spec0 c V' := by
  rw [arrBufs_eq, arrays_eq_chain, hG 0, hG 1, hG 2, hG 3, hG 4]
  iintro ⟨HAl, HBl, HAr, HBr, HO⟩
  isplitl [HAl HAr]
  · iapply (pointsTo_share (PosShare.mem_left_op_right fullShare)).2
    isplitl [HAl]; · iexact HAl
    iexact HAr
  isplitl [HBl HBr]
  · iapply (pointsTo_share (PosShare.mem_left_op_right fullShare)).2
    isplitl [HBl]; · iexact HBl
    iexact HBr
  iexact HO

end Cert.KernelIdeal.Gen

end
-- ==== Proof.TiledLaunch.lean ====
/-
  The launch of the tiled program: @main is a stretch of host operations (which forms the two normalised tables), the
  tiled region, and a last stretch of host operations (which averages the output column).  The thread state between
  segments is "every unscoped buffer of the TensorCore at a named valuation, the generator register at some state,
  nothing owed".  At the region's entry the three buffers behind the five windows' arrays are split out of the unscoped
  buffers and each table's full share is dealt by halves to its two windows; at the exit the halves are joined again and
  the buffers put back, the output column at what the write-backs left and every other buffer as entered.  Neither
  stretch and no write-back touches an argument, so both arguments end as launched.
-/
import proofs.«403767_j22084721836062_1_alg».proof.Proof.TiledBody
import proofs.«403767_j22084721836062_1_alg».proof.Proof.TiledShares
import Mathlib.Logic.Function.Basic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- At the region's exit: the output column at what the write-backs left, every other buffer as entered. -/
def W2 (c : Dev nD) : Valuation τ sig (Elt F) :=
  Function.update (W1 m ρ c) (Proc.devRef .tc main_call0_v20) ((dat (V1 m ρ) c).arrAt 4 cfg0.N)
theorem W2_out (c : Dev nD) : W2 m ρ c (Proc.devRef .tc main_call0_v20) = (dat (V1 m ρ) c).arrAt 4 cfg0.N := by
  unfold W2; exact Function.update_self _ _ _
theorem W2_of_ne (c : Dev nD) (b : Ref sig .tc) (hb : b ≠ main_call0_v20) :
    W2 m ρ c (Proc.devRef .tc b) = W1 m ρ c (Proc.devRef .tc b) := by
  unfold W2; exact Function.update_of_ne (fun e => hb (Proc.devRef_injective _ e)) _ _
/-- The same read at the TensorCore's references. -/
abbrev V2 : (c : Dev nD) → (b : Ref sig .tc) → Buf (Elt F) ((c : Thread nD τ).loc b) := fun c b => W2 m ρ c b
/-- After the last host stretch: what the launch reads at the end. -/
abbrev W3 : Dev nD → Valuation τ sig (Elt F) := fun c => StableHlo.after hostOps1 (W2 m ρ c)

/-- At the exit each window's array holds what the pipeline leaves: an input's is never written, so both windows on a
    table read the table's entry contents; the output's is at its write-backs. -/
theorem hF0 (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_call0_v18 (by decide)).symm
  | ⟨1, _⟩ => (((dat (V1 m ρ) c).arrAt_in 1 rfl _).trans (A_eq (V1 m ρ) c 1)).trans (W2_of_ne m ρ c main_call0_v19 (by decide)).symm
  | ⟨2, _⟩ => (((dat (V1 m ρ) c).arrAt_in 2 rfl _).trans (A_eq (V1 m ρ) c 2)).trans (W2_of_ne m ρ c main_call0_v18 (by decide)).symm
  | ⟨3, _⟩ => (((dat (V1 m ρ) c).arrAt_in 3 rfl _).trans (A_eq (V1 m ρ) c 3)).trans (W2_of_ne m ρ c main_call0_v19 (by decide)).symm
  | ⟨4, _⟩ => (W2_out m ρ c).symm
/-- Off the windows' arrays the exit contents are the entry contents. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-! ### The arguments end as launched: no host operation and no write-back touches one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The region's arrays out of the unscoped buffers and back -/

/-- ENTRY: every unscoped buffer at the entry contents is the five windows' arrays at those contents, the tables by
    halves, and the unscoped buffers that are no window's array. -/
theorem arrays_of_held (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_entry₀ (V1 m ρ) c) .rfl

/-- EXIT: the windows' arrays as the pipeline leaves them and the other unscoped buffers as entered are every unscoped
    buffer at the exit contents. -/
theorem held_of_arrays (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c)]
  refine sep_mono (arrays_exit (V1 m ρ) c _ (V2 m ρ c) (hF0 m ρ c)) (Entails.of_eq ?_)
  unfold Pipeline.unscopedRest
  exact bigSep_congr fun b hb => by rw [hrest0 m ρ c b (Finset.mem_sdiff.mp hb).2]

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The tiled region over the thread state: entered from every unscoped buffer at the entry contents, left at the exit
    contents. Its arrays are split out of the unscoped buffers and put back; the generator register goes into the
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := arrays_of_held m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine BIBase.Entails.trans (hout (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := held_of_arrays m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the first host stretch, the region, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
set_option maxHeartbeats 40000000 in
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer of every core at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has both
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.KernelIdeal.Gen

end
-- ==== Proof.TiledBlocks.lean ====
/-
  Where the tiled program's blocks sit in the two tables.

  The grid is 8 row blocks by 8 column blocks, walked row block by row block: point `t` has coordinates
  `(t / 8, t % 8)`.  The two row-block windows hand the body rows `512 (t / 8) + p` of the two tables, the two column-block
  windows rows `512 (t % 8) + q`; each is the table read at that row, entry by entry.
-/
import proofs.«403767_j22084721836062_1_alg».proof.Proof.TiledData
import Idealize.ShloMosaic.Lib.Pipeline.Value
import Idealize.ShloMosaic.Lib.ValueIdx

set_option maxRecDepth 16384

noncomputable section

namespace Cert.KernelIdeal.TiledValue

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-- The grid is walked row block by row block: point `t` has coordinates `(t / 8, t % 8)`. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block index of each window at point `t`: the row-block windows and the output follow `t / 8`, the column-block
    windows `t % 8`; no window moves along the second axis. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val % 8 ∧ win0_2.index t (1 : Fin 2) = 0)
    ∧ (win0_3.index t (0 : Fin 2) = t.val % 8 ∧ win0_3.index t (1 : Fin 2) = 0)
    ∧ (win0_4.index t (0 : Fin 2) = t.val / 8 ∧ win0_4.index t (1 : Fin 2) = 0) :=
  (by decide +kernel : ∀ t : Fin grid0.N, _)

/-- Window 0's block at point `t` is rows `512 (t / 8) …` of the first table. -/
theorem iblk0_apply (c : Dev nD) (t : Fin cfg0.N) (p : Fin 512) (k : Fin 768) (r : Fin 4096)
    (hr : r.val = 512 * (t.val / 8) + p.val) :
    (iblk V c 0 t : Vec Ideal S512x768 .bf16) (ix2 p k) = V c main_call0_v18 (ix2 r k) := by
  have hi := (idx_facts t).1
  unfold iblk
  rw [View.read_apply]
  show V c main_call0_v18 _ = V c main_call0_v18 _
  congr 1
  funext a
  apply Fin.ext
  match a with
  | ⟨0, _⟩ => show win0_0.index t 0 * 512 + 1 * p.val = r.val; rw [hi.1, hr]; omega
  | ⟨1, _⟩ => show win0_0.index t 1 * 768 + 1 * k.val = k.val; rw [hi.2]; omega

/-- Window 1's block at point `t` is rows `512 (t / 8) …` of the second table. -/
theorem iblk1_apply (c : Dev nD) (t : Fin cfg0.N) (p : Fin 512) (k : Fin 768) (r : Fin 4096)
    (hr : r.val = 512 * (t.val / 8) + p.val) :
    (iblk V c 1 t : Vec Ideal S512x768 .bf16) (ix2 p k) = V c main_call0_v19 (ix2 r k) := by
  have hi := (idx_facts t).2.1
  unfold iblk
  rw [View.read_apply]
  show V c main_call0_v19 _ = V c main_call0_v19 _
  congr 1
  funext a
  apply Fin.ext
  match a with
  | ⟨0, _⟩ => show win0_1.index t 0 * 512 + 1 * p.val = r.val; rw [hi.1, hr]; omega
  | ⟨1, _⟩ => show win0_1.index t 1 * 768 + 1 * k.val = k.val; rw [hi.2]; omega

/-- Window 2's block at point `t` is rows `512 (t % 8) …` of the first table. -/
theorem iblk2_apply (c : Dev nD) (t : Fin cfg0.N) (q : Fin 512) (k : Fin 768) (r : Fin 4096)
    (hr : r.val = 512 * (t.val % 8) + q.val) :
    (iblk V c 2 t : Vec Ideal S512x768 .bf16) (ix2 q k) = V c main_call0_v18 (ix2 r k) := by
  have hi := (idx_facts t).2.2.1
  unfold iblk
  rw [View.read_apply]
  show V c main_call0_v18 _ = V c main_call0_v18 _
  congr 1
  funext a
  apply Fin.ext
  match a with
  | ⟨0, _⟩ => show win0_2.index t 0 * 512 + 1 * q.val = r.val; rw [hi.1, hr]; omega
  | ⟨1, _⟩ => show win0_2.index t 1 * 768 + 1 * k.val = k.val; rw [hi.2]; omega

/-- Window 3's block at point `t` is rows `512 (t % 8) …` of the second table. -/
theorem iblk3_apply (c : Dev nD) (t : Fin cfg0.N) (q : Fin 512) (k : Fin 768) (r : Fin 4096)
    (hr : r.val = 512 * (t.val % 8) + q.val) :
    (iblk V c 3 t : Vec Ideal S512x768 .bf16) (ix2 q k) = V c main_call0_v19 (ix2 r k) := by
  have hi := (idx_facts t).2.2.2.1
  unfold iblk
  rw [View.read_apply]
  show V c main_call0_v19 _ = V c main_call0_v19 _
  congr 1
  funext a
  apply Fin.ext
  match a with
  | ⟨0, _⟩ => show win0_3.index t 0 * 512 + 1 * q.val = r.val; rw [hi.1, hr]; omega
  | ⟨1, _⟩ => show win0_3.index t 1 * 768 + 1 * k.val = k.val; rw [hi.2]; omega

end Cert.KernelIdeal.TiledValue

end
-- ==== Proof.Spec.lean ====
/-
  The two programs as plain functions of the two tables of normalised rows, over the extended reals.

  Write `a r k` and `b r k` for entry `k` of the `r`-th normalised row picked by the first and by the second column of the
  index pairs (4096 rows of 768 entries each).  Four score matrices are built from them, each a matrix of row-by-row dot
  products times a temperature factor: `a·bᵀ`, `a·aᵀ`, `b·aᵀ`, `b·bᵀ`; the two self-products have `10⁹` taken off their
  diagonal.  For every row `r` the loss is half the log-sum-exp of row `r` of `[a·bᵀ | a·aᵀ]` plus half that of
  `[b·aᵀ | b·bᵀ]`, minus the diagonal score `(a·bᵀ) r r`; the result is the mean over the rows.

  The tiled program walks the 4096 columns in eight blocks of 512 and keeps, per row, a running maximum `m`, a running
  sum `l` of exponentials taken relative to `m` (rescaled by `exp (m_old - m_new)` whenever the maximum moves) and the
  running diagonal pick; it multiplies the dot products by the temperature factor's named value.  The plain program
  takes each row's maximum first, subtracts it, sums the exponentials of all 8192 entries, and divides the dot products
  by the 32-bit value of `0.05`.  Both are written here exactly as they compute, so that each side's proof only has to
  read its program at an index; that the two agree on real-valued tables is a separate, purely algebraic statement.
-/
import Idealize.ShloMosaic.PureOps.Ideal
import Mathlib.Algebra.BigOperators.Group.Finset.Basic
import Mathlib.Order.Fin.Basic

noncomputable section

namespace Cert.Contrast

open Idealize.ShloMosaic

/-- The temperature factor as the tiled program reads it: the named value `1 / f32(0.05) = 268435456 / 13421773`. -/
def invTemp : EReal := ((268435456 / 13421773 : ℝ) : EReal)
/-- The temperature as the plain program reads it: the 32-bit pattern of `0.05`, that is `13421773 / 268435456`. -/
def temp : EReal := Ideal.ofBits .f32 0x3D4CCCCD#32
/-- The amount taken off the diagonal of the two self-products: the 32-bit pattern of `10⁹` (exact). -/
def diagPenalty : EReal := Ideal.ofBits .f32 0x4E6E6B28#32
/-- One half and the row count, as 32-bit patterns. -/
def half : EReal := Ideal.ofBits .f32 0x3F000000#32
def rowCount : EReal := Ideal.ofBits .f32 0x45800000#32

/-- Row `r` of `x` against row `q` of `y`. -/
def dot (x y : Fin 4096 → Fin 768 → EReal) (r q : Fin 4096) : EReal := ∑ k : Fin 768, x r k * y q k

/-- `1` on the diagonal, `0` off it. -/
def diag (r q : Fin 4096) : EReal := if r = q then 1 else 0

/-- Column `p` of column block `j`. -/
def col (j : Fin 8) (p : Fin 512) : Fin 4096 := ⟨512 * j.val + p.val, by have := j.isLt; have := p.isLt; omega⟩

/-! ## The tiled side: one row's scores, block by block -/

section Tiled

/-- The largest entry of column block `j` over a plain row `u` and a diagonal-penalised row `v`. -/
def blockMax (u v : Fin 4096 → EReal) (j : Fin 8) : EReal :=
  max (Finset.univ.sup fun p : Fin 512 => u (col j p)) (Finset.univ.sup fun p : Fin 512 => v (col j p))

/-- The running maximum after merging column block `j`. -/
def mergeMax (u v : Fin 4096 → EReal) (j : Fin 8) (m : EReal) : EReal := max m (blockMax u v j)

/-- The running sum of exponentials after merging column block `j`: the old sum rescaled to the new maximum, plus
    the block's exponentials relative to the new maximum. -/
def mergeSum (u v : Fin 4096 → EReal) (j : Fin 8) (m l : EReal) : EReal :=
  Ideal.exp (m - mergeMax u v j m) * l
    + ((∑ p : Fin 512, Ideal.exp (u (col j p) - mergeMax u v j m))
      + (∑ p : Fin 512, Ideal.exp (v (col j p) - mergeMax u v j m)))

/-- Running maximum and running sum after the first `n` column blocks, from `(-∞, 0)`. -/
def running (u v : Fin 4096 → EReal) : ℕ → EReal × EReal
  | 0 => (⊥, 0)
  | n + 1 =>
    if h : n < 8 then
      (mergeMax u v ⟨n, h⟩ (running u v n).1, mergeSum u v ⟨n, h⟩ (running u v n).1 (running u v n).2)
    else running u v n

/-- The log-sum-exp the eight merges end at. -/
def tiledLse (u v : Fin 4096 → EReal) : EReal := (running u v 8).1 + Ideal.log (running u v 8).2

/-- The running diagonal pick after the first `n` column blocks: the row's entries against the row of the
    diagonal indicator, block sum by block sum, from `0`. -/
def picked (u e : Fin 4096 → EReal) : ℕ → EReal
  | 0 => 0
  | n + 1 => if h : n < 8 then picked u e n + ∑ p : Fin 512, u (col ⟨n, h⟩ p) * e (col ⟨n, h⟩ p) else picked u e n

variable (a b : Fin 4096 → Fin 768 → EReal)

/-- Row `r` of a cross product `x·yᵀ` and of a diagonal-penalised self-product `x·xᵀ`, as the tiled program forms them. -/
def tiledCross (x y : Fin 4096 → Fin 768 → EReal) (r q : Fin 4096) : EReal := dot x y r q * invTemp
def tiledSelf (x : Fin 4096 → Fin 768 → EReal) (r q : Fin 4096) : EReal := dot x x r q * invTemp - diag r q * diagPenalty

/-- Row `r` of the tiled program's output column. -/
def tiledRow (r : Fin 4096) : EReal :=
  (half * tiledLse (tiledCross a b r) (tiledSelf a r) + half * tiledLse (tiledCross b a r) (tiledSelf b r))
    - picked (tiledCross a b r) (diag r) 8

/-- The tiled program's result: the rows' mean. -/
def tiledLoss : EReal := Ideal.div (∑ r : Fin 4096, tiledRow a b r) rowCount

end Tiled

/-! ## The plain side: a whole row of 8192 scores at once -/

section Plain

/-- A plain row followed by a diagonal-penalised row: 8192 entries. -/
def joined (u v : Fin 4096 → EReal) (c : Fin 8192) : EReal :=
  if h : c.val < 4096 then u ⟨c.val, h⟩ else v ⟨c.val - 4096, by have := c.isLt; omega⟩

/-- Entry `r` of the row's log-softmax: the entry less the row's maximum, less the logarithm of the sum of the
    exponentials of all entries less that maximum. -/
def logSoftmaxAt (u v : Fin 4096 → EReal) (r : Fin 4096) : EReal :=
  (joined u v ⟨r.val, by have := r.isLt; omega⟩ - Finset.univ.sup (joined u v))
    - Ideal.log (∑ c : Fin 8192, Ideal.exp (joined u v c - Finset.univ.sup (joined u v)))

variable (a b : Fin 4096 → Fin 768 → EReal)

/-- The same two kinds of score row as the plain program forms them. -/
def plainCross (x y : Fin 4096 → Fin 768 → EReal) (r q : Fin 4096) : EReal := Ideal.div (dot x y r q) temp
def plainSelf (x : Fin 4096 → Fin 768 → EReal) (r q : Fin 4096) : EReal := Ideal.div (dot x x r q) temp - diag r q * diagPenalty

/-- Minus the mean of the diagonal log-probabilities, for each of the two joined matrices. -/
def plainLossA : EReal := Ideal.div (-(∑ r : Fin 4096, logSoftmaxAt (plainCross a b r) (plainSelf a r) r)) rowCount
def plainLossB : EReal := Ideal.div (-(∑ r : Fin 4096, logSoftmaxAt (plainCross b a r) (plainSelf b r) r)) rowCount

/-- The plain program's result. -/
def plainLoss : EReal := half * plainLossA a b + half * plainLossB a b

end Plain

end Cert.Contrast

end
-- ==== Proof.SpecRows.lean ====
/-
  Arrays as tables of rows, and the normalised rows both programs pick.

  `rows X` reads a 4096 × 768 array as its 4096 rows.  `unitRow emb row` is row `row` of the 100000 × 768 table divided by
  its Euclidean length (the square root of the sum of its squares).  `pick links s b` is the table row that entry
  `(b, s)` of the 4096 × 2 index array names; the word is read unsigned and reduced modulo the table's height, which
  changes nothing for an index in range.
-/
import proofs.«403767_j22084721836062_1_alg».proof.Proof.Spec
import Idealize.ShloMosaic.Lib.ValueIdx

noncomputable section

namespace Cert.Contrast

open Idealize.ShloMosaic Idealize.ShloMosaic.ValueIdx

/-- A 4096 × 768 array as a table of rows. -/
def rows (X : (⟨2, ![4096, 768]⟩ : Shape).Idx → EReal) : Fin 4096 → Fin 768 → EReal := fun r k => X (ix2 r k)

/-- The squared length of row `row` of the table. -/
def sqLen (emb : (⟨2, ![100000, 768]⟩ : Shape).Idx → EReal) (row : Fin 100000) : EReal :=
  ∑ k : Fin 768, emb (ix2 row k) * emb (ix2 row k)

/-- Row `row` of the table, divided by its length. -/
def unitRow (emb : (⟨2, ![100000, 768]⟩ : Shape).Idx → EReal) (row : Fin 100000) (k : Fin 768) : EReal :=
  Ideal.div (emb (ix2 row k)) (Ideal.sqrt (sqLen emb row))

/-- The table row named by entry `(b, s)` of the index array. -/
def pick (links : (⟨2, ![4096, 2]⟩ : Shape).Idx → BitVec 32) (s : Fin 2) (b : Fin 4096) : Fin 100000 :=
  ⟨(links (ix2 b s)).toNat % 100000, Nat.mod_lt _ (by norm_num)⟩

/-- The table of normalised rows picked by column `s` of the index array. -/
def picked_rows (emb : (⟨2, ![100000, 768]⟩ : Shape).Idx → EReal) (links : (⟨2, ![4096, 2]⟩ : Shape).Idx → BitVec 32) (s : Fin 2) :
    Fin 4096 → Fin 768 → EReal := fun b k => unitRow emb (pick links s b) k

/-- What the statement's precondition says, index by index: every table entry is a real number, every index word is
    (read signed) at least `0` and below `100000`, and every table row has a positive squared length. -/
structure Admissible (emb : (⟨2, ![100000, 768]⟩ : Shape).Idx → EReal) (links : (⟨2, ![4096, 2]⟩ : Shape).Idx → BitVec 32) : Prop where
  real : ∀ i, ∃ x : ℝ, emb i = (x : EReal)
  inRange : ∀ j, 0 ≤ (links j).toInt ∧ (links j).toInt < 100000
  nonzero : ∀ row : Fin 100000, 0 < sqLen emb row

end Cert.Contrast

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.TiledPieces.lean ====
/-
  The tiled body's arithmetic read entry by entry, over the extended reals.

  One grid point `i = (i₀, i₁)` sees row block `i₀` of the two tables of normalised rows (`x0`, `x1`) and column block
  `i₁` of the same two tables (`x2`, `x3`), each 512 rows of 768 entries.  From them it forms four 512 × 512 blocks of
  scores, each a dot product of two rows times the temperature factor: `x0·x3ᵀ`, `x0·x2ᵀ`, `x1·x2ᵀ`, `x1·x3ᵀ`; the two
  self-products (`x0·x2ᵀ`, `x1·x3ᵀ`) have `10⁹` taken off where global row `512·i₀ + p` is global column `512·i₁ + q`.
  Row `p` of the five running columns is then merged with the block: the running maximum against the two blocks' row
  maxima, the running sum of exponentials rescaled to the new maximum plus the two blocks' exponentials relative to it,
  and the running diagonal pick plus the cross block's entry on the diagonal.  Every statement below is one of these
  readings at row `p`, over arbitrary blocks and arbitrary incoming columns.
-/
import proofs.«403767_j22084721836062_1_alg».proof.Proof.TiledStep
import proofs.«403767_j22084721836062_1_alg».proof.Proof.SpecRows
import proofs.«403767_j22084721836062_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Data.Finset.Fold
import Mathlib.Data.Finset.Lattice.Fold

noncomputable section

namespace Cert.KernelIdeal.Pieces

open Idealize.ShloMosaic Idealize.ShloMosaic.ValueIdx Idealize.ShloMosaic.TcCoe Idealize.SL.Sem Cert.KernelIdeal.Gen

/-! ## Small readings at an index -/

/-- The named temperature factor is the table's value. -/
theorem invTau_eq : Named.named (F := Ideal) Cert.KernelIdeal.κ "inv_tau" (φ := .f32) 0x41A00000#32 = Cert.Contrast.invTemp :=
  IdealRules.named_const.ideal_named_scalar _ _ _ _ rfl

/-- A product of a 512 × 768 block with the transpose of another, scaled: at (p, q) the dot product of row p of the
    first with row q of the second, times the temperature factor. -/
theorem pay11_apply (x y : Vec Ideal S512x768 .bf16) (p q : Fin 512) :
    k0_pay11 (F := Ideal) x y (ix2 p q) = (∑ k : Fin 768, x (ix2 p k) * y (ix2 q k)) * Cert.Contrast.invTemp := by
  unfold k0_pay11 k0_pay7 k0_pay10
  simp only [shapeCast_self]
  rw [mulf_apply, broadcast_apply, invTau_eq]
  congr 1
  refine (Cert.Lib.PlainDot.matmul_plain_zero_ix2 512 768 512 none (φ₁ := .bf16) (φ₂ := .bf16) x
    (transpose S768x512 [1, 0] y transposes_S512x768_p1_0_S768x512) p q).trans ?_
  refine Finset.sum_congr rfl fun k _ => ?_
  rw [transpose_ix2_apply]

theorem pay12_apply (x y : Vec Ideal S512x768 .bf16) (p q : Fin 512) :
    k0_pay12 (F := Ideal) x y (ix2 p q) = (∑ k : Fin 768, x (ix2 p k) * y (ix2 q k)) * Cert.Contrast.invTemp := by
  unfold k0_pay12 k0_pay7 k0_pay9
  simp only [shapeCast_self]
  rw [mulf_apply, broadcast_apply, invTau_eq]
  congr 1
  refine (Cert.Lib.PlainDot.matmul_plain_zero_ix2 512 768 512 none (φ₁ := .bf16) (φ₂ := .bf16) x
    (transpose S768x512 [1, 0] y transposes_S512x768_p1_0_S768x512) p q).trans ?_
  refine Finset.sum_congr rfl fun k _ => ?_
  rw [transpose_ix2_apply]

theorem pay13_apply (x y : Vec Ideal S512x768 .bf16) (p q : Fin 512) :
    k0_pay13 (F := Ideal) x y (ix2 p q) = (∑ k : Fin 768, x (ix2 p k) * y (ix2 q k)) * Cert.Contrast.invTemp := by
  unfold k0_pay13 k0_pay8 k0_pay9
  simp only [shapeCast_self]
  rw [mulf_apply, broadcast_apply, invTau_eq]
  congr 1
  refine (Cert.Lib.PlainDot.matmul_plain_zero_ix2 512 768 512 none (φ₁ := .bf16) (φ₂ := .bf16) x
    (transpose S768x512 [1, 0] y transposes_S512x768_p1_0_S768x512) p q).trans ?_
  refine Finset.sum_congr rfl fun k _ => ?_
  rw [transpose_ix2_apply]

theorem pay14_apply (x y : Vec Ideal S512x768 .bf16) (p q : Fin 512) :
    k0_pay14 (F := Ideal) x y (ix2 p q) = (∑ k : Fin 768, x (ix2 p k) * y (ix2 q k)) * Cert.Contrast.invTemp := by
  unfold k0_pay14 k0_pay8 k0_pay10
  simp only [shapeCast_self]
  rw [mulf_apply, broadcast_apply, invTau_eq]
  congr 1
  refine (Cert.Lib.PlainDot.matmul_plain_zero_ix2 512 768 512 none (φ₁ := .bf16) (φ₂ := .bf16) x
    (transpose S768x512 [1, 0] y transposes_S512x768_p1_0_S768x512) p q).trans ?_
  refine Finset.sum_congr rfl fun k _ => ?_
  rw [transpose_ix2_apply]

/-! ## The diagonal indicator -/

/-- Two words below 4096 are equal exactly when the numbers are. -/
theorem word_eq_iff (a b : ℕ) (ha : a < 4096) (hb : b < 4096) : BitVec.ofNat 32 a = BitVec.ofNat 32 b ↔ a = b := by
  constructor
  · intro h
    have h' := congrArg BitVec.toNat h
    simp only [BitVec.toNat_ofNat] at h'
    omega
  · rintro rfl; rfl

/-- The indicator word of grid point `i` at (p, q): `1` where global row `512·i₀ + p` is global column `512·i₁ + q`. -/
theorem pay15_apply (i : grid0.Coords) (p q : Fin 512) :
    k0_pay15 i (ix2 p q) = if 512 * (i 0).val + p.val = 512 * (i 1).val + q.val then 1#32 else 0#32 := by
  have h0 : (i 0).val < 8 := (i 0).isLt
  have h1 : (i 1).val < 8 := (i 1).isLt
  have hp := p.isLt
  have hq := q.isLt
  have e0 : iota .tc S512x512 32 [0] iota_S512x512_d0_w32 (ix2 p q) = BitVec.ofNat 32 p.val :=
    iota_single_apply _ _ _ _ _ _
  have e1 : iota .tc S512x512 32 [1] iota_S512x512_d1_w32 (ix2 p q) = BitVec.ofNat 32 q.val :=
    iota_single_apply _ _ _ _ _ _
  have ea : BitVec.ofNat 32 (i 0).val * 512#32 + BitVec.ofNat 32 p.val = BitVec.ofNat 32 (512 * (i 0).val + p.val) := by
    rw [BitVec.ofNat_add, BitVec.ofNat_mul, BitVec.mul_comm]
  have eb : BitVec.ofNat 32 (i 1).val * 512#32 + BitVec.ofNat 32 q.val = BitVec.ofNat 32 (512 * (i 1).val + q.val) := by
    rw [BitVec.ofNat_add, BitVec.ofNat_mul, BitVec.mul_comm]
  unfold k0_pay15
  simp only [extui_apply, cmpi, addi, broadcast_apply, Scalar.muli, IntOp.muli, IntOp.addi, IntOp.cmpi, e0, e1, ea, eb]
  by_cases h : 512 * (i 0).val + p.val = 512 * (i 1).val + q.val
  · rw [if_pos h, h]; simp
  · rw [if_neg h]
    have hne : ¬ BitVec.ofNat 32 (512 * (i 0).val + p.val) = BitVec.ofNat 32 (512 * (i 1).val + q.val) :=
      fun e => h ((word_eq_iff _ _ (by omega) (by omega)).mp e)
    rw [beq_eq_false_iff_ne.mpr hne]
    rfl

/-- The indicator as an extended real. -/
theorem pay16_apply (i : grid0.Coords) (p q : Fin 512) :
    k0_pay16 (F := Ideal) (k0_pay15 i) (ix2 p q)
      = if 512 * (i 0).val + p.val = 512 * (i 1).val + q.val then (1 : EReal) else 0 := by
  show (((k0_pay15 i (ix2 p q)).toInt : ℝ) : EReal) = _
  rw [pay15_apply]
  split_ifs
  · simp
  · simp

/-! ## Row reductions of a 512 × 512 block, kept as a column -/

/-- Column `q` put back into row `p`. -/
theorem lift_ix (p q : Fin 512) : reduces_S512x512_S512.lift (ix1 p) q = ix2 p q :=
  funext fun c => Fin.ext (match c with | ⟨0, _⟩ => rfl | ⟨1, _⟩ => rfl)

/-- 512 values viewed as a column read, at (p, 0), value p. -/
theorem column_apply {α : Type} (v : S512.Idx → α) (p : Fin 512) :
    shapeCast S512x1 v shapeCasts_S512_S512x1 (ix2 p (0 : Fin 1)) = v (ix1 p) :=
  shapeCast_apply v _ _ _ (by
    rw [Shape.rowMajor_val_one, Shape.rowMajor_val_two]
    show p.val = p.val * 1 + 0
    omega)

/-- A fold of `max` from `⊥` is the supremum. -/
theorem fold_max_bot {ι : Type} (s : Finset ι) (f : ι → EReal) : s.fold max ⊥ f = s.sup f := by
  refine le_antisymm ?_ ?_
  · rw [Finset.fold_max_le]; exact ⟨bot_le, fun x hx => Finset.le_sup hx⟩
  · rw [Finset.sup_le_iff]; intro x hx; rw [Finset.le_fold_max]; exact Or.inr ⟨x, hx, le_rfl⟩

/-- The pattern of `-∞`. -/
theorem negInf_eq : Ideal.ofBits .f32 0xFF800000#32 = ⊥ := by simp [Ideal.ofBits, Ideal.ieee]

/-- A row's maximum. -/
theorem rowMax_apply (v : FVec Ideal S512x512 .f32) (hφ : FKind.Formats .f32)
    (hacc : (0xFF800000#32 : BitVec 32) = FKind.maximumf.neutral .f32 hφ) (p : Fin 512) :
    shapeCast S512x1 (multiReduction (F := Ideal) .maximumf [1] S512 v 0xFF800000#32 reduces_S512x512_S512 hφ hacc)
      shapeCasts_S512_S512x1 (ix2 p (0 : Fin 1)) = Finset.univ.sup fun q : Fin 512 => v (ix2 p q) := by
  rw [column_apply, Ideal.multiReduction_maximumf_single]
  have hb : (FloatOps.ofBits (F := Ideal) .f32 0xFF800000#32 : EReal) = ⊥ := negInf_eq
  have hf : (v ∘ reduces_S512x512_S512.lift (ix1 p)) = fun q : Fin 512 => v (ix2 p q) :=
    funext fun q => congrArg v (lift_ix p q)
  rw [hb, hf]
  exact fold_max_bot _ _

/-- A row's sum. -/
theorem rowSum_apply (v : FVec Ideal S512x512 .f32) (hφ : FKind.Formats .f32)
    (hacc : (0x00000000#32 : BitVec 32) = FKind.add.neutral .f32 hφ) (p : Fin 512) :
    shapeCast S512x1 (multiReduction (F := Ideal) .add [1] S512 v 0x00000000#32 reduces_S512x512_S512 hφ hacc)
      shapeCasts_S512_S512x1 (ix2 p (0 : Fin 1)) = ∑ q : Fin 512, v (ix2 p q) := by
  rw [column_apply, Ideal.multiReduction_add_single]
  exact Finset.sum_congr rfl fun q _ => congrArg v (lift_ix p q)

/-- A column spread over 512 columns reads, at (p, q), its entry p. -/
theorem spread_apply {α : Type} (c : S512x1.Idx → α) (p q : Fin 512) :
    broadcastTo S512x512 c broadcasts_S512x1_S512x512 (ix2 p q) = c (ix2 p (0 : Fin 1)) :=
  broadcastTo_apply c _ _ _ fun a => match a with
    | ⟨0, _⟩ => rfl
    | ⟨1, _⟩ => rfl

theorem exp_apply {s : Shape} {φ : FTy} (x : FVec Ideal s φ) (j : s.Idx) : exp x j = Ideal.exp (x j) := rfl
theorem log_apply {s : Shape} {φ : FTy} (x : FVec Ideal s φ) (j : s.Idx) : log x j = Ideal.log (x j) := rfl

/-! ## The payloads at an index -/

/-- A self-product with the penalty taken off where the indicator is `1`. -/
theorem pay17_apply (B : FVec Ideal S512x512 .f32) (i : grid0.Coords) (p q : Fin 512) :
    k0_pay17 (F := Ideal) B (k0_pay15 i) (ix2 p q)
      = B (ix2 p q) - (if 512 * (i 0).val + p.val = 512 * (i 1).val + q.val then (1 : EReal) else 0) * Cert.Contrast.diagPenalty := by
  unfold k0_pay17
  simp only [subf_apply, mulf_apply, broadcast_apply, pay16_apply]
  rfl

theorem pay18_apply (B : FVec Ideal S512x512 .f32) (i : grid0.Coords) (p q : Fin 512) :
    k0_pay18 (F := Ideal) B (k0_pay15 i) (ix2 p q)
      = B (ix2 p q) - (if 512 * (i 0).val + p.val = 512 * (i 1).val + q.val then (1 : EReal) else 0) * Cert.Contrast.diagPenalty := by
  unfold k0_pay18
  simp only [subf_apply, mulf_apply, broadcast_apply, pay16_apply]
  rfl

/-- The merged maximum of the second pair of blocks: the old maximum against the two blocks' row maxima. -/
theorem pay24_apply (A B : FVec Ideal S512x512 .f32) (m : Vec Ideal S512x1 .f32) (p : Fin 512) :
    k0_pay24 (F := Ideal) A B m (ix2 p (0 : Fin 1))
      = max (m (ix2 p (0 : Fin 1)))
          (max (Finset.univ.sup fun q : Fin 512 => A (ix2 p q)) (Finset.univ.sup fun q : Fin 512 => B (ix2 p q))) :=
  congrArg₂ max rfl (congrArg₂ max (rowMax_apply A _ _ p) (rowMax_apply B _ _ p))

/-- The merged maximum of the first pair of blocks. -/
theorem pay20_apply (A B : FVec Ideal S512x512 .f32) (I : IVec S512x512 32) (m : Vec Ideal S512x1 .f32) (p : Fin 512) :
    k0_pay20 (F := Ideal) A B I m (ix2 p (0 : Fin 1))
      = max (m (ix2 p (0 : Fin 1)))
          (max (Finset.univ.sup fun q : Fin 512 => A (ix2 p q))
            (Finset.univ.sup fun q : Fin 512 => k0_pay17 (F := Ideal) B I (ix2 p q))) :=
  congrArg₂ max rfl (congrArg₂ max (rowMax_apply A _ _ p) (rowMax_apply (k0_pay17 (F := Ideal) B I) _ _ p))

/-- The merged sum of exponentials: the old sum rescaled to the new maximum `M`, plus the two blocks' exponentials
    relative to `M`. -/
theorem mergedSum_apply (A B : FVec Ideal S512x512 .f32) (M m' l : FVec Ideal S512x1 .f32) (hφ : FKind.Formats .f32)
    (hacc : (0x00000000#32 : BitVec 32) = FKind.add.neutral .f32 hφ) (p : Fin 512) :
    addf (mulf (exp (subf m' M)) l)
        (addf
          (shapeCast S512x1 (multiReduction (F := Ideal) .add [1] S512
            (exp (subf A (broadcastTo S512x512 M broadcasts_S512x1_S512x512))) 0x00000000#32 reduces_S512x512_S512 hφ hacc)
            shapeCasts_S512_S512x1)
          (shapeCast S512x1 (multiReduction (F := Ideal) .add [1] S512
            (exp (subf B (broadcastTo S512x512 M broadcasts_S512x1_S512x512))) 0x00000000#32 reduces_S512x512_S512 hφ hacc)
            shapeCasts_S512_S512x1)) (ix2 p (0 : Fin 1))
      = Ideal.exp (m' (ix2 p (0 : Fin 1)) - M (ix2 p (0 : Fin 1))) * l (ix2 p (0 : Fin 1))
        + ((∑ q : Fin 512, Ideal.exp (A (ix2 p q) - M (ix2 p (0 : Fin 1))))
          + (∑ q : Fin 512, Ideal.exp (B (ix2 p q) - M (ix2 p (0 : Fin 1))))) := by
  rw [addf_apply, addf_apply, mulf_apply, exp_apply, subf_apply, rowSum_apply, rowSum_apply]
  simp only [exp_apply, subf_apply, spread_apply]

theorem pay21_apply (A B : FVec Ideal S512x512 .f32) (I : IVec S512x512 32) (m m' l : Vec Ideal S512x1 .f32) (p : Fin 512) :
    k0_pay21 (F := Ideal) A B I m m' l (ix2 p (0 : Fin 1))
      = Ideal.exp (m' (ix2 p (0 : Fin 1)) - k0_pay20 (F := Ideal) A B I m (ix2 p (0 : Fin 1))) * l (ix2 p (0 : Fin 1))
        + ((∑ q : Fin 512, Ideal.exp (A (ix2 p q) - k0_pay20 (F := Ideal) A B I m (ix2 p (0 : Fin 1))))
          + (∑ q : Fin 512, Ideal.exp (k0_pay17 (F := Ideal) B I (ix2 p q) - k0_pay20 (F := Ideal) A B I m (ix2 p (0 : Fin 1))))) :=
  mergedSum_apply A (k0_pay17 (F := Ideal) B I) (k0_pay20 (F := Ideal) A B I m) m' l _ _ p

theorem pay25_apply (A B : FVec Ideal S512x512 .f32) (m m' l : Vec Ideal S512x1 .f32) (p : Fin 512) :
    k0_pay25 (F := Ideal) A B m m' l (ix2 p (0 : Fin 1))
      = Ideal.exp (m' (ix2 p (0 : Fin 1)) - k0_pay24 (F := Ideal) A B m (ix2 p (0 : Fin 1))) * l (ix2 p (0 : Fin 1))
        + ((∑ q : Fin 512, Ideal.exp (A (ix2 p q) - k0_pay24 (F := Ideal) A B m (ix2 p (0 : Fin 1))))
          + (∑ q : Fin 512, Ideal.exp (B (ix2 p q) - k0_pay24 (F := Ideal) A B m (ix2 p (0 : Fin 1))))) := by
  unfold k0_pay25
  rw [shapeCast_self]
  exact mergedSum_apply A B (k0_pay24 (F := Ideal) A B m) m' l _ _ p

/-- The diagonal pick with one more block's share. -/
theorem pay19_apply (A : FVec Ideal S512x512 .f32) (I : IVec S512x512 32) (s : Vec Ideal S512x1 .f32) (p : Fin 512) :
    k0_pay19 (F := Ideal) A I s (ix2 p (0 : Fin 1))
      = s (ix2 p (0 : Fin 1)) + ∑ q : Fin 512, A (ix2 p q) * k0_pay16 (F := Ideal) I (ix2 p q) := by
  unfold k0_pay19
  rw [shapeCast_self]
  exact congrArg₂ (· + ·) rfl ((rowSum_apply _ _ _ p).trans (Finset.sum_congr rfl fun q _ => rfl))

/-! ## One grid point's merge, entry by entry

`x0`, `x1` are the row blocks of the two tables, `x2`, `x3` their column blocks, `i` the grid point, `p` the row within
the block. The four score rows are written out: a dot product of two rows times the temperature factor, the two
self-products less the penalty where global row `512·i₀ + p` meets global column `512·i₁ + q`. -/

section Merge

variable (i : grid0.Coords) (x0 x1 x2 x3 : Vec Ideal S512x768 .bf16) (S : Carried Ideal) (p : Fin 512)

theorem merge_ma_eq :
    (Carried.merge i x0 x1 x2 x3 S).ma (ix2 p (0 : Fin 1))
      = k0_pay20 (F := Ideal) (k0_pay11 x0 x3) (k0_pay12 x0 x2) (k0_pay15 i) (Carried.start i S).ma (ix2 p (0 : Fin 1)) := by
  show k0_pay23 (F := Ideal) (k0_pay20 (k0_pay11 x0 x3) (k0_pay12 x0 x2) (k0_pay15 i) (Carried.start i S).ma) (ix2 p (0 : Fin 1)) = _
  unfold k0_pay23
  rw [shapeCast_self]

theorem merge_mb_eq :
    (Carried.merge i x0 x1 x2 x3 S).mb (ix2 p (0 : Fin 1))
      = k0_pay24 (F := Ideal) (k0_pay13 x1 x2) (k0_pay18 (k0_pay14 x1 x3) (k0_pay15 i)) (Carried.start i S).mb (ix2 p (0 : Fin 1)) := by
  show k0_pay26 (F := Ideal) (k0_pay13 x1 x2) (k0_pay18 (k0_pay14 x1 x3) (k0_pay15 i)) (Carried.start i S).mb (ix2 p (0 : Fin 1)) = _
  unfold k0_pay26
  rw [shapeCast_self]

/-- The running maximum of `[x0·x3ᵀ | x0·x2ᵀ]` after the merge. -/
theorem merge_ma :
    (Carried.merge i x0 x1 x2 x3 S).ma (ix2 p (0 : Fin 1))
      = max ((Carried.start i S).ma (ix2 p (0 : Fin 1)))
          (max (Finset.univ.sup fun q : Fin 512 => (∑ k : Fin 768, x0 (ix2 p k) * x3 (ix2 q k)) * Cert.Contrast.invTemp)
            (Finset.univ.sup fun q : Fin 512 => (∑ k : Fin 768, x0 (ix2 p k) * x2 (ix2 q k)) * Cert.Contrast.invTemp
              - (if 512 * (i 0).val + p.val = 512 * (i 1).val + q.val then (1 : EReal) else 0) * Cert.Contrast.diagPenalty)) := by
  rw [merge_ma_eq, pay20_apply]
  simp only [pay17_apply, pay11_apply, pay12_apply]

/-- The running sum of exponentials of `[x0·x3ᵀ | x0·x2ᵀ]` after the merge, relative to the new maximum. -/
theorem merge_la :
    (Carried.merge i x0 x1 x2 x3 S).la (ix2 p (0 : Fin 1))
      = Ideal.exp ((Carried.start i S).ma (ix2 p (0 : Fin 1)) - (Carried.merge i x0 x1 x2 x3 S).ma (ix2 p (0 : Fin 1)))
            * (Carried.start i S).la (ix2 p (0 : Fin 1))
        + ((∑ q : Fin 512, Ideal.exp ((∑ k : Fin 768, x0 (ix2 p k) * x3 (ix2 q k)) * Cert.Contrast.invTemp
              - (Carried.merge i x0 x1 x2 x3 S).ma (ix2 p (0 : Fin 1))))
          + (∑ q : Fin 512, Ideal.exp (((∑ k : Fin 768, x0 (ix2 p k) * x2 (ix2 q k)) * Cert.Contrast.invTemp
              - (if 512 * (i 0).val + p.val = 512 * (i 1).val + q.val then (1 : EReal) else 0) * Cert.Contrast.diagPenalty)
              - (Carried.merge i x0 x1 x2 x3 S).ma (ix2 p (0 : Fin 1))))) := by
  rw [merge_ma_eq]
  show k0_pay22 (F := Ideal) (k0_pay21 (k0_pay11 x0 x3) (k0_pay12 x0 x2) (k0_pay15 i) (Carried.start i S).ma (Carried.start i S).ma
    (Carried.start i S).la) (ix2 p (0 : Fin 1)) = _
  unfold k0_pay22
  rw [shapeCast_self, pay21_apply]
  simp only [pay17_apply, pay11_apply, pay12_apply]

/-- The running maximum of `[x1·x2ᵀ | x1·x3ᵀ]` after the merge. -/
theorem merge_mb :
    (Carried.merge i x0 x1 x2 x3 S).mb (ix2 p (0 : Fin 1))
      = max ((Carried.start i S).mb (ix2 p (0 : Fin 1)))
          (max (Finset.univ.sup fun q : Fin 512 => (∑ k : Fin 768, x1 (ix2 p k) * x2 (ix2 q k)) * Cert.Contrast.invTemp)
            (Finset.univ.sup fun q : Fin 512 => (∑ k : Fin 768, x1 (ix2 p k) * x3 (ix2 q k)) * Cert.Contrast.invTemp
              - (if 512 * (i 0).val + p.val = 512 * (i 1).val + q.val then (1 : EReal) else 0) * Cert.Contrast.diagPenalty)) := by
  rw [merge_mb_eq, pay24_apply]
  simp only [pay18_apply, pay13_apply, pay14_apply]

/-- The running sum of exponentials of `[x1·x2ᵀ | x1·x3ᵀ]` after the merge, relative to the new maximum. -/
theorem merge_lb :
    (Carried.merge i x0 x1 x2 x3 S).lb (ix2 p (0 : Fin 1))
      = Ideal.exp ((Carried.start i S).mb (ix2 p (0 : Fin 1)) - (Carried.merge i x0 x1 x2 x3 S).mb (ix2 p (0 : Fin 1)))
            * (Carried.start i S).lb (ix2 p (0 : Fin 1))
        + ((∑ q : Fin 512, Ideal.exp ((∑ k : Fin 768, x1 (ix2 p k) * x2 (ix2 q k)) * Cert.Contrast.invTemp
              - (Carried.merge i x0 x1 x2 x3 S).mb (ix2 p (0 : Fin 1))))
          + (∑ q : Fin 512, Ideal.exp (((∑ k : Fin 768, x1 (ix2 p k) * x3 (ix2 q k)) * Cert.Contrast.invTemp
              - (if 512 * (i 0).val + p.val = 512 * (i 1).val + q.val then (1 : EReal) else 0) * Cert.Contrast.diagPenalty)
              - (Carried.merge i x0 x1 x2 x3 S).mb (ix2 p (0 : Fin 1))))) := by
  rw [merge_mb_eq]
  show k0_pay25 (F := Ideal) (k0_pay13 x1 x2) (k0_pay18 (k0_pay14 x1 x3) (k0_pay15 i)) (Carried.start i S).mb (Carried.start i S).mb
    (Carried.start i S).lb (ix2 p (0 : Fin 1)) = _
  rw [pay25_apply]
  simp only [pay18_apply, pay13_apply, pay14_apply]

/-- The running diagonal pick of `x0·x3ᵀ` after the merge. -/
theorem merge_pos :
    (Carried.merge i x0 x1 x2 x3 S).pos (ix2 p (0 : Fin 1))
      = (Carried.start i S).pos (ix2 p (0 : Fin 1))
        + ∑ q : Fin 512, ((∑ k : Fin 768, x0 (ix2 p k) * x3 (ix2 q k)) * Cert.Contrast.invTemp)
            * (if 512 * (i 0).val + p.val = 512 * (i 1).val + q.val then (1 : EReal) else 0) := by
  show k0_pay19 (F := Ideal) (k0_pay11 x0 x3) (k0_pay15 i) (Carried.start i S).pos (ix2 p (0 : Fin 1)) = _
  rw [pay19_apply]
  simp only [pay16_apply, pay11_apply]

/-- The row block's loss at row `p`, from the five columns. -/
theorem loss_apply :
    Carried.loss S (ix2 p (0 : Fin 1))
      = (Cert.Contrast.half * (S.ma (ix2 p (0 : Fin 1)) + Ideal.log (S.la (ix2 p (0 : Fin 1))))
          + Cert.Contrast.half * (S.mb (ix2 p (0 : Fin 1)) + Ideal.log (S.lb (ix2 p (0 : Fin 1)))))
        - S.pos (ix2 p (0 : Fin 1)) := by
  unfold Carried.loss k0_pay1
  simp only [subf_apply, addf_apply, mulf_apply, broadcast_apply, log_apply]
  rfl

/-- What the reset stores: `(-∞, 0, -∞, 0, 0)`. -/
theorem fresh_ma : (Carried.fresh (F := Ideal)).ma (ix2 p (0 : Fin 1)) = ⊥ := by
  show k0_pay2 (F := Ideal) (ix2 p (0 : Fin 1)) = ⊥
  unfold k0_pay2
  rw [shapeCast_self, broadcast_apply]
  exact negInf_eq
theorem fresh_la : (Carried.fresh (F := Ideal)).la (ix2 p (0 : Fin 1)) = 0 := by
  show k0_pay3 (F := Ideal) (ix2 p (0 : Fin 1)) = 0
  unfold k0_pay3
  rw [shapeCast_self, broadcast_apply]
  exact Ideal.ofBits_zero_f32
theorem fresh_mb : (Carried.fresh (F := Ideal)).mb (ix2 p (0 : Fin 1)) = ⊥ := by
  show k0_pay4 (F := Ideal) (ix2 p (0 : Fin 1)) = ⊥
  unfold k0_pay4
  rw [shapeCast_self, broadcast_apply]
  exact negInf_eq
theorem fresh_lb : (Carried.fresh (F := Ideal)).lb (ix2 p (0 : Fin 1)) = 0 := by
  show k0_pay5 (F := Ideal) (ix2 p (0 : Fin 1)) = 0
  unfold k0_pay5
  rw [shapeCast_self, broadcast_apply]
  exact Ideal.ofBits_zero_f32
theorem fresh_pos : (Carried.fresh (F := Ideal)).pos (ix2 p (0 : Fin 1)) = 0 := by
  show k0_pay6 (F := Ideal) (ix2 p (0 : Fin 1)) = 0
  unfold k0_pay6
  rw [shapeCast_self, broadcast_apply]
  exact Ideal.ofBits_zero_f32

end Merge

end Cert.KernelIdeal.Pieces

end
-- ==== Proof.TiledColumn.lean ====
/-
  The tiled program's output column, row by row.

  Within row block `i` the five carried columns at row `p` follow, column block by column block, the running maximum, the
  running sum of exponentials (for each of the two joined score rows) and the running diagonal pick of row `r = 512 i + p`
  of the two tables: the first column block starts from `(-∞, 0, -∞, 0, 0)`, which are the running values after no block,
  and each merge is one step of the recursion.  After the eighth column block the losses formed from them are the tiled
  row `r`.  The output's blocks are written back exactly at those points, block `i` holding rows `512 i …`, and together
  they cover the column; so the column ends holding the tiled row at every row.
-/
import proofs.«403767_j22084721836062_1_alg».proof.Proof.TiledBlocks
import proofs.«403767_j22084721836062_1_alg».proof.Proof.SpecRows
import proofs.«403767_j22084721836062_1_alg».proof.Proof.TiledPieces
import Idealize.ShloMosaic.Lib.Pipeline.Value
import Idealize.ShloMosaic.Lib.ValueIdx

set_option maxRecDepth 16384

noncomputable section

namespace Cert.KernelIdeal.TiledValue

open Idealize.ShloMosaic Idealize.ShloMosaic.TcCoe Idealize.ShloMosaic.ValueIdx
open Idealize.SL Idealize.SL.Sem
open Idealize.ShloMosaic.Pipeline (Dat Cfg Window)
open Cert.KernelIdeal.Gen Cert

variable (V : (c : Dev nD) → (b : Ref sig .tc) → Buf (Elt Ideal) ((c : Thread nD τ).loc b))

open Contrast

/-- The five columns at row `p` of a row block hold the running values of row `r` after `n` column blocks. -/
def Agrees (S : Carried Ideal) (p : Fin 512) (a b : Fin 4096 → Fin 768 → EReal) (r : Fin 4096) (n : ℕ) : Prop :=
  S.ma (ix2 p (0 : Fin 1)) = (running (tiledCross a b r) (tiledSelf a r) n).1
  ∧ S.la (ix2 p (0 : Fin 1)) = (running (tiledCross a b r) (tiledSelf a r) n).2
  ∧ S.mb (ix2 p (0 : Fin 1)) = (running (tiledCross b a r) (tiledSelf b r) n).1
  ∧ S.lb (ix2 p (0 : Fin 1)) = (running (tiledCross b a r) (tiledSelf b r) n).2
  ∧ S.pos (ix2 p (0 : Fin 1)) = picked (tiledCross a b r) (diag r) n

theorem running_succ (u v : Fin 4096 → EReal) (n : ℕ) (h : n < 8) :
    running u v (n + 1)
      = (mergeMax u v ⟨n, h⟩ (running u v n).1, mergeSum u v ⟨n, h⟩ (running u v n).1 (running u v n).2) := by
  rw [running, dif_pos h]

theorem picked_succ (u e : Fin 4096 → EReal) (n : ℕ) (h : n < 8) :
    picked u e (n + 1) = picked u e n + ∑ p : Fin 512, u (col ⟨n, h⟩ p) * e (col ⟨n, h⟩ p) := by
  rw [picked, dif_pos h]

/-- One point's merge takes the running values after `n` column blocks to those after `n + 1`: its row block holds row
    `r` of the two tables at row `p`, its column block the rows `col n q`. -/
theorem merge_agrees (x0 x1 x2 x3 : Vec Ideal S512x768 .bf16) (i : grid0.Coords) (S : Carried Ideal) (p : Fin 512)
    (a b : Fin 4096 → Fin 768 → EReal) (r : Fin 4096) (n : ℕ) (hn : n < 8)
    (hi1 : (i 1).val = n) (hr : r.val = 512 * (i 0).val + p.val)
    (h0 : ∀ k, x0 (ix2 p k) = a r k) (h1 : ∀ k, x1 (ix2 p k) = b r k)
    (h2 : ∀ q k, x2 (ix2 q k) = a (col ⟨n, hn⟩ q) k) (h3 : ∀ q k, x3 (ix2 q k) = b (col ⟨n, hn⟩ q) k)
    (hS : n = 0 ∨ Agrees S p a b r n) :
    Agrees (Carried.merge i x0 x1 x2 x3 S) p a b r (n + 1) := by
  have hS0 : Agrees (Carried.start i S) p a b r n := by
    unfold Carried.start
    by_cases hz : (i 1).val = 0
    · rw [if_pos hz]
      have : n = 0 := by omega
      subst this
      exact ⟨by rw [Pieces.fresh_ma]; rfl, by rw [Pieces.fresh_la]; rfl, by rw [Pieces.fresh_mb]; rfl, by rw [Pieces.fresh_lb]; rfl, by rw [Pieces.fresh_pos]; rfl⟩
    · rw [if_neg hz]
      rcases hS with h | h
      · omega
      · exact h
  have hind : ∀ q : Fin 512,
      (if 512 * (i 0).val + p.val = 512 * (i 1).val + q.val then (1 : EReal) else 0) = diag r (col ⟨n, hn⟩ q) := by
    intro q
    unfold diag
    refine if_congr ?_ rfl rfl
    rw [hi1, ← hr]
    exact ⟨fun h => Fin.ext h, fun h => congrArg Fin.val h⟩
  obtain ⟨e1, e2, e3, e4, e5⟩ := hS0
  have hma : (Carried.merge i x0 x1 x2 x3 S).ma (ix2 p (0 : Fin 1)) = (running (tiledCross a b r) (tiledSelf a r) (n + 1)).1 := by
    rw [Pieces.merge_ma, running_succ _ _ n hn, e1]
    simp only [h0, h2, h3, hind]
    rfl
  have hmb : (Carried.merge i x0 x1 x2 x3 S).mb (ix2 p (0 : Fin 1)) = (running (tiledCross b a r) (tiledSelf b r) (n + 1)).1 := by
    rw [Pieces.merge_mb, running_succ _ _ n hn, e3]
    simp only [h1, h2, h3, hind]
    rfl
  refine ⟨hma, ?_, hmb, ?_, ?_⟩
  · rw [Pieces.merge_la, hma, running_succ _ _ n hn, e1, e2]
    simp only [h0, h2, h3, hind]
    rfl
  · rw [Pieces.merge_lb, hmb, running_succ _ _ n hn, e3, e4]
    simp only [h1, h2, h3, hind]
    rfl
  · rw [Pieces.merge_pos, picked_succ _ _ n hn, e5]
    simp only [h0, h3, hind]
    rfl

/-- After the first `n ≥ 1` points of row block `i` the carried columns at row `p` hold the running values of row
    `512 i + p` after `n` column blocks: the first point starts from the reset values, each later one from its
    predecessor's. -/
theorem carried_agrees (c : Dev nD) (i : Fin 8) (p : Fin 512) (r : Fin 4096) (hr : r.val = 512 * i.val + p.val) :
    ∀ (n m : ℕ) (hm : m ≤ cfg0.N), 1 ≤ n → n ≤ 8 → m = 8 * i.val + n →
      Agrees (carriedAt V c m hm) p (rows (V c main_call0_v18)) (rows (V c main_call0_v19)) r n
  | 0, _, _, h, _, _ => absurd h (by omega)
  | n + 1, m, hm, _, hn, e => by
    subst e
    have hN : cfg0.N = 64 := N_0
    have hi8 : i.val < 8 := i.isLt
    have hn8 : n < 8 := by omega
    show Agrees (carriedAt V c ((8 * i.val + n) + 1) hm) _ _ _ _ _
    rw [carriedAt_succ]
    have hcf := coords_facts ⟨8 * i.val + n, hm⟩
    have hdiv : (8 * i.val + n) / 8 = i.val := by omega
    have hmod : (8 * i.val + n) % 8 = n := by omega
    refine merge_agrees _ _ _ _ _ _ p _ _ r n hn8 ?_ ?_ ?_ ?_ ?_ ?_ ?_
    · rw [hcf.2]; exact hmod
    · rw [hcf.1, hr]; show _ = 512 * ((8 * i.val + n) / 8) + p.val; rw [hdiv]
    · intro k; exact iblk0_apply V c _ p k r (by show r.val = 512 * ((8 * i.val + n) / 8) + p.val; rw [hdiv, hr])
    · intro k; exact iblk1_apply V c _ p k r (by show r.val = 512 * ((8 * i.val + n) / 8) + p.val; rw [hdiv, hr])
    · intro q k; exact iblk2_apply V c _ q k (col ⟨n, hn8⟩ q) (by show 512 * n + q.val = 512 * ((8 * i.val + n) % 8) + q.val; rw [hmod])
    · intro q k; exact iblk3_apply V c _ q k (col ⟨n, hn8⟩ q) (by show 512 * n + q.val = 512 * ((8 * i.val + n) % 8) + q.val; rw [hmod])
    · rcases Nat.eq_zero_or_pos n with h | h
      · exact Or.inl h
      · exact Or.inr (carried_agrees c i p r hr n (8 * i.val + n) (Nat.le_of_succ_le hm) h (by omega) rfl)

/-- The losses formed at the last column block of a row block: row `p` of the block is the tiled row `512 (t / 8) + p`. -/
theorem loss_row (c : Dev nD) (t : Fin cfg0.N) (ht : t.val % 8 = 7) (p : Fin 512) (r : Fin 4096)
    (hr : r.val = 512 * (t.val / 8) + p.val) :
    Carried.loss (carriedAt V c (t.val + 1) t.isLt) (ix2 p (0 : Fin 1))
      = tiledRow (rows (V c main_call0_v18)) (rows (V c main_call0_v19)) r := by
  have hN : cfg0.N = 64 := N_0
  have ht' : t.val < cfg0.N := t.isLt
  obtain ⟨e1, e2, e3, e4, e5⟩ := carried_agrees V c ⟨t.val / 8, by omega⟩ p r hr 8 (t.val + 1) t.isLt (by omega) (by omega)
    (by show t.val + 1 = 8 * (t.val / 8) + 8; omega)
  rw [Pieces.loss_apply, e1, e2, e3, e4, e5]
  rfl

/-- The output column the run ends at, as one function of the row. -/
def column (c : Dev nD) : S4096x1.Idx → EReal := fun j =>
  tiledRow (rows (V c main_call0_v18)) (rows (V c main_call0_v19)) ⟨(j 0).val, idx2_lt0 j⟩

/-- What a point at the last column block of a row block writes back is its block of that column. -/
theorem flushed4_eq (c : Dev nD) (t : Fin cfg0.N) (hf : (cfg0.win 4).flush t = true) :
    (dat (F := Ideal) V c).flushed 4 t = ((cfg0.win 4).blk t).view.read (Elt Ideal) (column V c) := by
  have ht : t.val % 8 = 7 := (flush0_4 t).mp hf
  have hi := (idx_facts t).2.2.2.2
  have hN : cfg0.N = 64 := N_0
  have ht' : t.val < cfg0.N := t.isLt
  show (cfg0.win 4).cut (grid0.coords t) ((dat V c).after 4 t) = _
  rw [after0_4]
  funext y
  rw [View.read_apply]
  obtain ⟨p, z, rfl⟩ : ∃ (p : Fin 512) (z : Fin 1), y = ix2 p z := ⟨y 0, y 1, eq_ix2 y⟩
  obtain rfl : z = 0 := Subsingleton.elim _ _
  show Carried.loss (carriedAt V c (t.val + 1) t.isLt) (ix2 p (0 : Fin 1)) = column V c _
  rw [loss_row V c t ht p ⟨512 * (t.val / 8) + p.val, by have := p.isLt; omega⟩ rfl]
  unfold column
  congr 1
  apply Fin.ext
  show 512 * (t.val / 8) + p.val = win0_4.index t 0 * 512 + 1 * p.val
  rw [hi.1]; omega

/-- Every row of the output column is in the block of the last point of its row block. -/
theorem covered4 (i : S4096x1.Idx) :
    ∃ t : Fin cfg0.N, (cfg0.win 4).flush t = true ∧ i ∈ ((cfg0.win 4).blk t).view.set := by
  have hN : cfg0.N = 64 := N_0
  have h0 : (i 0).val < 4096 := idx2_lt0 i
  have h1 : (i 1).val < 1 := idx2_lt1 i
  let t : Fin cfg0.N := ⟨8 * ((i 0).val / 512) + 7, by omega⟩
  have htv : t.val = 8 * ((i 0).val / 512) + 7 := rfl
  have hi := (idx_facts t).2.2.2.2
  refine ⟨t, (flush0_4 t).mpr (by rw [htv]; omega), ?_⟩
  show i ∈ ((View.whole main_call0_v20).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [hi.1, htv]; omega
  | ⟨1, _⟩ =>
    show win0_4.index t 1 * 1 ≤ (i 1).val ∧ (i 1).val < win0_4.index t 1 * 1 + 1
    rw [hi.2]; omega

/-- The output column after the run: row `r` holds the tiled row `r` of the two tables as the region finds them. -/
theorem out_column (c : Dev nD) (r : Fin 4096) :
    (dat (F := Ideal) V c).arrAt 4 cfg0.N (ix2 r (0 : Fin 1))
      = Contrast.tiledRow (Contrast.rows (V c main_call0_v18)) (Contrast.rows (V c main_call0_v19)) r := by
  rw [(dat (F := Ideal) V c).arrAt_eq_of_cover 4 (column V c) (flushed4_eq V c) covered4]
  rfl

end Cert.KernelIdeal.TiledValue

end
-- ==== Proof.PreDecoded.lean ====
/-
  The precondition, index by index.

  The precondition is the conjunction of three statements over whole arrays: every entry of the table has absolute
  value below +∞; every index word is, read signed, at least 0 and below 100000; every row of the table has a positive
  sum of squares.  Each is a reduction by "and" into one bit, so the bit being 1 says the compared bit is 1 at every
  index.  Read at an index these are: the entry is a real number; the word lies in [0, 100000); the row's squared length
  is positive.  Two consequences follow: the table row an index word names is the word's own value (the reduction modulo
  the table's height does nothing), and every entry of a picked, normalised row is a real number (a real divided by the
  square root of a positive real).
-/
import proofs.«403767_j22084721836062_1_alg».proof.Proof.SpecRows
import proofs.«403767_j22084721836062_1_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Contrast

open Idealize.ShloMosaic Idealize.ShloMosaic.ValueIdx

/-- The scalar shape has one index. -/
instance subsingleton_scalarIdx : Subsingleton Cert.Pre_finite_inputs.S_.Idx := ⟨fun a b => funext fun d => d.elim0⟩

/-- The 32-bit pattern of +∞. -/
theorem ofBits_inf : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit comparison result is 1 exactly when the comparison holds. -/
theorem ofBool_eq_one (b : Bool) : BitVec.ofBool b = 1#1 ↔ b = true := by cases b <;> decide

/-- The comparison of two extended reals. -/
theorem cmpf_ideal (p : CmpFPredicate) (x y : EReal) : FloatOps.cmpf (F := Ideal) (φ := .f32) p x y = Ideal.cmp p x y := rfl

/-- The row's index with the column coordinate put back is the index of that row and column. -/
theorem lift_row (hR : Cert.Pre_finite_inputs.S100000x768.Reduces [1] Cert.Pre_finite_inputs.S100000) (row : Fin 100000) (k : Fin 768) :
    hR.lift (ix1 row) k = ix2 row k := by
  funext c
  apply Fin.ext
  fin_cases c
  · rfl
  · rfl

section Decode

variable [Cert.Pre_finite_inputs.Facts]

/-- The precondition's one bit being 1 says, index by index: every table entry is real, every index word is in range,
    every table row has a positive squared length. -/
theorem admissible_of_pre (emb : FVec Ideal Cert.Pre_finite_inputs.S100000x768 .f32) (links : IVec Cert.Pre_finite_inputs.S4096x2 32)
    (h : Cert.Pre_finite_inputs.fn (F := Ideal) emb links = (fun _ => 1#1)) : Admissible emb links := by
  have e := congrFun h ix0
  dsimp only [Cert.Pre_finite_inputs.fn, Cert.Pre_finite_inputs.fn_part1] at e
  obtain ⟨e12, e3⟩ := IntOp.andi_eq_one.1 (show IntOp.andi _ _ = 1#1 from e)
  obtain ⟨e1, e2⟩ := IntOp.andi_eq_one.1 (show IntOp.andi _ _ = 1#1 from e12)
  have a1 := Host.reduce_andi_all _ _ _ _ ix0 e1
  have a2 := Host.reduce_andi_all _ _ _ _ ix0 e2
  have a3 := Host.reduce_andi_all _ _ _ _ ix0 e3
  clear e e12 e1 e2 e3 h
  refine ⟨fun i => ?_, fun j => ?_, fun row => ?_⟩
  · have t := a1 i
    change Ideal.cmp .olt (max (emb i) (-(emb i))) (Ideal.ofBits .f32 0x7F800000#32) = 1#1 at t
    rw [ofBits_inf, Ideal.cmp, ofBool_eq_one, decide_eq_true_eq] at t
    exact real_of_abs_lt_top _ t
  · have t := a2 j
    obtain ⟨t0, t1⟩ := IntOp.andi_eq_one.1 (show IntOp.andi (IntOp.cmpi .sge (links j) 0#32) (IntOp.cmpi .slt (links j) 100000#32) = 1#1 from t)
    unfold IntOp.cmpi at t0 t1
    rw [ofBool_eq_one] at t0 t1
    simp only [BitVec.sle, BitVec.slt, decide_eq_true_eq] at t0 t1
    have c0 : (0#32 : BitVec 32).toInt = 0 := by decide
    have c1 : (100000#32 : BitVec 32).toInt = 100000 := by decide
    rw [c0] at t0; rw [c1] at t1
    exact ⟨t0, t1⟩
  · have t := a3 (ix1 row)
    have hR : Cert.Pre_finite_inputs.S100000x768.Reduces [1] Cert.Pre_finite_inputs.S100000 := by decide
    rw [cmpf_apply, cmpf_ideal] at t
    unfold Host.reduceAdd at t
    rw [Ideal.hostReduceAdd_def, Ideal.hostReduceAdd_single _ hR, StableHlo.Predicate.bcast_scalar _ Cert.Pre_finite_inputs.Facts.h_S_] at t
    simp only [constant_apply, Ideal.ofBits_zero_f32, zero_add] at t
    rw [Ideal.cmp, ofBool_eq_one, decide_eq_true_eq] at t
    have s : (∑ k : Fin (Cert.Pre_finite_inputs.S100000x768.size 1), (mulf emb emb) (hR.lift (ix1 row) k)) = sqLen emb row := by
      unfold sqLen
      refine Finset.sum_congr rfl fun k _ => ?_
      rw [lift_row hR row k]
      rfl
    rw [s] at t
    exact t

end Decode

/-- A word that reads signed in [0, 100000) reads unsigned below 100000. -/
theorem toNat_of_inRange (w : BitVec 32) (h : 0 ≤ w.toInt ∧ w.toInt < 100000) : w.toNat < 100000 := by
  have h32 := w.isLt
  obtain ⟨h0, h1⟩ := h
  rw [BitVec.toInt_eq_toNat_cond] at h0 h1
  split_ifs at h0 h1 <;> omega

/-- Such a word reads the same signed and unsigned. -/
theorem toInt_of_inRange (w : BitVec 32) (h : 0 ≤ w.toInt ∧ w.toInt < 100000) : w.toInt = (w.toNat : ℤ) := by
  have h32 := w.isLt
  obtain ⟨h0, h1⟩ := h
  rw [BitVec.toInt_eq_toNat_cond] at h0 h1 ⊢
  split_ifs at h0 h1 ⊢ <;> omega

/-- A finite sum of reals, read in the extended reals, is the sum of the readings. -/
theorem coe_sum_real {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

section Consequences

variable {emb : (⟨2, ![100000, 768]⟩ : Shape).Idx → EReal} {links : (⟨2, ![4096, 2]⟩ : Shape).Idx → BitVec 32}

/-- The table row an index word names is the word's own value: in range, the reduction modulo the table's height is the
    identity. -/
theorem pick_val (hA : Admissible emb links) (s : Fin 2) (b : Fin 4096) : (pick links s b).val = (links (ix2 b s)).toNat :=
  Nat.mod_eq_of_lt (toNat_of_inRange _ (hA.inRange _))

/-- Read signed, the word is that same value. -/
theorem pick_toInt (hA : Admissible emb links) (s : Fin 2) (b : Fin 4096) : (links (ix2 b s)).toInt = ((pick links s b).val : ℤ) := by
  rw [pick_val hA, toInt_of_inRange _ (hA.inRange _)]

/-- Every entry of a picked, normalised row is a real number: a real entry over the square root of a positive real sum. -/
theorem picked_rows_real (hA : Admissible emb links) (s : Fin 2) :
    ∃ a : Fin 4096 → Fin 768 → ℝ, picked_rows emb links s = fun b k => ((a b k : ℝ) : EReal) := by
  choose f hf using hA.real
  have hs : ∀ row, sqLen emb row = ((∑ k : Fin 768, f (ix2 row k) * f (ix2 row k) : ℝ) : EReal) := fun row => by
    unfold sqLen
    rw [coe_sum_real]
    exact Finset.sum_congr rfl fun k _ => by rw [hf, EReal.coe_mul]
  refine ⟨fun b k => f (ix2 (pick links s b) k)
    * (1 / Real.sqrt (∑ k' : Fin 768, f (ix2 (pick links s b) k') * f (ix2 (pick links s b) k'))), ?_⟩
  funext b k
  show Ideal.div (emb (ix2 (pick links s b) k)) (Ideal.sqrt (sqLen emb (pick links s b))) = _
  have hpos : 0 < ∑ k' : Fin 768, f (ix2 (pick links s b) k') * f (ix2 (pick links s b) k') := by
    have := hA.nonzero (pick links s b)
    rw [hs] at this
    exact EReal.coe_pos.1 this
  rw [hs, Ideal.sqrt_coe, if_neg (not_lt.2 hpos.le), Ideal.div_coe (Real.sqrt_ne_zero'.2 hpos), hf, ← EReal.coe_mul]

end Consequences

end Cert.Contrast

end
-- ==== Proof.TiledHost.lean ====
/-
  The tiled program's first table of normalised rows, read entry by entry.

  Before its tiled region the program cuts column 0 off the 4096 × 2 index array, takes the table rows those indices
  name, divides each taken row by its Euclidean length and narrows the result to the 16-bit format (the identity on
  extended reals).  The take first adds the table's height to a negative index (none is negative here), reads the row at
  the index clamped into the table (no clamp acts on an index in range), and replaces a row whose index is out of range
  by a fill value (no index is).  So under the precondition entry `(r, k)` of the result is entry `k` of the table row
  that index word `(r, 0)` names, over the square root of that row's sum of squares: the table of normalised rows picked
  by column 0.

  `column0`, `wrapped`, `inRangeMask`, `taken`, `normalised` name the stages as functions of their operands;
  `after_v18` says the program's buffer holds their composition; the `_apply` lemmas read each stage at an entry.
-/
import proofs.«403767_j22084721836062_1_alg».proof.Proof.Gen.KernelIdeal.Launch
import proofs.«403767_j22084721836062_1_alg».proof.Proof.SpecRows
import proofs.«403767_j22084721836062_1_alg».proof.Proof.PreDecoded
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.ReduceAll

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

namespace One

variable {F : FTy → Type} [FloatOps F]

/-- Column 0 of the index array, as a vector of 4096 words. -/
def column0 (links : (⟨S4096x2, .i32⟩ : BufTy).Contents (Elt F)) : (⟨S4096, .i32⟩ : BufTy).Contents (Elt F) :=
  shapeCast _ (extractStridedSlice S4096x1 ![0, 0] links slices_S4096x2_S4096x1_0_0) shapeCasts_S4096x1_S4096

/-- The index vector with the table's height added to every negative word, as a 4096 × 1 column. -/
def wrapped (idx : (⟨S4096, .i32⟩ : BufTy).Contents (Elt F)) : (⟨S4096x1, .i32⟩ : BufTy).Contents (Elt F) :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 100000#32))) idx)

/-- One bit per row: the row's start index is at least 0 and at most 99999, read signed. -/
def inRangeMask (col : (⟨S4096x1, .i32⟩ : BufTy).Contents (Elt F)) : (⟨S4096, .i1⟩ : BufTy).Contents (Elt F) :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_

/-- The table rows the start indices name (clamped into the table), a row whose index is out of range replaced by the
    fill value. -/
def taken (emb : (⟨S100000x768, .f32⟩ : BufTy).Contents (Elt F)) (col : (⟨S4096x1, .i32⟩ : BufTy).Contents (Elt F)) :
    (⟨S4096x768, .f32⟩ : BufTy).Contents (Elt F) :=
  select (broadcastInDim S4096x768 ![0] bcast_S4096_S4096x768_0 (inRangeMask (F := F) col))
    (Host.gather gather_S100000x768_S4096x1_S4096x768_1_0_n_n_0_1_1768 emb col)
    (broadcastInDim S4096x768 ![] bcast_S_S4096x768 (constant S_ .f32 0x7FC00000#32))

/-- Every row divided by the square root of its sum of squares. -/
def normalised (x : (⟨S4096x768, .f32⟩ : BufTy).Contents (Elt F)) : (⟨S4096x768, .f32⟩ : BufTy).Contents (Elt F) :=
  Host.divf x (broadcastInDim S4096x768 ![0, 1] bcast_S4096x1_S4096x768_0_1
    (Host.sqrt (broadcastInDim S4096x1 ![0] bcast_S4096_S4096x1_0
      (Host.reduceAdd (mulf x x) (constant S_ .f32 0x00000000#32) reducesTo_S4096x768_S4096_d1 h_S_))))

set_option maxHeartbeats 4000000 in
set_option maxRecDepth 8192 in
/-- After the 66 operations before the tiled region, the first table's buffer holds the composition of the stages above,
    applied to the two arguments. -/
theorem after_v18 (W : Valuation τ sig (Elt F)) :
    StableHlo.after (hostOps0 (F := F)) W (Proc.devRef .tc main_call0_v18)
      = truncf .bf16 (normalised (F := F) (taken (F := F) (W (Proc.devRef .tc main_arg0)) (wrapped (F := F) (column0 (F := F) (W (Proc.devRef .tc main_arg1)))))) bitsLt_bf16_f32 := by
  simp only [hostOps0]
  after_results_simp
  rfl

/-- The take's dimension numbers: a row take. -/
abbrev G := gather_S100000x768_S4096x1_S4096x768_1_0_n_n_0_1_1768

/-- The row take read at an entry: entry `(p, k)` of the result is entry `k` of the table row that start index `p`,
    read signed and clamped into the table, names. -/
theorem gather_rows_apply {α : Type} {w : Nat} (x : S100000x768.Idx → α) (idx : IVec S4096x1 w) (p : Fin 4096) (k : Fin 768) :
    Host.gather G x idx (ix2 p k)
      = x (ix2 (⟨min (idx (ix2 p (0 : Fin 1))).toInt.toNat 99999, by omega⟩ : Fin 100000) k) := by
  unfold Host.gather
  congr 1
  funext a
  refine Fin.ext ?_
  match a with
  | ⟨0, _⟩ =>
    show G.start (ix2 p k) idx 0 + G.batchCoord (ix2 p k) 0 + G.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 p k) ⟨List.idxOf (0 : Fin 2) G.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show G.start (ix2 p k) idx 1 + G.batchCoord (ix2 p k) 1 + G.offCoord (ix2 p k) 1 = _
    rw [GatherDims.batchCoord_eq_zero _ _ _ List.not_mem_nil]
    unfold GatherDims.start
    rw [dif_neg (show (1 : Fin 2) ∉ G.startIndexMap by decide)]
    simp only [Nat.add_zero, Nat.zero_add]
    unfold GatherDims.offCoord
    rw [dif_pos (show (1 : Fin 2) ∈ G.sKept by decide)]
    rfl

/-! ## The pieces read at an index -/

section AtIndex

/-- A fold by "and" from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by "and" from 1 of an array of bits that are all 1 is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- A word that is not negative read signed is kept by the wrap of negative indices. -/
theorem select_of_nonneg (w a : BitVec 32) (h : 0 ≤ w.toInt) : Scalar.select (IntOp.cmpi .slt w 0#32) a w = w := by
  have hc : IntOp.cmpi .slt w 0#32 = 0#1 := by
    apply eq_zero_of_ne_one
    intro h1
    unfold IntOp.cmpi at h1
    rw [StableHlo.Predicate.ofBool_eq_one_iff] at h1
    simp only [BitVec.slt, decide_eq_true_eq] at h1
    have c0 : (0#32 : BitVec 32).toInt = 0 := by decide
    rw [c0] at h1
    omega
  rw [hc]
  exact select_zero _ _

/-- Entry `p` of column 0 of the index array, as a vector. -/
theorem column0_apply (links : (⟨S4096x2, .i32⟩ : BufTy).Contents (Elt F)) (p : Fin 4096) :
    column0 (F := F) links (ix1 p) = links (ix2 p (0 : Fin 2)) := by
  unfold column0
  rw [shapeCast_apply _ shapeCasts_S4096x1_S4096 (ix1 p) (ix2 p (0 : Fin 1))
    (by rw [Shape.rowMajor_val_two, Shape.rowMajor_val_one]; show p.val * 1 + 0 = p.val; omega)]
  exact extractStridedSlice_apply ![0, 0] links slices_S4096x2_S4096x1_0_0 (ix2 p (0 : Fin 1)) (ix2 p (0 : Fin 2)) (fun a => match a with
    | ⟨0, _⟩ => by show p.val = 0 + p.val; omega
    | ⟨1, _⟩ => by show (0 : Nat) = 0 + 0; rfl)

/-- The wrapped index column at row `p`: an index that is not negative is kept. -/
theorem wrapped_apply (idx : (⟨S4096, .i32⟩ : BufTy).Contents (Elt F)) (p : Fin 4096) (h : 0 ≤ (idx (ix1 p)).toInt) :
    wrapped (F := F) idx (ix2 p (0 : Fin 1)) = idx (ix1 p) := by
  unfold wrapped
  rw [broadcastInDim_apply _ bcast_S4096_S4096x1_0 _ (ix2 p (0 : Fin 1)) (ix1 p) (fun a => match a with
    | ⟨0, _⟩ => by show p.val = if (4096 : Nat) = 1 then 0 else p.val; rw [if_neg (by decide)])]
  rw [select_apply]
  exact select_of_nonneg _ _ h

/-- Every index of a 4096 × 1 column is a row with column coordinate 0. -/
theorem exists_row (i : S4096x1.Idx) : ∃ p : Fin 4096, i = ix2 p (0 : Fin 1) := by
  refine ⟨⟨(i 0).val, idx2_lt0 i⟩, ?_⟩
  funext a
  match a with
  | ⟨0, _⟩ => rfl
  | ⟨1, h1⟩ =>
    refine Fin.ext ?_
    have hlt : (i ⟨1, h1⟩).val < 1 := (i ⟨1, h1⟩).isLt
    show (i ⟨1, h1⟩).val = 0
    omega

/-- The in-range mask of a column whose words are all in range is 1 everywhere. -/
theorem inRangeMask_eq_one (col : (⟨S4096x1, .i32⟩ : BufTy).Contents (Elt F))
    (h : ∀ i, 0 ≤ (col i).toInt ∧ (col i).toInt < 100000) (j : S4096.Idx) : inRangeMask (F := F) col j = 1#1 := by
  unfold inRangeMask
  refine reduce_andi_ones _ _ _ _ rfl (fun i => ?_) j
  show IntOp.andi (IntOp.cmpi .sge (col i) 0#32) (IntOp.cmpi .sle (col i) 99999#32) = 1#1
  have hlt : (col i).toNat < 100000 := Contrast.toNat_of_inRange _ (h i)
  rw [IntOp.andi_eq_one]
  constructor
  · rw [StableHlo.Predicate.sge_iff_toNat (by omega) (by decide)]
    exact Nat.zero_le _
  · rw [StableHlo.Predicate.sle_iff_toNat (by omega) (by decide)]
    show (col i).toNat ≤ 99999
    omega

/-- The taken rows at an entry: entry `k` of the table row the start index names. -/
theorem taken_apply (emb : (⟨S100000x768, .f32⟩ : BufTy).Contents (Elt F)) (col : (⟨S4096x1, .i32⟩ : BufTy).Contents (Elt F))
    (h : ∀ i, 0 ≤ (col i).toInt ∧ (col i).toInt < 100000) (p : Fin 4096) (k : Fin 768) :
    taken (F := F) emb col (ix2 p k)
      = emb (ix2 (⟨(col (ix2 p (0 : Fin 1))).toNat % 100000, Nat.mod_lt _ (by norm_num)⟩ : Fin 100000) k) := by
  unfold taken
  rw [select_apply]
  have hm : broadcastInDim S4096x768 ![0] bcast_S4096_S4096x768_0 (inRangeMask (F := F) col) (ix2 p k) = 1#1 := by
    rw [broadcastInDim_apply _ bcast_S4096_S4096x768_0 _ (ix2 p k) (ix1 p) (fun a => match a with
      | ⟨0, _⟩ => by show p.val = if (4096 : Nat) = 1 then 0 else p.val; rw [if_neg (by decide)])]
    exact inRangeMask_eq_one col h _
  rw [hm, select_one, gather_rows_apply]
  have hw := h (ix2 p (0 : Fin 1))
  have hlt : (col (ix2 p (0 : Fin 1))).toNat < 100000 := Contrast.toNat_of_inRange _ hw
  have e : (⟨min (col (ix2 p (0 : Fin 1))).toInt.toNat 99999, by omega⟩ : Fin 100000)
      = ⟨(col (ix2 p (0 : Fin 1))).toNat % 100000, Nat.mod_lt _ (by norm_num)⟩ := by
    refine Fin.ext ?_
    show min (col (ix2 p (0 : Fin 1))).toInt.toNat 99999 = (col (ix2 p (0 : Fin 1))).toNat % 100000
    rw [Contrast.toInt_of_inRange _ hw, Int.toNat_natCast, Nat.mod_eq_of_lt hlt]
    omega
  rw [e]

end AtIndex

section AtIdeal

/-- A row's sum of an array, from 0: the sum over the row's entries. -/
theorem rowSum_apply (y : FVec Ideal S4096x768 .f32) (p : Fin 4096) :
    Host.reduceAdd y (constant (F := Ideal) S_ .f32 0x00000000#32) reducesTo_S4096x768_S4096_d1 h_S_ (ix1 p)
      = ∑ k : Fin 768, y (ix2 p k) := by
  unfold Host.reduceAdd
  rw [Ideal.hostReduceAdd_def, Ideal.hostReduceAdd_single reducesTo_S4096x768_S4096_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- A normalised array at an entry: the entry over the square root of its row's sum of squares. -/
theorem normalised_apply (x : FVec Ideal S4096x768 .f32) (p : Fin 4096) (k : Fin 768) :
    normalised (F := Ideal) x (ix2 p k)
      = Ideal.div (x (ix2 p k)) (Ideal.sqrt (∑ k' : Fin 768, x (ix2 p k') * x (ix2 p k'))) := by
  unfold normalised
  generalize hy : mulf x x = y
  have hrow := rowSum_apply y p
  generalize Host.reduceAdd y (constant (F := Ideal) S_ .f32 0x00000000#32) reducesTo_S4096x768_S4096_d1 h_S_ = r at hrow ⊢
  show Ideal.div (x (ix2 p k)) (broadcastInDim S4096x768 ![0, 1] bcast_S4096x1_S4096x768_0_1
    (Host.sqrt (broadcastInDim S4096x1 ![0] bcast_S4096_S4096x1_0 r)) (ix2 p k)) = _
  rw [broadcastInDim_apply _ bcast_S4096x1_S4096x768_0_1 _ (ix2 p k) (ix2 p (0 : Fin 1)) (fun a => match a with
    | ⟨0, _⟩ => by show p.val = if (4096 : Nat) = 1 then 0 else p.val; rw [if_neg (by decide)]
    | ⟨1, _⟩ => by show (0 : Nat) = if (1 : Nat) = 1 then 0 else k.val; rw [if_pos rfl])]
  show Ideal.div (x (ix2 p k)) (Ideal.sqrt (broadcastInDim S4096x1 ![0] bcast_S4096_S4096x1_0 r (ix2 p (0 : Fin 1)))) = _
  rw [broadcastInDim_apply _ bcast_S4096_S4096x1_0 _ (ix2 p (0 : Fin 1)) (ix1 p) (fun a => match a with
    | ⟨0, _⟩ => by show p.val = if (4096 : Nat) = 1 then 0 else p.val; rw [if_neg (by decide)])]
  rw [hrow, ← hy]
  rfl

end AtIdeal

/-! ## The first table -/

/-- Under the precondition the composed stages give, entry by entry, the table of normalised rows picked by column 0. -/
theorem table_pure (emb : FVec Ideal S100000x768 .f32) (links : IVec S4096x2 32) (hA : Contrast.Admissible emb links) :
    Contrast.rows (truncf (F := Ideal) .bf16 (normalised (F := Ideal) (taken (F := Ideal) emb (wrapped (F := Ideal) (column0 (F := Ideal) links)))) bitsLt_bf16_f32 : FVec Ideal S4096x768 .bf16)
      = Contrast.picked_rows emb links 0 := by
  have hcol : ∀ i, 0 ≤ (wrapped (F := Ideal) (column0 (F := Ideal) links) i).toInt
      ∧ (wrapped (F := Ideal) (column0 (F := Ideal) links) i).toInt < 100000 := by
    intro i
    obtain ⟨p, rfl⟩ := exists_row i
    rw [wrapped_apply _ _ (by rw [column0_apply]; exact (hA.inRange _).1), column0_apply]
    exact hA.inRange _
  funext r k
  show normalised (F := Ideal) (taken (F := Ideal) emb (wrapped (F := Ideal) (column0 (F := Ideal) links))) (ix2 r k) = _
  rw [normalised_apply]
  simp only [taken_apply _ _ hcol]
  rw [wrapped_apply _ _ (by rw [column0_apply]; exact (hA.inRange _).1), column0_apply]
  rfl

end One

open One in
/-- The first table of the tiled program, after the operations before its tiled region, is the table of normalised rows
    picked by column 0 of the index array. -/
theorem table_one (W : Valuation τ sig (Elt Ideal))
    (hA : Contrast.Admissible (W (Proc.devRef .tc main_arg0)) (W (Proc.devRef .tc main_arg1))) :
    Contrast.rows (StableHlo.after (hostOps0 (F := Ideal)) W (Proc.devRef .tc main_call0_v18))
      = Contrast.picked_rows (W (Proc.devRef .tc main_arg0)) (W (Proc.devRef .tc main_arg1)) 0 := by
  rw [after_v18]
  exact table_pure _ _ hA

end Cert.KernelIdeal.HostValue

end
-- ==== Proof.TiledHostTwo.lean ====
/-
  The tiled program's second table of normalised rows, read entry by entry.

  The second table is built as the first is, from column 1 of the 4096 × 2 index array in place of column 0: the same
  wrap of negative indices, the same row take with its in-range mask and fill value, the same division of every taken row
  by its Euclidean length, the same narrowing to the 16-bit format.  Under the precondition entry `(r, k)` of the result
  is entry `k` of the table row that index word `(r, 1)` names, over the square root of that row's sum of squares: the
  table of normalised rows picked by column 1.  The stages and their readings at an entry are those of the first table;
  only the column cut off the index array is new.
-/
import proofs.«403767_j22084721836062_1_alg».proof.Proof.TiledHost

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

namespace Two

open One

variable {F : FTy → Type} [FloatOps F]

/-- Column 1 of the index array, as a vector of 4096 words. -/
def column1 (links : (⟨S4096x2, .i32⟩ : BufTy).Contents (Elt F)) : (⟨S4096, .i32⟩ : BufTy).Contents (Elt F) :=
  shapeCast _ (extractStridedSlice S4096x1 ![0, 1] links slices_S4096x2_S4096x1_0_1) shapeCasts_S4096x1_S4096

set_option maxHeartbeats 4000000 in
set_option maxRecDepth 8192 in
/-- After the 66 operations before the tiled region, the second table's buffer holds the composition of the stages,
    applied to the table and to column 1 of the index array. -/
theorem after_v19 (W : Valuation τ sig (Elt F)) :
    StableHlo.after (hostOps0 (F := F)) W (Proc.devRef .tc main_call0_v19)
      = truncf .bf16 (normalised (F := F) (taken (F := F) (W (Proc.devRef .tc main_arg0)) (wrapped (F := F) (column1 (F := F) (W (Proc.devRef .tc main_arg1)))))) bitsLt_bf16_f32 := by
  simp only [hostOps0]
  after_results_simp
  rfl

/-- Entry `p` of column 1 of the index array, as a vector. -/
theorem column1_apply (links : (⟨S4096x2, .i32⟩ : BufTy).Contents (Elt F)) (p : Fin 4096) :
    column1 (F := F) links (ix1 p) = links (ix2 p (1 : Fin 2)) := by
  unfold column1
  rw [shapeCast_apply _ shapeCasts_S4096x1_S4096 (ix1 p) (ix2 p (0 : Fin 1))
    (by rw [Shape.rowMajor_val_two, Shape.rowMajor_val_one]; show p.val * 1 + 0 = p.val; omega)]
  exact extractStridedSlice_apply ![0, 1] links slices_S4096x2_S4096x1_0_1 (ix2 p (0 : Fin 1)) (ix2 p (1 : Fin 2)) (fun a => match a with
    | ⟨0, _⟩ => by show p.val = 0 + p.val; omega
    | ⟨1, _⟩ => by show (1 : Nat) = 1 + 0; rfl)

/-- Under the precondition the composed stages give, entry by entry, the table of normalised rows picked by column 1. -/
theorem table_pure (emb : FVec Ideal S100000x768 .f32) (links : IVec S4096x2 32) (hA : Contrast.Admissible emb links) :
    Contrast.rows (truncf (F := Ideal) .bf16 (normalised (F := Ideal) (taken (F := Ideal) emb (wrapped (F := Ideal) (column1 (F := Ideal) links)))) bitsLt_bf16_f32 : FVec Ideal S4096x768 .bf16)
      = Contrast.picked_rows emb links 1 := by
  have hcol : ∀ i, 0 ≤ (wrapped (F := Ideal) (column1 (F := Ideal) links) i).toInt
      ∧ (wrapped (F := Ideal) (column1 (F := Ideal) links) i).toInt < 100000 := by
    intro i
    obtain ⟨p, rfl⟩ := exists_row i
    rw [wrapped_apply _ _ (by rw [column1_apply]; exact (hA.inRange _).1), column1_apply]
    exact hA.inRange _
  funext r k
  show normalised (F := Ideal) (taken (F := Ideal) emb (wrapped (F := Ideal) (column1 (F := Ideal) links))) (ix2 r k) = _
  rw [normalised_apply]
  simp only [taken_apply _ _ hcol]
  rw [wrapped_apply _ _ (by rw [column1_apply]; exact (hA.inRange _).1), column1_apply]
  rfl

end Two

open One Two in
/-- The second table of the tiled program, after the operations before its tiled region, is the table of normalised rows
    picked by column 1 of the index array. -/
theorem table_two (W : Valuation τ sig (Elt Ideal))
    (hA : Contrast.Admissible (W (Proc.devRef .tc main_arg0)) (W (Proc.devRef .tc main_arg1))) :
    Contrast.rows (StableHlo.after (hostOps0 (F := Ideal)) W (Proc.devRef .tc main_call0_v19))
      = Contrast.picked_rows (W (Proc.devRef .tc main_arg0)) (W (Proc.devRef .tc main_arg1)) 1 := by
  rw [after_v19]
  exact Two.table_pure _ _ hA

end Cert.KernelIdeal.HostValue

end
-- ==== Proof.TiledHostTail.lean ====
/-
  The tiled program's last four host operations, read as one value.

  After the grid the program holds a column of 4096 row losses.  It then forms the zero, adds the column's entries onto
  it (a sum over both axes of a 4096 × 1 array, that is over the 4096 rows and the one column), forms 4096, and divides.
  The result, at its one index, is the sum of the column's entries over the 32-bit value of 4096.
-/
import proofs.«403767_j22084721836062_1_alg».proof.Proof.Gen.KernelIdeal.Launch
import proofs.«403767_j22084721836062_1_alg».proof.Proof.SpecRows
import Idealize.ShloMosaic.Lib.StableHlo.Run
import Idealize.ShloMosaic.PureOps.Ideal.Laws
import Idealize.ShloMosaic.Lib.ValueIdx

noncomputable section

namespace Cert.KernelIdeal.HostValue

open Cert.KernelIdeal Cert.KernelIdeal.Gen
open Idealize.ShloMosaic Idealize.ShloMosaic.ValueIdx

/-- The program's result after its last four host operations: the sum of the 4096 row losses over the row count. -/
theorem loss_tail (W : Valuation τ sig (Elt Ideal)) :
    (StableHlo.after (hostOps1 (F := Ideal)) W (Proc.devRef .tc main_v0) : S_.Idx → EReal)
      = fun _ => Ideal.div (∑ r : Fin 4096, (W (Proc.devRef .tc main_call0_v20) : S4096x1.Idx → EReal) (ix2 r (0 : Fin 1))) Cert.Contrast.rowCount := by
  have e : (StableHlo.after (hostOps1 (F := Ideal)) W (Proc.devRef .tc main_v0) : S_.Idx → EReal)
      = Host.divf (Host.reduceAdd (W (Proc.devRef .tc main_call0_v20) : S4096x1.Idx → EReal) (constant (F := Ideal) S_ .f32 0x00000000#32) Facts₀.reducesTo_S4096x1_S_d0_1 Facts₀.h_S_)
          (constant (F := Ideal) S_ .f32 0x45800000#32) := by
    simp only [hostOps1]
    open Idealize.ShloMosaic.StableHlo in after_results
    rfl
  rw [e]
  funext j
  unfold Host.divf Host.reduceAdd
  rw [Ideal.hostDivf_def, Ideal.hostReduceAdd_def, Ideal.hostReduceAdd_total _ (fun b => b.elim0), constant_apply, constant_apply,
    Ideal.ofBits_zero_f32, zero_add, sum_idx2, Cert.Contrast.rowCount]
  simp only [Fin.sum_univ_one]

end Cert.KernelIdeal.HostValue

end
-- ==== Proof.TiledResult.lean ====
/-
  The tiled program's result as a value.

  @main is a first stretch of host operations, the tiled region and a last stretch of host operations.  The first
  stretch turns the two arguments into the two tables of normalised rows the index pairs pick; the region leaves row `r`
  of its output column at the tiled row `r` of the two tables it finds; the last stretch sums the column and divides by
  the row count.  Chained, the result buffer holds, at its one index, the tiled loss of the two picked tables.
-/
import proofs.«403767_j22084721836062_1_alg».proof.Proof.TiledLaunch
import proofs.«403767_j22084721836062_1_alg».proof.Proof.TiledColumn
import proofs.«403767_j22084721836062_1_alg».proof.Proof.TiledHost
import proofs.«403767_j22084721836062_1_alg».proof.Proof.TiledHostTwo
import proofs.«403767_j22084721836062_1_alg».proof.Proof.TiledHostTail
import proofs.«403767_j22084721836062_1_alg».proof.Proof.SpecRows

set_option maxRecDepth 16384

noncomputable section

namespace Cert.KernelIdeal.Result

open Cert Cert.KernelIdeal Cert.KernelIdeal.Gen
open Idealize.ShloMosaic Idealize.ShloMosaic.TcCoe Idealize.ShloMosaic.ValueIdx
open Idealize.SL Idealize.SL.Sem

/-- THE TILED PROGRAM'S RESULT. From arguments the precondition admits, what the launch reads at the end in the result
    buffer is, at its one index, the tiled loss of the two tables of normalised rows the index pairs pick: the first host
    stretch forms the two tables; the grid leaves row `r` of the output column at the tiled row `r` of those tables; the
    last host stretch averages the column. -/
theorem kernel_result (m : (ℓ : Loc nD τ sig) → Buf (Elt Ideal) ℓ) (ρ : Dev nD → PrngReg) (c : Dev nD)
    (hA : Contrast.Admissible (m ((c.tc : Thread nD τ).loc main_arg0)) (m ((c.tc : Thread nD τ).loc main_arg1))) :
    W3 (F := Ideal) m ρ c (Proc.devRef .tc main_v0)
      = fun _ => Contrast.tiledLoss (Contrast.picked_rows (m ((c.tc : Thread nD τ).loc main_arg0)) (m ((c.tc : Thread nD τ).loc main_arg1)) 0)
                                    (Contrast.picked_rows (m ((c.tc : Thread nD τ).loc main_arg0)) (m ((c.tc : Thread nD τ).loc main_arg1)) 1) := by
  -- the launch contents of the two arguments are the arguments
  have hA' : Contrast.Admissible (W0 (F := Ideal) m ρ c (Proc.devRef .tc main_arg0)) (W0 (F := Ideal) m ρ c (Proc.devRef .tc main_arg1)) := hA
  -- the two tables the region finds
  have h1 : Contrast.rows (V1 (F := Ideal) m ρ c main_call0_v18)
      = Contrast.picked_rows (m ((c.tc : Thread nD τ).loc main_arg0)) (m ((c.tc : Thread nD τ).loc main_arg1)) 0 :=
    HostValue.table_one (W0 (F := Ideal) m ρ c) hA'
  have h2 : Contrast.rows (V1 (F := Ideal) m ρ c main_call0_v19)
      = Contrast.picked_rows (m ((c.tc : Thread nD τ).loc main_arg0)) (m ((c.tc : Thread nD τ).loc main_arg1)) 1 :=
    HostValue.table_two (W0 (F := Ideal) m ρ c) hA'
  -- the last stretch averages the column the region leaves
  refine (HostValue.loss_tail (W2 (F := Ideal) m ρ c)).trans ?_
  funext _
  unfold Contrast.tiledLoss
  refine congrArg (fun s => Ideal.div s Contrast.rowCount) (Finset.sum_congr rfl fun r _ => ?_)
  -- row `r` of the column: what the write-backs left, which is the tiled row of the two tables
  refine (congrFun (W2_out (F := Ideal) m ρ c) (ix2 r (0 : Fin 1))).trans ?_
  refine (TiledValue.out_column (V1 (F := Ideal) m ρ) c r).trans ?_
  rw [h1, h2]

end Cert.KernelIdeal.Result

end
-- ==== Proof.RefScores.lean ====
/-
  The four score matrices of the plain program, read entry by entry.

  With a and b the two tables of picked normalised rows, entry (r, q) of the plain program's four matrices is the
  row-by-row dot product divided by the temperature: a·aᵀ and b·bᵀ with the penalty taken off their diagonal, a·bᵀ and
  b·aᵀ as they are.  The diagonal indicator is built from two coordinate arrays compared word by word: the words of two
  coordinates below 4096 are equal exactly when the coordinates are.
-/
import proofs.«403767_j22084721836062_1_alg».proof.Proof.RefReadCopy
import proofs.«403767_j22084721836062_1_alg».proof.Proof.SpecRows
import Idealize.ShloMosaic.Lib.StableHlo.Predicate

noncomputable section

namespace Cert.ReferenceIdeal.Loss

open Cert.ReferenceIdeal Cert.ReferenceIdeal.Gen Cert.ReferenceIdeal.ReadCopy Idealize.ShloMosaic Idealize.ShloMosaic.ValueIdx
open Cert.Contrast

/-- The two arguments' types. -/
abbrev Emb := (⟨S100000x768, .f32⟩ : BufTy).Contents (Elt Ideal)
abbrev Links := (⟨S4096x2, .i32⟩ : BufTy).Contents (Elt Ideal)

/-- The first table of picked normalised rows. -/
abbrev tabA (emb : Emb) (links : Links) : Fin 4096 → Fin 768 → EReal := rows (val_main_v11 (F := Ideal) emb links)
/-- The second table of picked normalised rows. -/
abbrev tabB (emb : Emb) (links : Links) : Fin 4096 → Fin 768 → EReal := rows (val_main_v20 (F := Ideal) emb links)

/-- The words of two coordinates below 4096 are equal exactly when the coordinates are. -/
theorem ofNat_eq_iff (r q : Fin 4096) : BitVec.ofNat 32 r.val = BitVec.ofNat 32 q.val ↔ r = q := by
  constructor
  · intro h
    have := congrArg BitVec.toNat h
    simp only [BitVec.toNat_ofNat] at this
    have hr := r.isLt; have hq := q.isLt
    exact Fin.ext (by omega)
  · intro h; rw [h]

/-- The diagonal penalty matrix at (r, q). -/
theorem v28_ix2 (r q : Fin 4096) : val_main_v28 (F := Ideal) (ix2 r q) = diag r q * diagPenalty := by
  rw [val_main_v28_apply, val_main_v26_apply, val_main_v25_apply, val_main_v24_apply, val_main_v23_apply, val_main_c_3_apply,
    val_main_v21_apply, val_main_v22_apply, val_main_v27_apply, val_main_cst_apply]
  show (FloatOps.uitofp (F := Ideal) .f32 (IntOp.cmpi .eq (IntOp.addi (BitVec.ofNat 32 r.val) 0#32) (BitVec.ofNat 32 q.val)) : EReal)
    * Ideal.ofBits .f32 0x4E6E6B28#32 = diag r q * diagPenalty
  unfold diag diagPenalty
  have h0 : IntOp.addi (BitVec.ofNat 32 r.val) 0#32 = BitVec.ofNat 32 r.val := by
    unfold IntOp.addi; exact BitVec.add_zero _
  rw [h0]
  by_cases h : r = q
  · rw [if_pos h, (StableHlo.Predicate.cmpi_eq_iff).2 ((ofNat_eq_iff r q).2 h)]
    congr 1
    show (((1#1 : BitVec 1).toNat : ℝ) : EReal) = 1
    simp
  · rw [if_neg h]
    have hc : IntOp.cmpi .eq (BitVec.ofNat 32 r.val) (BitVec.ofNat 32 q.val) = 0#1 :=
      eq_zero_of_ne_one (fun hc => h ((ofNat_eq_iff r q).1 ((StableHlo.Predicate.cmpi_eq_iff).1 hc)))
    rw [hc]
    congr 1
    show (((0#1 : BitVec 1).toNat : ℝ) : EReal) = 0
    simp

/-! ## The four products of rows -/

/-- a·aᵀ at (r, q). -/
theorem v30_ix2 (emb : Emb) (links : Links) (r q : Fin 4096) :
    val_main_v30 (F := Ideal) emb links (ix2 r q) = dot (tabA emb links) (tabA emb links) r q := by
  rw [val_main_v30_apply]
  refine Finset.sum_congr rfl fun k _ => ?_
  rw [val_main_v29_apply]
  exact congrArg₂ (fun x y : EReal => x * y)
    (congrArg (val_main_v11 (F := Ideal) emb links) (funext fun a => Fin.ext (by match a with | ⟨0, _⟩ => rfl | ⟨1, _⟩ => rfl)))
    (congrArg (val_main_v11 (F := Ideal) emb links) (funext fun a => Fin.ext (by match a with | ⟨0, _⟩ => rfl | ⟨1, _⟩ => rfl)))

/-- b·bᵀ at (r, q). -/
theorem v35_ix2 (emb : Emb) (links : Links) (r q : Fin 4096) :
    val_main_v35 (F := Ideal) emb links (ix2 r q) = dot (tabB emb links) (tabB emb links) r q := by
  rw [val_main_v35_apply]
  refine Finset.sum_congr rfl fun k _ => ?_
  rw [val_main_v34_apply]
  exact congrArg₂ (fun x y : EReal => x * y)
    (congrArg (val_main_v20 (F := Ideal) emb links) (funext fun a => Fin.ext (by match a with | ⟨0, _⟩ => rfl | ⟨1, _⟩ => rfl)))
    (congrArg (val_main_v20 (F := Ideal) emb links) (funext fun a => Fin.ext (by match a with | ⟨0, _⟩ => rfl | ⟨1, _⟩ => rfl)))

/-- a·bᵀ at (r, q). -/
theorem v40_ix2 (emb : Emb) (links : Links) (r q : Fin 4096) :
    val_main_v40 (F := Ideal) emb links (ix2 r q) = dot (tabA emb links) (tabB emb links) r q := by
  rw [val_main_v40_apply]
  refine Finset.sum_congr rfl fun k _ => ?_
  rw [val_main_v39_apply]
  exact congrArg₂ (fun x y : EReal => x * y)
    (congrArg (val_main_v11 (F := Ideal) emb links) (funext fun a => Fin.ext (by match a with | ⟨0, _⟩ => rfl | ⟨1, _⟩ => rfl)))
    (congrArg (val_main_v20 (F := Ideal) emb links) (funext fun a => Fin.ext (by match a with | ⟨0, _⟩ => rfl | ⟨1, _⟩ => rfl)))

/-- b·aᵀ at (r, q). -/
theorem v44_ix2 (emb : Emb) (links : Links) (r q : Fin 4096) :
    val_main_v44 (F := Ideal) emb links (ix2 r q) = dot (tabB emb links) (tabA emb links) r q := by
  rw [val_main_v44_apply]
  refine Finset.sum_congr rfl fun k _ => ?_
  rw [val_main_v43_apply]
  exact congrArg₂ (fun x y : EReal => x * y)
    (congrArg (val_main_v20 (F := Ideal) emb links) (funext fun a => Fin.ext (by match a with | ⟨0, _⟩ => rfl | ⟨1, _⟩ => rfl)))
    (congrArg (val_main_v11 (F := Ideal) emb links) (funext fun a => Fin.ext (by match a with | ⟨0, _⟩ => rfl | ⟨1, _⟩ => rfl)))

/-! ## Divided by the temperature, the penalty taken off the two self-products -/

/-- The diagonal-penalised a·aᵀ at (r, q). -/
theorem v33_ix2 (emb : Emb) (links : Links) (r q : Fin 4096) :
    val_main_v33 (F := Ideal) emb links (ix2 r q) = plainSelf (tabA emb links) r q := by
  rw [val_main_v33_apply, val_main_v32_apply, v30_ix2, v28_ix2, val_main_v31_apply, val_main_cst_4_apply]
  rfl

/-- The diagonal-penalised b·bᵀ at (r, q). -/
theorem v38_ix2 (emb : Emb) (links : Links) (r q : Fin 4096) :
    val_main_v38 (F := Ideal) emb links (ix2 r q) = plainSelf (tabB emb links) r q := by
  rw [val_main_v38_apply, val_main_v37_apply, v35_ix2, v28_ix2, val_main_v36_apply, val_main_cst_5_apply]
  rfl

/-- a·bᵀ over the temperature at (r, q). -/
theorem v42_ix2 (emb : Emb) (links : Links) (r q : Fin 4096) :
    val_main_v42 (F := Ideal) emb links (ix2 r q) = plainCross (tabA emb links) (tabB emb links) r q := by
  rw [val_main_v42_apply, v40_ix2, val_main_v41_apply, val_main_cst_6_apply]
  rfl

/-- b·aᵀ over the temperature at (r, q). -/
theorem v46_ix2 (emb : Emb) (links : Links) (r q : Fin 4096) :
    val_main_v46 (F := Ideal) emb links (ix2 r q) = plainCross (tabB emb links) (tabA emb links) r q := by
  rw [val_main_v46_apply, v44_ix2, val_main_v45_apply, val_main_cst_7_apply]
  rfl

end Cert.ReferenceIdeal.Loss

end
-- ==== Proof.RefLogSoftmax.lean ====
/-
  The two joined score matrices and their row-wise log-softmax, read entry by entry.

  Joining two 4096 × 4096 matrices side by side gives, in row r, the first matrix's row followed by the second's.  The row
  maximum the plain program takes is a fold of the maximum from -∞ over the 8192 entries of the row, which is the
  supremum of the row; the log-softmax entry is then the entry less that maximum, less the logarithm of the sum over the
  row of the exponentials of the entries less the maximum.
-/
import proofs.«403767_j22084721836062_1_alg».proof.Proof.RefScores
import Idealize.ShloMosaic.PureOps.Reduce
import Mathlib.Data.Finset.Fold
import Mathlib.Data.Finset.Lattice.Fold

noncomputable section

namespace Cert.ReferenceIdeal.Loss

open Cert.ReferenceIdeal Cert.ReferenceIdeal.Gen Cert.ReferenceIdeal.ReadCopy Idealize.ShloMosaic Idealize.ShloMosaic.ValueIdx
open Cert.Contrast

/-! ## Two matrices side by side -/

/-- Row r of two 4096 × 4096 matrices joined along the columns is the first's row r followed by the second's. -/
theorem concat_joined (x₁ x₂ : S4096x4096.Idx → EReal) (r : Fin 4096) (c : Fin 8192) :
    concatenate S4096x8192 1 [⟨S4096x4096, x₁⟩, ⟨S4096x4096, x₂⟩] concatenates_S4096x4096_S4096x4096_S4096x8192_d1 (ix2 r c)
      = joined (fun q => x₁ (ix2 r q)) (fun q => x₂ (ix2 r q)) c := by
  unfold joined
  by_cases h : c.val < 4096
  · rw [dif_pos h]
    exact concatenate_pair_apply_left (t := S4096x8192) (s₁ := S4096x4096) (s₂ := S4096x4096) 1 x₁ x₂ _ (ix2 r c) rfl
      (ix2 r ⟨c.val, h⟩) (fun b => by match b with | ⟨0, _⟩ => rfl | ⟨1, _⟩ => rfl)
  · rw [dif_neg h]
    have hc := c.isLt
    exact concatenate_pair_apply_right (t := S4096x8192) (s₁ := S4096x4096) (s₂ := S4096x4096) 1 x₁ x₂ _ (ix2 r c) rfl rfl
      (ix2 r ⟨c.val - 4096, by omega⟩)
      (fun b hb => by
        match b with
        | ⟨0, _⟩ => rfl
        | ⟨1, _⟩ => exact absurd rfl hb)
      (by show c.val - 4096 + 4096 = c.val; omega)

/-! ## A row's maximum -/

/-- A fold of the maximum from the bottom element is the supremum. -/
theorem fold_max_bot_eq_sup {ι : Type} (s : Finset ι) (f : ι → EReal) : s.fold max ⊥ f = s.sup f := by
  apply le_antisymm
  · rw [Finset.fold_max_le]; exact ⟨bot_le, fun x hx => Finset.le_sup hx⟩
  · rw [Finset.sup_le_iff]; intro x hx; rw [Finset.le_fold_max]; exact Or.inr ⟨x, hx, le_rfl⟩

/-- The 32-bit pattern of -∞ is the bottom element. -/
theorem ofBits_neg_inf : Ideal.ofBits .f32 0xFF800000#32 = (⊥ : EReal) := by simp [Ideal.ofBits, Ideal.ieee]

theorem reduces_row : S4096x8192.Reduces [1] S4096 := by decide

/-- The reduced index r with column k put back is (r, k). -/
theorem lift_row (r : Fin 4096) (k : Fin 8192) : reduces_row.lift (ix1 r) k = ix2 r k := by
  funext c; apply Fin.ext
  match c with
  | ⟨0, _⟩ => rfl
  | ⟨1, _⟩ => rfl

/-- From -∞ the maximum-reduce over the columns, at row r, is the supremum of the row. -/
theorem hostMax_row (x : S4096x8192.Idx → EReal) (r : Fin 4096) :
    Host.reduce (FloatOps.maximumf (F := Ideal) (φ := .f32)) x (constant (F := Ideal) S_ .f32 0xFF800000#32) reducesTo_S4096x8192_S4096_d1 h_S_ (ix1 r)
      = Finset.univ.sup fun c : Fin 8192 => x (ix2 r c) := by
  rw [Host.reduce_eq_fold_single (FloatOps.maximumf (F := Ideal) (φ := .f32)) x _ reducesTo_S4096x8192_S4096_d1 reduces_row h_S_]
  have hf : (x ∘ reduces_row.lift (ix1 r)) = fun c : Fin 8192 => x (ix2 r c) := funext fun k => congrArg x (lift_row r k)
  rw [← fold_max_bot_eq_sup, ← ofBits_neg_inf]
  exact congrArg (fun f => Finset.fold max (Ideal.ofBits .f32 0xFF800000#32) f (Finset.univ : Finset (Fin 8192))) hf

/-! ## The first joined matrix: a·bᵀ beside the penalised a·aᵀ -/

/-- The joined matrix at (r, c). -/
theorem v47_ix2 (emb : Emb) (links : Links) (r : Fin 4096) (c : Fin 8192) :
    val_main_v47 (F := Ideal) emb links (ix2 r c)
      = joined (plainCross (tabA emb links) (tabB emb links) r) (plainSelf (tabA emb links) r) c := by
  unfold val_main_v47
  rw [concat_joined]
  simp only [v42_ix2, v33_ix2]

/-- The row maximum at r. -/
theorem call1_v2_ix1 (emb : Emb) (links : Links) (r : Fin 4096) :
    val_main_call1_v2 (F := Ideal) emb links (ix1 r)
      = Finset.univ.sup (joined (plainCross (tabA emb links) (tabB emb links) r) (plainSelf (tabA emb links) r)) := by
  rw [val_main_call1_v2_apply, val_main_call1_v1_apply, val_main_call1_cst_0_apply]
  unfold val_main_call1_v0 val_main_call1_cst
  rw [hostMax_row]
  simp only [v47_ix2]
  show max (Ideal.ofBits .f32 0xFF800000#32) _ = _
  rw [ofBits_neg_inf]
  exact max_eq_right bot_le

/-- The entry less the row maximum at (r, c). -/
theorem call1_v5_ix2 (emb : Emb) (links : Links) (r : Fin 4096) (c : Fin 8192) :
    val_main_call1_v5 (F := Ideal) emb links (ix2 r c)
      = joined (plainCross (tabA emb links) (tabB emb links) r) (plainSelf (tabA emb links) r) c
        - Finset.univ.sup (joined (plainCross (tabA emb links) (tabB emb links) r) (plainSelf (tabA emb links) r)) := by
  rw [val_main_call1_v5_apply, val_main_call1_v4_apply, val_main_call1_v3_apply, v47_ix2]
  have hi : idx_main_call1_v3 (idx_main_call1_v4 (ix2 r c)) = ix1 r := funext fun a => Fin.ext (by match a with | ⟨0, _⟩ => rfl)
  rw [hi, call1_v2_ix1]
  rfl

/-- The sum of the row's exponentials at r. -/
theorem call1_v7_ix1 (emb : Emb) (links : Links) (r : Fin 4096) :
    val_main_call1_v7 (F := Ideal) emb links (ix1 r)
      = ∑ c : Fin 8192, Ideal.exp (joined (plainCross (tabA emb links) (tabB emb links) r) (plainSelf (tabA emb links) r) c
        - Finset.univ.sup (joined (plainCross (tabA emb links) (tabB emb links) r) (plainSelf (tabA emb links) r))) := by
  rw [val_main_call1_v7_apply, val_main_call1_cst_1_apply]
  show Ideal.ofBits .f32 0x00000000#32 + _ = _
  rw [Ideal.ofBits_zero_f32, zero_add]
  refine Finset.sum_congr rfl fun k _ => ?_
  have hi : idx_main_call1_v7 (ix1 r) k = ix2 r k := funext fun a => Fin.ext (by match a with | ⟨0, _⟩ => rfl | ⟨1, _⟩ => rfl)
  rw [hi, val_main_call1_v6_apply, call1_v5_ix2]
  rfl

/-- The log-softmax at (r, c). -/
theorem v49_ix2 (emb : Emb) (links : Links) (r : Fin 4096) (c : Fin 8192) :
    val_main_v49 (F := Ideal) emb links (ix2 r c)
      = (joined (plainCross (tabA emb links) (tabB emb links) r) (plainSelf (tabA emb links) r) c
          - Finset.univ.sup (joined (plainCross (tabA emb links) (tabB emb links) r) (plainSelf (tabA emb links) r)))
        - Ideal.log (∑ c' : Fin 8192, Ideal.exp (joined (plainCross (tabA emb links) (tabB emb links) r) (plainSelf (tabA emb links) r) c'
          - Finset.univ.sup (joined (plainCross (tabA emb links) (tabB emb links) r) (plainSelf (tabA emb links) r)))) := by
  rw [val_main_v49_apply, call1_v5_ix2, val_main_call1_v10_apply, val_main_call1_v9_apply, val_main_call1_v8_apply]
  have hi : idx_main_call1_v8 (idx_main_call1_v10 (ix2 r c)) = ix1 r := funext fun a => Fin.ext (by match a with | ⟨0, _⟩ => rfl)
  rw [hi, call1_v7_ix1]
  rfl

/-! ## The second joined matrix: b·aᵀ beside the penalised b·bᵀ -/

/-- The joined matrix at (r, c). -/
theorem v48_ix2 (emb : Emb) (links : Links) (r : Fin 4096) (c : Fin 8192) :
    val_main_v48 (F := Ideal) emb links (ix2 r c)
      = joined (plainCross (tabB emb links) (tabA emb links) r) (plainSelf (tabB emb links) r) c := by
  unfold val_main_v48
  rw [concat_joined]
  simp only [v46_ix2, v38_ix2]

/-- The row maximum at r. -/
theorem call2_v2_ix1 (emb : Emb) (links : Links) (r : Fin 4096) :
    val_main_call2_v2 (F := Ideal) emb links (ix1 r)
      = Finset.univ.sup (joined (plainCross (tabB emb links) (tabA emb links) r) (plainSelf (tabB emb links) r)) := by
  rw [val_main_call2_v2_apply, val_main_call2_v1_apply, val_main_call2_cst_0_apply]
  unfold val_main_call2_v0 val_main_call2_cst
  rw [hostMax_row]
  simp only [v48_ix2]
  show max (Ideal.ofBits .f32 0xFF800000#32) _ = _
  rw [ofBits_neg_inf]
  exact max_eq_right bot_le

/-- The entry less the row maximum at (r, c). -/
theorem call2_v5_ix2 (emb : Emb) (links : Links) (r : Fin 4096) (c : Fin 8192) :
    val_main_call2_v5 (F := Ideal) emb links (ix2 r c)
      = joined (plainCross (tabB emb links) (tabA emb links) r) (plainSelf (tabB emb links) r) c
        - Finset.univ.sup (joined (plainCross (tabB emb links) (tabA emb links) r) (plainSelf (tabB emb links) r)) := by
  rw [val_main_call2_v5_apply, val_main_call2_v4_apply, val_main_call2_v3_apply, v48_ix2]
  have hi : idx_main_call2_v3 (idx_main_call2_v4 (ix2 r c)) = ix1 r := funext fun a => Fin.ext (by match a with | ⟨0, _⟩ => rfl)
  rw [hi, call2_v2_ix1]
  rfl

/-- The sum of the row's exponentials at r. -/
theorem call2_v7_ix1 (emb : Emb) (links : Links) (r : Fin 4096) :
    val_main_call2_v7 (F := Ideal) emb links (ix1 r)
      = ∑ c : Fin 8192, Ideal.exp (joined (plainCross (tabB emb links) (tabA emb links) r) (plainSelf (tabB emb links) r) c
        - Finset.univ.sup (joined (plainCross (tabB emb links) (tabA emb links) r) (plainSelf (tabB emb links) r))) := by
  rw [val_main_call2_v7_apply, val_main_call2_cst_1_apply]
  show Ideal.ofBits .f32 0x00000000#32 + _ = _
  rw [Ideal.ofBits_zero_f32, zero_add]
  refine Finset.sum_congr rfl fun k _ => ?_
  have hi : idx_main_call2_v7 (ix1 r) k = ix2 r k := funext fun a => Fin.ext (by match a with | ⟨0, _⟩ => rfl | ⟨1, _⟩ => rfl)
  rw [hi, val_main_call2_v6_apply, call2_v5_ix2]
  rfl

/-- The log-softmax at (r, c). -/
theorem v69_ix2 (emb : Emb) (links : Links) (r : Fin 4096) (c : Fin 8192) :
    val_main_v69 (F := Ideal) emb links (ix2 r c)
      = (joined (plainCross (tabB emb links) (tabA emb links) r) (plainSelf (tabB emb links) r) c
          - Finset.univ.sup (joined (plainCross (tabB emb links) (tabA emb links) r) (plainSelf (tabB emb links) r)))
        - Ideal.log (∑ c' : Fin 8192, Ideal.exp (joined (plainCross (tabB emb links) (tabA emb links) r) (plainSelf (tabB emb links) r) c'
          - Finset.univ.sup (joined (plainCross (tabB emb links) (tabA emb links) r) (plainSelf (tabB emb links) r)))) := by
  rw [val_main_v69_apply, call2_v5_ix2, val_main_call2_v10_apply, val_main_call2_v9_apply, val_main_call2_v8_apply]
  have hi : idx_main_call2_v8 (idx_main_call2_v10 (ix2 r c)) = ix1 r := funext fun a => Fin.ext (by match a with | ⟨0, _⟩ => rfl)
  rw [hi, call2_v7_ix1]
  rfl

end Cert.ReferenceIdeal.Loss

end
-- ==== Proof.RefLoss.lean ====
/-
  The plain program's result as the specification's loss of its two tables of picked normalised rows.

  The diagonal of each 4096 × 8192 log-softmax matrix is picked by a gather at the index pairs (r, r); both
  coordinates are in range, so the gather's clamp leaves them alone and entry r of the result is entry (r, r) of the
  matrix: the specification's diagonal log-probability.  Minus the rows' mean of each, halved and added, is the loss.
-/
import proofs.«403767_j22084721836062_1_alg».proof.Proof.RefLogSoftmax

noncomputable section

namespace Cert.ReferenceIdeal.Loss

open Cert.ReferenceIdeal Cert.ReferenceIdeal.Gen Cert.ReferenceIdeal.ReadCopy Idealize.ShloMosaic Idealize.ShloMosaic.ValueIdx
open Cert.Contrast

/-! ## The index pairs (r, r) -/

/-- The word of a coordinate below 4096 is not negative. -/
theorem slt_zero (r : Fin 4096) : IntOp.cmpi .slt (BitVec.ofNat 32 r.val) 0#32 = 0#1 := by
  refine eq_zero_of_ne_one fun h => ?_
  have hr := r.isLt
  have := (StableHlo.Predicate.slt_iff_toNat (a := BitVec.ofNat 32 r.val) (b := 0#32)
    (by simp only [BitVec.toNat_ofNat]; omega) (by decide)).1 h
  simp at this

/-- Two columns of words joined side by side: column 0 is the first, column 1 the second. -/
theorem concat_cols (x₁ x₂ : S4096x1.Idx → BitVec 32) (r : Fin 4096) :
    concatenate S4096x2 1 [⟨S4096x1, x₁⟩, ⟨S4096x1, x₂⟩] concatenates_S4096x1_S4096x1_S4096x2_d1 (ix2 r (0 : Fin 2)) = x₁ (ix2 r (0 : Fin 1))
    ∧ concatenate S4096x2 1 [⟨S4096x1, x₁⟩, ⟨S4096x1, x₂⟩] concatenates_S4096x1_S4096x1_S4096x2_d1 (ix2 r (1 : Fin 2)) = x₂ (ix2 r (0 : Fin 1)) := by
  constructor
  · exact concatenate_pair_apply_left (t := S4096x2) (s₁ := S4096x1) (s₂ := S4096x1) 1 x₁ x₂ _ (ix2 r (0 : Fin 2)) rfl
      (ix2 r (0 : Fin 1)) (fun b => by match b with | ⟨0, _⟩ => rfl | ⟨1, _⟩ => rfl)
  · exact concatenate_pair_apply_right (t := S4096x2) (s₁ := S4096x1) (s₂ := S4096x1) 1 x₁ x₂ _ (ix2 r (1 : Fin 2)) rfl rfl
      (ix2 r (0 : Fin 1))
      (fun b hb => by
        match b with
        | ⟨0, _⟩ => rfl
        | ⟨1, _⟩ => exact absurd rfl hb)
      rfl

/-- The first program's index pairs: both words of pair r are the word of r. -/
theorem v64_ix2 (r : Fin 4096) :
    val_main_v64 (F := Ideal) (ix2 r (0 : Fin 2)) = BitVec.ofNat 32 r.val ∧ val_main_v64 (F := Ideal) (ix2 r (1 : Fin 2)) = BitVec.ofNat 32 r.val := by
  unfold val_main_v64
  obtain ⟨h0, h1⟩ := concat_cols (val_main_v62 (F := Ideal)) (val_main_v63 (F := Ideal)) r
  have hi0 : idx_main_v62 (ix2 r (0 : Fin 1)) = ix1 r := funext fun a => Fin.ext (by match a with | ⟨0, _⟩ => rfl)
  have hi1 : idx_main_v63 (ix2 r (0 : Fin 1)) = ix1 r := funext fun a => Fin.ext (by match a with | ⟨0, _⟩ => rfl)
  constructor
  · rw [h0, val_main_v62_apply, hi0, val_main_v56_apply, val_main_v53_apply, val_main_v50_apply, val_main_v52_apply, val_main_c_8_apply]
    show Scalar.select (IntOp.cmpi .slt (BitVec.ofNat 32 r.val) 0#32) _ _ = _
    rw [slt_zero, select_zero]
  · rw [h1, val_main_v63_apply, hi1, val_main_v61_apply, val_main_v58_apply, val_main_v51_apply, val_main_v57_apply, val_main_c_10_apply]
    show Scalar.select (IntOp.cmpi .slt (BitVec.ofNat 32 r.val) 0#32) _ _ = _
    rw [slt_zero, select_zero]

/-- The second program's index pairs: the same. -/
theorem v84_ix2 (r : Fin 4096) :
    val_main_v84 (F := Ideal) (ix2 r (0 : Fin 2)) = BitVec.ofNat 32 r.val ∧ val_main_v84 (F := Ideal) (ix2 r (1 : Fin 2)) = BitVec.ofNat 32 r.val := by
  unfold val_main_v84
  obtain ⟨h0, h1⟩ := concat_cols (val_main_v82 (F := Ideal)) (val_main_v83 (F := Ideal)) r
  have hi0 : idx_main_v82 (ix2 r (0 : Fin 1)) = ix1 r := funext fun a => Fin.ext (by match a with | ⟨0, _⟩ => rfl)
  have hi1 : idx_main_v83 (ix2 r (0 : Fin 1)) = ix1 r := funext fun a => Fin.ext (by match a with | ⟨0, _⟩ => rfl)
  constructor
  · rw [h0, val_main_v82_apply, hi0, val_main_v76_apply, val_main_v73_apply, val_main_v70_apply, val_main_v72_apply, val_main_c_14_apply]
    show Scalar.select (IntOp.cmpi .slt (BitVec.ofNat 32 r.val) 0#32) _ _ = _
    rw [slt_zero, select_zero]
  · rw [h1, val_main_v83_apply, hi1, val_main_v81_apply, val_main_v78_apply, val_main_v71_apply, val_main_v77_apply, val_main_c_16_apply]
    show Scalar.select (IntOp.cmpi .slt (BitVec.ofNat 32 r.val) 0#32) _ _ = _
    rw [slt_zero, select_zero]

/-! ## The gather of the diagonal -/

/-- The word of a coordinate below 4096, read signed, is the coordinate. -/
theorem toInt_toNat_ofNat (r : Fin 4096) : (BitVec.ofNat 32 r.val).toInt.toNat = r.val := by
  have hr := r.isLt
  rw [StableHlo.Predicate.toInt_ofNat_small r.val (by omega)]
  exact Int.toNat_natCast _

/-- The row coordinate the gather reads for result entry r, when the first word of pair r is the word of r. -/
theorem gather_diag_row (idx : S4096x2.Idx → BitVec 32) (r : Fin 4096) (h0 : idx (ix2 r (0 : Fin 2)) = BitVec.ofNat 32 r.val) :
    gather_S4096x8192_S4096x2_S4096_n_01_n_n_01_1_11.start (ix1 r) idx (0 : Fin S4096x8192.rank)
      + gather_S4096x8192_S4096x2_S4096_n_01_n_n_01_1_11.batchCoord (ix1 r) (0 : Fin S4096x8192.rank)
      + gather_S4096x8192_S4096x2_S4096_n_01_n_n_01_1_11.offCoord (ix1 r) (0 : Fin S4096x8192.rank) = r.val := by
  have hr := r.isLt
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S4096x8192.rank) ∈ gather_S4096x8192_S4096x2_S4096_n_01_n_n_01_1_11.startIndexMap by decide)]
  have hsi : gather_S4096x8192_S4096x2_S4096_n_01_n_n_01_1_11.siIdx (ix1 r)
      ⟨List.idxOf (0 : Fin S4096x8192.rank) gather_S4096x8192_S4096x2_S4096_n_01_n_n_01_1_11.startIndexMap,
        List.idxOf_lt_length_iff.2 (by decide)⟩ = ix2 r (0 : Fin 2) := by
    funext b; refine Fin.ext ?_
    match b with
    | ⟨0, _⟩ => rfl
    | ⟨1, _⟩ => rfl
  rw [hsi, h0, toInt_toNat_ofNat]
  show min r.val (4096 - 1) = r.val
  omega

/-- The column coordinate the gather reads for result entry r, when the second word of pair r is the word of r. -/
theorem gather_diag_col (idx : S4096x2.Idx → BitVec 32) (r : Fin 4096) (h1 : idx (ix2 r (1 : Fin 2)) = BitVec.ofNat 32 r.val) :
    gather_S4096x8192_S4096x2_S4096_n_01_n_n_01_1_11.start (ix1 r) idx (1 : Fin S4096x8192.rank)
      + gather_S4096x8192_S4096x2_S4096_n_01_n_n_01_1_11.batchCoord (ix1 r) (1 : Fin S4096x8192.rank)
      + gather_S4096x8192_S4096x2_S4096_n_01_n_n_01_1_11.offCoord (ix1 r) (1 : Fin S4096x8192.rank) = r.val := by
  have hr := r.isLt
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S4096x8192.rank) ∈ gather_S4096x8192_S4096x2_S4096_n_01_n_n_01_1_11.startIndexMap by decide)]
  have hsi : gather_S4096x8192_S4096x2_S4096_n_01_n_n_01_1_11.siIdx (ix1 r)
      ⟨List.idxOf (1 : Fin S4096x8192.rank) gather_S4096x8192_S4096x2_S4096_n_01_n_n_01_1_11.startIndexMap,
        List.idxOf_lt_length_iff.2 (by decide)⟩ = ix2 r (1 : Fin 2) := by
    funext b; refine Fin.ext ?_
    match b with
    | ⟨0, _⟩ => rfl
    | ⟨1, _⟩ => rfl
  rw [hsi, h1, toInt_toNat_ofNat]
  show min r.val (8192 - 1) = r.val
  omega

/-- A gather of single entries of a 4096 × 8192 matrix at the index pairs (r, r) reads entry (r, r). -/
theorem gather_diag {α : Type} (x : S4096x8192.Idx → α) (idx : S4096x2.Idx → BitVec 32) (r : Fin 4096)
    (h0 : idx (ix2 r (0 : Fin 2)) = BitVec.ofNat 32 r.val) (h1 : idx (ix2 r (1 : Fin 2)) = BitVec.ofNat 32 r.val) :
    Host.gather gather_S4096x8192_S4096x2_S4096_n_01_n_n_01_1_11 x idx (ix1 r)
      = x (ix2 r ⟨r.val, by have := r.isLt; omega⟩) := by
  unfold Host.gather
  congr 1
  funext a
  refine Fin.ext ?_
  match a with
  | ⟨0, _⟩ => exact gather_diag_row idx r h0
  | ⟨1, _⟩ => exact gather_diag_col idx r h1

/-- The first diagonal log-probability at r. -/
theorem v65_ix1 (emb : Emb) (links : Links) (r : Fin 4096) :
    val_main_v65 (F := Ideal) emb links (ix1 r)
      = logSoftmaxAt (plainCross (tabA emb links) (tabB emb links) r) (plainSelf (tabA emb links) r) r := by
  unfold val_main_v65
  rw [gather_diag _ _ r (v64_ix2 r).1 (v64_ix2 r).2, v49_ix2]
  rfl

/-- The second diagonal log-probability at r. -/
theorem v85_ix1 (emb : Emb) (links : Links) (r : Fin 4096) :
    val_main_v85 (F := Ideal) emb links (ix1 r)
      = logSoftmaxAt (plainCross (tabB emb links) (tabA emb links) r) (plainSelf (tabB emb links) r) r := by
  unfold val_main_v85
  rw [gather_diag _ _ r (v84_ix2 r).1 (v84_ix2 r).2, v69_ix2]
  rfl

/-! ## The two means and the loss -/

/-- A rank-1 index set is its coordinate range, so a sum over it is the sum over the coordinate. -/
theorem sum_idx1 {n : Nat} (f : (⟨1, ![n]⟩ : Shape).Idx → EReal) : ∑ j, f j = ∑ r : Fin n, f (ix1 r) := by
  let e : (⟨1, ![n]⟩ : Shape).Idx ≃ Fin n :=
    { toFun := fun i => i 0, invFun := fun r => ix1 r, left_inv := fun i => (eq_ix1 i).symm, right_inv := fun _ => rfl }
  exact (Equiv.sum_comp e.symm f).symm

/-- Minus the mean of the first diagonal log-probabilities. -/
theorem v68_eq (emb : Emb) (links : Links) (i : S_.Idx) :
    val_main_v68 (F := Ideal) emb links i = plainLossA (tabA emb links) (tabB emb links) := by
  rw [val_main_v68_apply, val_main_v67_apply, val_main_v66_apply, val_main_cst_12_apply, val_main_cst_13_apply]
  show Ideal.div (-(Ideal.ofBits .f32 0x00000000#32 + _)) (Ideal.ofBits .f32 0x45800000#32) = _
  rw [Ideal.ofBits_zero_f32, zero_add, sum_idx1]
  simp only [v65_ix1]
  rfl

/-- Minus the mean of the second diagonal log-probabilities. -/
theorem v88_eq (emb : Emb) (links : Links) (i : S_.Idx) :
    val_main_v88 (F := Ideal) emb links i = plainLossB (tabA emb links) (tabB emb links) := by
  rw [val_main_v88_apply, val_main_v87_apply, val_main_v86_apply, val_main_cst_18_apply, val_main_cst_19_apply]
  show Ideal.div (-(Ideal.ofBits .f32 0x00000000#32 + _)) (Ideal.ofBits .f32 0x45800000#32) = _
  rw [Ideal.ofBits_zero_f32, zero_add, sum_idx1]
  simp only [v85_ix1]
  rfl

/-- The plain program's result is the specification's loss of its two tables of picked normalised rows. -/
theorem loss_eq (emb : Emb) (links : Links) :
    ReadCopy.val_main_v91 (F := Ideal) emb links
      = fun _ => Contrast.plainLoss (Contrast.rows (ReadCopy.val_main_v11 (F := Ideal) emb links))
          (Contrast.rows (ReadCopy.val_main_v20 (F := Ideal) emb links)) := by
  funext i
  rw [val_main_v91_apply, val_main_v89_apply, val_main_v90_apply, v68_eq, v88_eq, val_main_cst_20_apply, val_main_cst_21_apply]
  rfl

end Cert.ReferenceIdeal.Loss

end
-- ==== Proof.LibGatherRows.lean ====
/-
  A gather of whole rows, read at an index.

  The operand has `N` rows of `K` entries, the start indices form a column of `n` words, and the result has `n` rows of
  `K` entries: the operand's row axis is collapsed and is the one axis the start index names, the result's entry axis is
  its one offset axis (a whole row is taken), and the index vector lies along the column's second axis.  Entry `(p, k)` of
  the result is then entry `k` of the operand's row whose number is start index `p`, read as a signed integer and clamped
  into `[0, N - 1]`.
-/
import Idealize.ShloMosaic.Lib.ValueIdx

noncomputable section

namespace Cert.GatherRows

open Idealize.ShloMosaic Idealize.ShloMosaic.ValueIdx

/-- Entry `(p, k)` of a row gather: the operand's entry `k` in the row named by start index `p`, the index read signed and
    clamped into `[0, N - 1]`.  The five hypotheses are the dimension numbers, each an equation between literals. -/
theorem gather_rows_apply {α : Type} {N K n w : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (p : Fin n) (k : Fin K) (hN : 0 < N) :
    Host.gather d x idx (ix2 p k)
      = x (ix2 (⟨min (idx (ix2 p (0 : Fin 1))).toInt.toNat (N - 1), by omega⟩ : Fin N) k) := by
  unfold Host.gather
  congr 1
  funext a
  have hb : ∀ a : Fin 2, a ∉ d.operandBatchingDims := fun a => by rw [hob]; exact List.not_mem_nil
  match a with
  | ⟨0, _⟩ =>
    -- the row axis: collapsed, so no offset; its start is the clamped index word
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p k) idx 0 + d.batchCoord (ix2 p k) 0 + d.offCoord (ix2 p k) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the column's row coordinate is the result's coordinate on its one batch axis, the first
      unfold GatherDims.siIdx
      rw [dif_neg (by rw [hivd]; simp)]
      unfold GatherDims.siCoord
      apply Fin.ext
      simp only [Fin.val_cast]
      have hbd : ∀ e ∈ d.batchDims, e = (0 : Fin 2) := by
        intro e he
        have h1 : e ∉ d.offsetDims := by simpa using (List.mem_filter.1 he).2
        rw [hoff] at h1
        fin_cases e
        · rfl
        · exact absurd (List.mem_singleton.mpr rfl) h1
      have key : ∀ (i : Nat) (hi : i < d.batchDims.length), d.batchDims[i]'hi = (0 : Fin 2) :=
        fun i hi => hbd _ (List.getElem_mem hi)
      rw [key]
    | ⟨1, _⟩ =>
      unfold GatherDims.siIdx
      rw [dif_pos (by rw [hivd])]
      apply Fin.ext
      show List.idxOf (0 : Fin 2) d.startIndexMap = 0
      rw [hsim]; simp
  | ⟨1, _⟩ =>
    -- the entry axis: not start-indexed, so it starts at 0; its offset is the result's second coordinate
    apply Fin.ext
    have hm : (1 : Fin 2) ∉ d.startIndexMap := by rw [hsim]; simp
    have hk : (1 : Fin 2) ∈ d.sKept := by rw [GatherDims.mem_sKept, hcoll, hob]; simp
    show d.start (ix2 p k) idx 1 + d.batchCoord (ix2 p k) 1 + d.offCoord (ix2 p k) 1 = _
    rw [GatherDims.batchCoord_eq_zero _ _ _ (hb 1)]
    simp only [Nat.add_zero, GatherDims.start, dif_neg hm, Nat.zero_add, GatherDims.offCoord, dif_pos hk]
    have h1 : ∀ e ∈ d.offsetDims, e = (1 : Fin 2) := by
      rw [hoff]; intro e he; exact List.mem_singleton.mp he
    have key : ∀ (i : Nat) (hi : i < d.offsetDims.length), d.offsetDims[i]'hi = (1 : Fin 2) :=
      fun i hi => h1 _ (List.getElem_mem hi)
    rw [key]

end Cert.GatherRows

end
-- ==== Proof.RefTables.lean ====
/-
  The plain program's two tables of normalised rows.

  The plain program divides every row of the 100000 × 768 table by its Euclidean length and then takes, for each of the
  two columns of the 4096 × 2 index array, the 4096 rows that the column names.  A negative index word would first have
  100000 added to it and the row number is clamped into the table; for words in `[0, 100000)` neither changes anything,
  so the rows taken are exactly the normalised rows `unitRow emb (pick links s b)`.
-/
import proofs.«403767_j22084721836062_1_alg».proof.Proof.RefReadCopy
import proofs.«403767_j22084721836062_1_alg».proof.Proof.SpecRows
import proofs.«403767_j22084721836062_1_alg».proof.Proof.LibGatherRows
import proofs.«403767_j22084721836062_1_alg».proof.Proof.PreDecoded
import Idealize.ShloMosaic.Lib.ValueIdx
import Idealize.ShloMosaic.PureOps.Ideal.Laws

noncomputable section

namespace Cert.ReferenceIdeal.Tables

open Cert.ReferenceIdeal Cert.ReferenceIdeal.Gen Idealize.ShloMosaic Idealize.ShloMosaic.ValueIdx
open Cert

/-- Entry `(row, k)` of the normalised table: the table's entry over the square root of its row's squared length. -/
theorem normalised_apply (emb : (⟨S100000x768, .f32⟩ : BufTy).Contents (Elt Ideal)) (row : Fin 100000) (k : Fin 768) :
    ReadCopy.val_main_v2 (F := Ideal) emb (ix2 row k) = Contrast.unitRow emb row k := by
  have hi : ∀ k' : Fin 768,
      ReadCopy.idx_main_call0_v1 (ReadCopy.idx_main_call0_v2 (ReadCopy.idx_main_v1 (ix2 row k))) k' = ix2 row k' := fun k' =>
    funext fun a => Fin.ext (by match a with | ⟨0, _⟩ => rfl | ⟨1, _⟩ => rfl)
  rw [ReadCopy.val_main_v2_apply, ReadCopy.val_main_v1_apply, ReadCopy.val_main_v0_apply, ReadCopy.val_main_call0_v2_apply,
    ReadCopy.val_main_call0_v1_apply, ReadCopy.val_main_call0_cst_apply]
  simp only [hi, ReadCopy.val_main_call0_v0_apply, Ideal.hostDivf_def, Ideal.hostUnary_sqrt_def, Ideal.ofBits_def,
    Ideal.ofBits_zero_f32, Ideal.mulf_def, zero_add]
  rfl

/-- A word that is not negative read signed is kept by "add 100000 if negative". -/
theorem select_of_nonneg (w a : BitVec 32) (h : 0 ≤ w.toInt) : Scalar.select (IntOp.cmpi .slt w 0#32) a w = w := by
  have h0 : IntOp.cmpi .slt w 0#32 = 0#1 := by
    unfold IntOp.cmpi
    show BitVec.ofBool (w.slt 0#32) = 0#1
    have : w.slt 0#32 = false := by
      simp only [BitVec.slt, BitVec.toInt_zero, decide_eq_false_iff_not, not_lt]; exact h
    rw [this]; rfl
  rw [h0, select_zero]

/-- The first column's start index for row `b`: the index word itself, when it is not negative. -/
theorem start_one (links : (⟨S4096x2, .i32⟩ : BufTy).Contents (Elt Ideal)) (b : Fin 4096)
    (h : 0 ≤ (links (ix2 b (0 : Fin 2))).toInt) :
    ReadCopy.val_main_v10 (F := Ideal) links (ix2 b (0 : Fin 1)) = links (ix2 b (0 : Fin 2)) := by
  have hi : ReadCopy.idx_main_v3 (ReadCopy.idx_main_v4 (ReadCopy.idx_main_v10 (ix2 b (0 : Fin 1)))) = ix2 b (0 : Fin 2) :=
    funext fun a => Fin.ext (by match a with | ⟨0, _⟩ => exact Nat.div_one _ | ⟨1, _⟩ => rfl)
  rw [ReadCopy.val_main_v10_apply, ReadCopy.val_main_v9_apply, ReadCopy.val_main_v6_apply, ReadCopy.val_main_v5_apply,
    ReadCopy.val_main_c_apply, ReadCopy.val_main_v4_apply, ReadCopy.val_main_v3_apply, hi]
  exact select_of_nonneg _ _ h

/-- The second column's start index for row `b`: the index word itself, when it is not negative. -/
theorem start_two (links : (⟨S4096x2, .i32⟩ : BufTy).Contents (Elt Ideal)) (b : Fin 4096)
    (h : 0 ≤ (links (ix2 b (1 : Fin 2))).toInt) :
    ReadCopy.val_main_v19 (F := Ideal) links (ix2 b (0 : Fin 1)) = links (ix2 b (1 : Fin 2)) := by
  have hi : ReadCopy.idx_main_v12 (ReadCopy.idx_main_v13 (ReadCopy.idx_main_v19 (ix2 b (0 : Fin 1)))) = ix2 b (1 : Fin 2) :=
    funext fun a => Fin.ext (by match a with | ⟨0, _⟩ => exact Nat.div_one _ | ⟨1, _⟩ => rfl)
  rw [ReadCopy.val_main_v19_apply, ReadCopy.val_main_v18_apply, ReadCopy.val_main_v15_apply, ReadCopy.val_main_v14_apply,
    ReadCopy.val_main_c_1_apply, ReadCopy.val_main_v13_apply, ReadCopy.val_main_v12_apply, hi]
  exact select_of_nonneg _ _ h

/-- Clamping a word of `[0, 100000)` into the table's rows gives the row the word names. -/
theorem clamp_eq_pick {emb : (⟨2, ![100000, 768]⟩ : Shape).Idx → EReal} {links : (⟨2, ![4096, 2]⟩ : Shape).Idx → BitVec 32}
    (hA : Contrast.Admissible emb links) (s : Fin 2) (b : Fin 4096) (w : BitVec 32) (hw : w = links (ix2 b s))
    (h : min w.toInt.toNat (100000 - 1) < 100000) :
    (⟨min w.toInt.toNat (100000 - 1), h⟩ : Fin 100000) = Contrast.pick links s b := by
  subst hw
  apply Fin.ext
  have h1 := Contrast.toNat_of_inRange _ (hA.inRange (ix2 b s))
  have h2 := Contrast.toInt_of_inRange _ (hA.inRange (ix2 b s))
  rw [Contrast.pick_val hA]
  show min (links (ix2 b s)).toInt.toNat (100000 - 1) = (links (ix2 b s)).toNat
  omega

/-- The first table: row `b` is the normalised table row named by the first index word of pair `b`. -/
theorem table_one (emb : (⟨S100000x768, .f32⟩ : BufTy).Contents (Elt Ideal)) (links : (⟨S4096x2, .i32⟩ : BufTy).Contents (Elt Ideal))
    (hA : Contrast.Admissible emb links) :
    Contrast.rows (ReadCopy.val_main_v11 (F := Ideal) emb links) = Contrast.picked_rows emb links 0 := by
  funext b k
  show ReadCopy.val_main_v11 (F := Ideal) emb links (ix2 b k) = Contrast.unitRow emb (Contrast.pick links 0 b) k
  unfold ReadCopy.val_main_v11
  rw [GatherRows.gather_rows_apply _ rfl rfl rfl rfl rfl _ _ b k (by norm_num),
    clamp_eq_pick hA 0 b _ (start_one links b (hA.inRange _).1), normalised_apply]

/-- The second table: row `b` is the normalised table row named by the second index word of pair `b`. -/
theorem table_two (emb : (⟨S100000x768, .f32⟩ : BufTy).Contents (Elt Ideal)) (links : (⟨S4096x2, .i32⟩ : BufTy).Contents (Elt Ideal))
    (hA : Contrast.Admissible emb links) :
    Contrast.rows (ReadCopy.val_main_v20 (F := Ideal) emb links) = Contrast.picked_rows emb links 1 := by
  funext b k
  show ReadCopy.val_main_v20 (F := Ideal) emb links (ix2 b k) = Contrast.unitRow emb (Contrast.pick links 1 b) k
  unfold ReadCopy.val_main_v20
  rw [GatherRows.gather_rows_apply _ rfl rfl rfl rfl rfl _ _ b k (by norm_num),
    clamp_eq_pick hA 1 b _ (start_two links b (hA.inRange _).1), normalised_apply]

end Cert.ReferenceIdeal.Tables

end
-- ==== Proof.RefResult.lean ====
/-
  The plain program's result under the precondition.

  Whatever the memory, the value the plain program ends at is the specification's plain loss of two tables of rows read
  off its intermediate arrays.  When the precondition holds index by index, those two tables are the tables of
  normalised rows picked by the first and by the second column of the index pairs; so the result is the plain loss of
  the picked rows.
-/
import proofs.«403767_j22084721836062_1_alg».proof.Proof.RefLoss
import proofs.«403767_j22084721836062_1_alg».proof.Proof.RefTables
import proofs.«403767_j22084721836062_1_alg».proof.Proof.PreDecoded

noncomputable section

namespace Cert.ReferenceIdeal.Loss

open Cert.ReferenceIdeal Idealize.ShloMosaic
open Cert

/-- Under the precondition the plain program's result is the plain loss of the two tables of picked normalised rows. -/
theorem result_eq (m' : (ℓ : Loc nD τ sig) → Buf (Elt Ideal) ℓ) (c : Dev nD)
    (hA : Contrast.Admissible (m' ((c.tc : Thread nD τ).loc main_arg0)) (m' ((c.tc : Thread nD τ).loc main_arg1))) :
    Cert.ReferenceIdeal.RunCopy.res_main_v91 (F := Ideal) m' c
      = fun _ => Contrast.plainLoss
          (Contrast.picked_rows (m' ((c.tc : Thread nD τ).loc main_arg0)) (m' ((c.tc : Thread nD τ).loc main_arg1)) 0)
          (Contrast.picked_rows (m' ((c.tc : Thread nD τ).loc main_arg0)) (m' ((c.tc : Thread nD τ).loc main_arg1)) 1) := by
  rw [ReadCopy.val_main_v91_eq m' c, Cert.ReferenceIdeal.Loss.loss_eq, Cert.ReferenceIdeal.Tables.table_one _ _ hA,
    Cert.ReferenceIdeal.Tables.table_two _ _ hA]
  rfl

end Cert.ReferenceIdeal.Loss

end
-- ==== Proof.RefRunChunks.lean ====
/-
  The plain program's run, read back stretch by stretch.

  The program is a straight line of 148 operations.  Cut into stretches, each stretch is read on its own: from contents
  in which every buffer an earlier stretch wrote (and a later one reads) holds its stage function of the two
  arguments, the contents after the stretch hold the same for the buffers this stretch writes, and the others keep
  theirs.  Chained, the result buffer ends at its stage function of the launch contents of the two arguments, which is
  the composed term; the arguments are never written.
-/
import proofs.«403767_j22084721836062_1_alg».proof.Proof.RefReadCopy

noncomputable section

namespace Cert.ReferenceIdeal.RunChunks

open Cert.ReferenceIdeal Cert.ReferenceIdeal.Gen Idealize.ShloMosaic Idealize.ShloMosaic.TcCoe Idealize.SL.Sem Idealize.ShloMosaic.StableHlo
open Cert.ReferenceIdeal.RunCopy Cert.ReferenceIdeal.ReadCopy

variable {F : FTy → Type} [FloatOps F]

/-- A value carried to an equal type and back is the value. -/
theorem cast_cast_cancel {α β : Type} (h : α = β) (h' : β = α) (v : α) : cast h' (cast h v) = v := by subst h; rfl

/-! ## The stretches -/

/-- Operations 1 … 12 of the 148. -/
abbrev chunk0 : List (HloOp τ sig (Elt F)) :=
  [ TRef.binary (TRef.of (T := ⟨S100000x768, .f32⟩) main_arg0) (TRef.of (T := ⟨S100000x768, .f32⟩) main_arg0) (TRef.of (T := ⟨S100000x768, .f32⟩) main_call0_v0) mulf,
    TRef.nullary (TRef.of (T := ⟨S_, .f32⟩) main_call0_cst) (constant S_ .f32 0x00000000#32),
    TRef.binary (TRef.of (T := ⟨S100000x768, .f32⟩) main_call0_v0) (TRef.of (T := ⟨S_, .f32⟩) main_call0_cst) (TRef.of (T := ⟨S100000, .f32⟩) main_call0_v1) (fun x v => Host.reduceAdd x v reducesTo_S100000x768_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v0) Host.sqrt,
    unary main_v0 main_v1 (broadcastInDim S100000x768 ![0, 1] bcast_S100000x1_S100000x768_0_1 : (⟨S100000x1, .f32⟩ : BufTy).Contents (Elt F) → (⟨S100000x768, .f32⟩ : BufTy).Contents (Elt F)),
    binary main_arg0 main_v1 main_v2 (Host.divf : (⟨S100000x768, .f32⟩ : BufTy).Contents (Elt F) → (⟨S100000x768, .f32⟩ : BufTy).Contents (Elt F) → (⟨S100000x768, .f32⟩ : BufTy).Contents (Elt F)),
    unary main_arg1 main_v3 ((extractStridedSlice S4096x1 ![0, 0] · slices_S4096x2_S4096x1_0_0) : (⟨S4096x2, .i32⟩ : BufTy).Contents (Elt F) → (⟨S4096x1, .i32⟩ : BufTy).Contents (Elt F)),
    reshape main_v3 main_v4 rfl shapeCasts_S4096x1_S4096,
    nullary main_c (constantI S_ 32 0#32),
    unary main_c main_v5 (broadcastInDim S4096 ![] bcast_S_S4096 : (⟨S_, .i32⟩ : BufTy).Contents (Elt F) → (⟨S4096, .i32⟩ : BufTy).Contents (Elt F)),
    binary main_v4 main_v5 main_v6 (cmpi .slt : (⟨S4096, .i32⟩ : BufTy).Contents (Elt F) → (⟨S4096, .i32⟩ : BufTy).Contents (Elt F) → (⟨S4096, .i1⟩ : BufTy).Contents (Elt F)) ]

/-- Operations 13 … 24 of the 148. -/
abbrev chunk1 : List (HloOp τ sig (Elt F)) :=
  [ nullary main_c_0 (constantI S_ 32 100000#32),
    unary main_c_0 main_v7 (broadcastInDim S4096 ![] bcast_S_S4096 : (⟨S_, .i32⟩ : BufTy).Contents (Elt F) → (⟨S4096, .i32⟩ : BufTy).Contents (Elt F)),
    binary main_v4 main_v7 main_v8 (addi : (⟨S4096, .i32⟩ : BufTy).Contents (Elt F) → (⟨S4096, .i32⟩ : BufTy).Contents (Elt F) → (⟨S4096, .i32⟩ : BufTy).Contents (Elt F)),
    ternary main_v6 main_v8 main_v4 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v9 main_v10 (broadcastInDim S4096x1 ![0] bcast_S4096_S4096x1_0 : (⟨S4096, .i32⟩ : BufTy).Contents (Elt F) → (⟨S4096x1, .i32⟩ : BufTy).Contents (Elt F)),
    binary main_v2 main_v10 main_v11 ((fun x i => Host.gather gather_S100000x768_S4096x1_S4096x768_1_0_n_n_0_1_1768 x i) : (⟨S100000x768, .f32⟩ : BufTy).Contents (Elt F) → (⟨S4096x1, .i32⟩ : BufTy).Contents (Elt F) → (⟨S4096x768, .f32⟩ : BufTy).Contents (Elt F)),
    unary main_arg1 main_v12 ((extractStridedSlice S4096x1 ![0, 1] · slices_S4096x2_S4096x1_0_1) : (⟨S4096x2, .i32⟩ : BufTy).Contents (Elt F) → (⟨S4096x1, .i32⟩ : BufTy).Contents (Elt F)),
    reshape main_v12 main_v13 rfl shapeCasts_S4096x1_S4096,
    nullary main_c_1 (constantI S_ 32 0#32),
    unary main_c_1 main_v14 (broadcastInDim S4096 ![] bcast_S_S4096 : (⟨S_, .i32⟩ : BufTy).Contents (Elt F) → (⟨S4096, .i32⟩ : BufTy).Contents (Elt F)),
    binary main_v13 main_v14 main_v15 (cmpi .slt : (⟨S4096, .i32⟩ : BufTy).Contents (Elt F) → (⟨S4096, .i32⟩ : BufTy).Contents (Elt F) → (⟨S4096, .i1⟩ : BufTy).Contents (Elt F)),
    nullary main_c_2 (constantI S_ 32 100000#32) ]

/-- Operations 25 … 36 of the 148. -/
abbrev chunk2 : List (HloOp τ sig (Elt F)) :=
  [ unary main_c_2 main_v16 (broadcastInDim S4096 ![] bcast_S_S4096 : (⟨S_, .i32⟩ : BufTy).Contents (Elt F) → (⟨S4096, .i32⟩ : BufTy).Contents (Elt F)),
    binary main_v13 main_v16 main_v17 (addi : (⟨S4096, .i32⟩ : BufTy).Contents (Elt F) → (⟨S4096, .i32⟩ : BufTy).Contents (Elt F) → (⟨S4096, .i32⟩ : BufTy).Contents (Elt F)),
    ternary main_v15 main_v17 main_v13 main_v18 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v18 main_v19 (broadcastInDim S4096x1 ![0] bcast_S4096_S4096x1_0 : (⟨S4096, .i32⟩ : BufTy).Contents (Elt F) → (⟨S4096x1, .i32⟩ : BufTy).Contents (Elt F)),
    binary main_v2 main_v19 main_v20 ((fun x i => Host.gather gather_S100000x768_S4096x1_S4096x768_1_0_n_n_0_1_1768 x i) : (⟨S100000x768, .f32⟩ : BufTy).Contents (Elt F) → (⟨S4096x1, .i32⟩ : BufTy).Contents (Elt F) → (⟨S4096x768, .f32⟩ : BufTy).Contents (Elt F)),
    nullary main_v21 (iotaInDim S4096x4096 32 0),
    nullary main_v22 (iotaInDim S4096x4096 32 1),
    nullary main_c_3 (constantI S_ 32 0#32),
    unary main_c_3 main_v23 (broadcastInDim S4096x4096 ![] bcast_S_S4096x4096 : (⟨S_, .i32⟩ : BufTy).Contents (Elt F) → (⟨S4096x4096, .i32⟩ : BufTy).Contents (Elt F)),
    binary main_v21 main_v23 main_v24 (addi : (⟨S4096x4096, .i32⟩ : BufTy).Contents (Elt F) → (⟨S4096x4096, .i32⟩ : BufTy).Contents (Elt F) → (⟨S4096x4096, .i32⟩ : BufTy).Contents (Elt F)),
    binary main_v24 main_v22 main_v25 (cmpi .eq : (⟨S4096x4096, .i32⟩ : BufTy).Contents (Elt F) → (⟨S4096x4096, .i32⟩ : BufTy).Contents (Elt F) → (⟨S4096x4096, .i1⟩ : BufTy).Contents (Elt F)),
    unary main_v25 main_v26 (uitofp .f32 : (⟨S4096x4096, .i1⟩ : BufTy).Contents (Elt F) → (⟨S4096x4096, .f32⟩ : BufTy).Contents (Elt F)) ]

/-- Operations 37 … 48 of the 148. -/
abbrev chunk3 : List (HloOp τ sig (Elt F)) :=
  [ nullary main_cst (constant S_ .f32 0x4E6E6B28#32),
    unary main_cst main_v27 (broadcastInDim S4096x4096 ![] bcast_S_S4096x4096 : (⟨S_, .f32⟩ : BufTy).Contents (Elt F) → (⟨S4096x4096, .f32⟩ : BufTy).Contents (Elt F)),
    binary main_v26 main_v27 main_v28 (mulf : (⟨S4096x4096, .f32⟩ : BufTy).Contents (Elt F) → (⟨S4096x4096, .f32⟩ : BufTy).Contents (Elt F) → (⟨S4096x4096, .f32⟩ : BufTy).Contents (Elt F)),
    unary main_v11 main_v29 ((transpose S768x4096 [1, 0] · transposes_S4096x768_S768x4096_1_0) : (⟨S4096x768, .f32⟩ : BufTy).Contents (Elt F) → (⟨S768x4096, .f32⟩ : BufTy).Contents (Elt F)),
    binary main_v11 main_v29 main_v30 ((fun l r => Host.dotGeneral dot_S4096x768_S768x4096_S4096x4096_1_0_0_1_n_n none l r) : (⟨S4096x768, .f32⟩ : BufTy).Contents (Elt F) → (⟨S768x4096, .f32⟩ : BufTy).Contents (Elt F) → (⟨S4096x4096, .f32⟩ : BufTy).Contents (Elt F)),
    nullary main_cst_4 (constant S_ .f32 0x3D4CCCCD#32),
    unary main_cst_4 main_v31 (broadcastInDim S4096x4096 ![] bcast_S_S4096x4096 : (⟨S_, .f32⟩ : BufTy).Contents (Elt F) → (⟨S4096x4096, .f32⟩ : BufTy).Contents (Elt F)),
    binary main_v30 main_v31 main_v32 (Host.divf : (⟨S4096x4096, .f32⟩ : BufTy).Contents (Elt F) → (⟨S4096x4096, .f32⟩ : BufTy).Contents (Elt F) → (⟨S4096x4096, .f32⟩ : BufTy).Contents (Elt F)),
    binary main_v32 main_v28 main_v33 (subf : (⟨S4096x4096, .f32⟩ : BufTy).Contents (Elt F) → (⟨S4096x4096, .f32⟩ : BufTy).Contents (Elt F) → (⟨S4096x4096, .f32⟩ : BufTy).Contents (Elt F)),
    unary main_v20 main_v34 ((transpose S768x4096 [1, 0] · transposes_S4096x768_S768x4096_1_0) : (⟨S4096x768, .f32⟩ : BufTy).Contents (Elt F) → (⟨S768x4096, .f32⟩ : BufTy).Contents (Elt F)),
    binary main_v20 main_v34 main_v35 ((fun l r => Host.dotGeneral dot_S4096x768_S768x4096_S4096x4096_1_0_0_1_n_n none l r) : (⟨S4096x768, .f32⟩ : BufTy).Contents (Elt F) → (⟨S768x4096, .f32⟩ : BufTy).Contents (Elt F) → (⟨S4096x4096, .f32⟩ : BufTy).Contents (Elt F)),
    nullary main_cst_5 (constant S_ .f32 0x3D4CCCCD#32) ]

/-- Operations 49 … 61 of the 148. -/
abbrev chunk4 : List (HloOp τ sig (Elt F)) :=
  [ unary main_cst_5 main_v36 (broadcastInDim S4096x4096 ![] bcast_S_S4096x4096 : (⟨S_, .f32⟩ : BufTy).Contents (Elt F) → (⟨S4096x4096, .f32⟩ : BufTy).Contents (Elt F)),
    binary main_v35 main_v36 main_v37 (Host.divf : (⟨S4096x4096, .f32⟩ : BufTy).Contents (Elt F) → (⟨S4096x4096, .f32⟩ : BufTy).Contents (Elt F) → (⟨S4096x4096, .f32⟩ : BufTy).Contents (Elt F)),
    binary main_v37 main_v28 main_v38 (subf : (⟨S4096x4096, .f32⟩ : BufTy).Contents (Elt F) → (⟨S4096x4096, .f32⟩ : BufTy).Contents (Elt F) → (⟨S4096x4096, .f32⟩ : BufTy).Contents (Elt F)),
    unary main_v20 main_v39 ((transpose S768x4096 [1, 0] · transposes_S4096x768_S768x4096_1_0) : (⟨S4096x768, .f32⟩ : BufTy).Contents (Elt F) → (⟨S768x4096, .f32⟩ : BufTy).Contents (Elt F)),
    binary main_v11 main_v39 main_v40 ((fun l r => Host.dotGeneral dot_S4096x768_S768x4096_S4096x4096_1_0_0_1_n_n none l r) : (⟨S4096x768, .f32⟩ : BufTy).Contents (Elt F) → (⟨S768x4096, .f32⟩ : BufTy).Contents (Elt F) → (⟨S4096x4096, .f32⟩ : BufTy).Contents (Elt F)),
    nullary main_cst_6 (constant S_ .f32 0x3D4CCCCD#32),
    unary main_cst_6 main_v41 (broadcastInDim S4096x4096 ![] bcast_S_S4096x4096 : (⟨S_, .f32⟩ : BufTy).Contents (Elt F) → (⟨S4096x4096, .f32⟩ : BufTy).Contents (Elt F)),
    binary main_v40 main_v41 main_v42 (Host.divf : (⟨S4096x4096, .f32⟩ : BufTy).Contents (Elt F) → (⟨S4096x4096, .f32⟩ : BufTy).Contents (Elt F) → (⟨S4096x4096, .f32⟩ : BufTy).Contents (Elt F)),
    unary main_v11 main_v43 ((transpose S768x4096 [1, 0] · transposes_S4096x768_S768x4096_1_0) : (⟨S4096x768, .f32⟩ : BufTy).Contents (Elt F) → (⟨S768x4096, .f32⟩ : BufTy).Contents (Elt F)),
    binary main_v20 main_v43 main_v44 ((fun l r => Host.dotGeneral dot_S4096x768_S768x4096_S4096x4096_1_0_0_1_n_n none l r) : (⟨S4096x768, .f32⟩ : BufTy).Contents (Elt F) → (⟨S768x4096, .f32⟩ : BufTy).Contents (Elt F) → (⟨S4096x4096, .f32⟩ : BufTy).Contents (Elt F)),
    nullary main_cst_7 (constant S_ .f32 0x3D4CCCCD#32),
    unary main_cst_7 main_v45 (broadcastInDim S4096x4096 ![] bcast_S_S4096x4096 : (⟨S_, .f32⟩ : BufTy).Contents (Elt F) → (⟨S4096x4096, .f32⟩ : BufTy).Contents (Elt F)),
    binary main_v44 main_v45 main_v46 (Host.divf : (⟨S4096x4096, .f32⟩ : BufTy).Contents (Elt F) → (⟨S4096x4096, .f32⟩ : BufTy).Contents (Elt F) → (⟨S4096x4096, .f32⟩ : BufTy).Contents (Elt F)) ]

/-- Operations 62 … 62 of the 148. -/
abbrev chunk5 : List (HloOp τ sig (Elt F)) :=
  [ binary main_v42 main_v33 main_v47 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)) ]

/-- Operations 63 … 74 of the 148. -/
abbrev chunk6 : List (HloOp τ sig (Elt F)) :=
  [ binary main_v46 main_v38 main_v48 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)),
    TRef.nullary (TRef.of (T := ⟨S_, .f32⟩) main_call1_cst) (constant S_ .f32 0xFF800000#32),
    TRef.binary (TRef.of (T := ⟨S4096x8192, .f32⟩) main_v47) (TRef.of (T := ⟨S_, .f32⟩) main_call1_cst) (TRef.of (T := ⟨S4096, .f32⟩) main_call1_v0) (fun x v => Host.reduce FloatOps.maximumf x v reducesTo_S4096x8192_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x8192, .f32⟩) main_call1_v4) (broadcastInDim S4096x8192 ![0, 1] bcast_S4096x1_S4096x8192_0_1),
    TRef.binary (TRef.of (T := ⟨S4096x8192, .f32⟩) main_v47) (TRef.of (T := ⟨S4096x8192, .f32⟩) main_call1_v4) (TRef.of (T := ⟨S4096x8192, .f32⟩) main_call1_v5) subf,
    TRef.unary (TRef.of (T := ⟨S4096x8192, .f32⟩) main_call1_v5) (TRef.of (T := ⟨S4096x8192, .f32⟩) main_call1_v6) Host.exp,
    TRef.nullary (TRef.of (T := ⟨S_, .f32⟩) main_call1_cst_1) (constant S_ .f32 0x00000000#32),
    TRef.binary (TRef.of (T := ⟨S4096x8192, .f32⟩) main_call1_v6) (TRef.of (T := ⟨S_, .f32⟩) main_call1_cst_1) (TRef.of (T := ⟨S4096, .f32⟩) main_call1_v7) (fun x v => Host.reduceAdd x v reducesTo_S4096x8192_S4096_d1 h_S_) ]

/-- Operations 75 … 85 of the 148. -/
abbrev chunk7 : List (HloOp τ sig (Elt F)) :=
  [ TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x8192, .f32⟩) main_call1_v10) (broadcastInDim S4096x8192 ![0, 1] bcast_S4096x1_S4096x8192_0_1),
    TRef.binary (TRef.of (T := ⟨S4096x8192, .f32⟩) main_call1_v5) (TRef.of (T := ⟨S4096x8192, .f32⟩) main_call1_v10) (TRef.of (T := ⟨S4096x8192, .f32⟩) main_v49) subf,
    nullary main_v50 (iotaInDim S4096 32 0),
    nullary main_v51 (iotaInDim S4096 32 0),
    nullary main_c_8 (constantI S_ 32 0#32),
    unary main_c_8 main_v52 (broadcastInDim S4096 ![] bcast_S_S4096 : (⟨S_, .i32⟩ : BufTy).Contents (Elt F) → (⟨S4096, .i32⟩ : BufTy).Contents (Elt F)),
    binary main_v50 main_v52 main_v53 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v54 (broadcastInDim S4096 ![] bcast_S_S4096 : (⟨S_, .i32⟩ : BufTy).Contents (Elt F) → (⟨S4096, .i32⟩ : BufTy).Contents (Elt F)) ]

/-- Operations 86 … 96 of the 148. -/
abbrev chunk8 : List (HloOp τ sig (Elt F)) :=
  [ binary main_v50 main_v54 main_v55 (addi : (⟨S4096, .i32⟩ : BufTy).Contents (Elt F) → (⟨S4096, .i32⟩ : BufTy).Contents (Elt F) → (⟨S4096, .i32⟩ : BufTy).Contents (Elt F)),
    ternary main_v53 main_v55 main_v50 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v57 (broadcastInDim S4096 ![] bcast_S_S4096 : (⟨S_, .i32⟩ : BufTy).Contents (Elt F) → (⟨S4096, .i32⟩ : BufTy).Contents (Elt F)),
    binary main_v51 main_v57 main_v58 (cmpi .slt : (⟨S4096, .i32⟩ : BufTy).Contents (Elt F) → (⟨S4096, .i32⟩ : BufTy).Contents (Elt F) → (⟨S4096, .i1⟩ : BufTy).Contents (Elt F)),
    nullary main_c_11 (constantI S_ 32 8192#32),
    unary main_c_11 main_v59 (broadcastInDim S4096 ![] bcast_S_S4096 : (⟨S_, .i32⟩ : BufTy).Contents (Elt F) → (⟨S4096, .i32⟩ : BufTy).Contents (Elt F)),
    binary main_v51 main_v59 main_v60 (addi : (⟨S4096, .i32⟩ : BufTy).Contents (Elt F) → (⟨S4096, .i32⟩ : BufTy).Contents (Elt F) → (⟨S4096, .i32⟩ : BufTy).Contents (Elt F)),
    ternary main_v58 main_v60 main_v51 main_v61 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v56 main_v62 (broadcastInDim S4096x1 ![0] bcast_S4096_S4096x1_0 : (⟨S4096, .i32⟩ : BufTy).Contents (Elt F) → (⟨S4096x1, .i32⟩ : BufTy).Contents (Elt F)),
    unary main_v61 main_v63 (broadcastInDim S4096x1 ![0] bcast_S4096_S4096x1_0 : (⟨S4096, .i32⟩ : BufTy).Contents (Elt F) → (⟨S4096x1, .i32⟩ : BufTy).Contents (Elt F)) ]

/-- Operations 97 … 108 of the 148. -/
abbrev chunk9 : List (HloOp τ sig (Elt F)) :=
  [ binary main_v62 main_v63 main_v64 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v49 main_v64 main_v65 ((fun x i => Host.gather gather_S4096x8192_S4096x2_S4096_n_01_n_n_01_1_11 x i) : (⟨S4096x8192, .f32⟩ : BufTy).Contents (Elt F) → (⟨S4096x2, .i32⟩ : BufTy).Contents (Elt F) → (⟨S4096, .f32⟩ : BufTy).Contents (Elt F)),
    nullary main_cst_12 (constant S_ .f32 0x00000000#32),
    binary main_v65 main_cst_12 main_v66 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v66 main_v67 (Host.negf : (⟨S_, .f32⟩ : BufTy).Contents (Elt F) → (⟨S_, .f32⟩ : BufTy).Contents (Elt F)),
    nullary main_cst_13 (constant S_ .f32 0x45800000#32),
    binary main_v67 main_cst_13 main_v68 (Host.divf : (⟨S_, .f32⟩ : BufTy).Contents (Elt F) → (⟨S_, .f32⟩ : BufTy).Contents (Elt F) → (⟨S_, .f32⟩ : BufTy).Contents (Elt F)),
    TRef.nullary (TRef.of (T := ⟨S_, .f32⟩) main_call2_cst) (constant S_ .f32 0xFF800000#32),
    TRef.binary (TRef.of (T := ⟨S4096x8192, .f32⟩) main_v48) (TRef.of (T := ⟨S_, .f32⟩) main_call2_cst) (TRef.of (T := ⟨S4096, .f32⟩) main_call2_v0) (fun x v => Host.reduce FloatOps.maximumf x v reducesTo_S4096x8192_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf ]

/-- Operations 109 … 120 of the 148. -/
abbrev chunk10 : List (HloOp τ sig (Elt F)) :=
  [ TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x8192, .f32⟩) main_call2_v4) (broadcastInDim S4096x8192 ![0, 1] bcast_S4096x1_S4096x8192_0_1),
    TRef.binary (TRef.of (T := ⟨S4096x8192, .f32⟩) main_v48) (TRef.of (T := ⟨S4096x8192, .f32⟩) main_call2_v4) (TRef.of (T := ⟨S4096x8192, .f32⟩) main_call2_v5) subf,
    TRef.unary (TRef.of (T := ⟨S4096x8192, .f32⟩) main_call2_v5) (TRef.of (T := ⟨S4096x8192, .f32⟩) main_call2_v6) Host.exp,
    TRef.nullary (TRef.of (T := ⟨S_, .f32⟩) main_call2_cst_1) (constant S_ .f32 0x00000000#32),
    TRef.binary (TRef.of (T := ⟨S4096x8192, .f32⟩) main_call2_v6) (TRef.of (T := ⟨S_, .f32⟩) main_call2_cst_1) (TRef.of (T := ⟨S4096, .f32⟩) main_call2_v7) (fun x v => Host.reduceAdd x v reducesTo_S4096x8192_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x8192, .f32⟩) main_call2_v10) (broadcastInDim S4096x8192 ![0, 1] bcast_S4096x1_S4096x8192_0_1),
    TRef.binary (TRef.of (T := ⟨S4096x8192, .f32⟩) main_call2_v5) (TRef.of (T := ⟨S4096x8192, .f32⟩) main_call2_v10) (TRef.of (T := ⟨S4096x8192, .f32⟩) main_v69) subf,
    nullary main_v70 (iotaInDim S4096 32 0),
    nullary main_v71 (iotaInDim S4096 32 0) ]

/-- Operations 121 … 128 of the 148. -/
abbrev chunk11 : List (HloOp τ sig (Elt F)) :=
  [ nullary main_c_14 (constantI S_ 32 0#32),
    unary main_c_14 main_v72 (broadcastInDim S4096 ![] bcast_S_S4096 : (⟨S_, .i32⟩ : BufTy).Contents (Elt F) → (⟨S4096, .i32⟩ : BufTy).Contents (Elt F)),
    binary main_v70 main_v72 main_v73 (cmpi .slt : (⟨S4096, .i32⟩ : BufTy).Contents (Elt F) → (⟨S4096, .i32⟩ : BufTy).Contents (Elt F) → (⟨S4096, .i1⟩ : BufTy).Contents (Elt F)),
    nullary main_c_15 (constantI S_ 32 4096#32),
    unary main_c_15 main_v74 (broadcastInDim S4096 ![] bcast_S_S4096 : (⟨S_, .i32⟩ : BufTy).Contents (Elt F) → (⟨S4096, .i32⟩ : BufTy).Contents (Elt F)),
    binary main_v70 main_v74 main_v75 (addi : (⟨S4096, .i32⟩ : BufTy).Contents (Elt F) → (⟨S4096, .i32⟩ : BufTy).Contents (Elt F) → (⟨S4096, .i32⟩ : BufTy).Contents (Elt F)),
    ternary main_v73 main_v75 main_v70 main_v76 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_16 (constantI S_ 32 0#32) ]

/-- Operations 129 … 136 of the 148. -/
abbrev chunk12 : List (HloOp τ sig (Elt F)) :=
  [ unary main_c_16 main_v77 (broadcastInDim S4096 ![] bcast_S_S4096 : (⟨S_, .i32⟩ : BufTy).Contents (Elt F) → (⟨S4096, .i32⟩ : BufTy).Contents (Elt F)),
    binary main_v71 main_v77 main_v78 (cmpi .slt : (⟨S4096, .i32⟩ : BufTy).Contents (Elt F) → (⟨S4096, .i32⟩ : BufTy).Contents (Elt F) → (⟨S4096, .i1⟩ : BufTy).Contents (Elt F)),
    nullary main_c_17 (constantI S_ 32 8192#32),
    unary main_c_17 main_v79 (broadcastInDim S4096 ![] bcast_S_S4096 : (⟨S_, .i32⟩ : BufTy).Contents (Elt F) → (⟨S4096, .i32⟩ : BufTy).Contents (Elt F)),
    binary main_v71 main_v79 main_v80 (addi : (⟨S4096, .i32⟩ : BufTy).Contents (Elt F) → (⟨S4096, .i32⟩ : BufTy).Contents (Elt F) → (⟨S4096, .i32⟩ : BufTy).Contents (Elt F)),
    ternary main_v78 main_v80 main_v71 main_v81 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v76 main_v82 (broadcastInDim S4096x1 ![0] bcast_S4096_S4096x1_0 : (⟨S4096, .i32⟩ : BufTy).Contents (Elt F) → (⟨S4096x1, .i32⟩ : BufTy).Contents (Elt F)),
    unary main_v81 main_v83 (broadcastInDim S4096x1 ![0] bcast_S4096_S4096x1_0 : (⟨S4096, .i32⟩ : BufTy).Contents (Elt F) → (⟨S4096x1, .i32⟩ : BufTy).Contents (Elt F)) ]

/-- Operations 137 … 148 of the 148. -/
abbrev chunk13 : List (HloOp τ sig (Elt F)) :=
  [ binary main_v82 main_v83 main_v84 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v69 main_v84 main_v85 ((fun x i => Host.gather gather_S4096x8192_S4096x2_S4096_n_01_n_n_01_1_11 x i) : (⟨S4096x8192, .f32⟩ : BufTy).Contents (Elt F) → (⟨S4096x2, .i32⟩ : BufTy).Contents (Elt F) → (⟨S4096, .f32⟩ : BufTy).Contents (Elt F)),
    nullary main_cst_18 (constant S_ .f32 0x00000000#32),
    binary main_v85 main_cst_18 main_v86 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v86 main_v87 (Host.negf : (⟨S_, .f32⟩ : BufTy).Contents (Elt F) → (⟨S_, .f32⟩ : BufTy).Contents (Elt F)),
    nullary main_cst_19 (constant S_ .f32 0x45800000#32),
    binary main_v87 main_cst_19 main_v88 (Host.divf : (⟨S_, .f32⟩ : BufTy).Contents (Elt F) → (⟨S_, .f32⟩ : BufTy).Contents (Elt F) → (⟨S_, .f32⟩ : BufTy).Contents (Elt F)),
    nullary main_cst_20 (constant S_ .f32 0x3F000000#32),
    binary main_cst_20 main_v68 main_v89 (mulf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v88 main_v90 (mulf : (⟨S_, .f32⟩ : BufTy).Contents (Elt F) → (⟨S_, .f32⟩ : BufTy).Contents (Elt F) → (⟨S_, .f32⟩ : BufTy).Contents (Elt F)),
    binary main_v89 main_v90 main_v91 (addf : (⟨S_, .f32⟩ : BufTy).Contents (Elt F) → (⟨S_, .f32⟩ : BufTy).Contents (Elt F) → (⟨S_, .f32⟩ : BufTy).Contents (Elt F)) ]

set_option maxRecDepth 8192 in
/-- The line is its stretches, in order. -/
theorem ops_eq : (ops : List (HloOp τ sig (Elt F))) = chunk0 ++ (chunk1 ++ (chunk2 ++ (chunk3 ++ (chunk4 ++ (chunk5 ++ (chunk6 ++ (chunk7 ++ (chunk8 ++ (chunk9 ++ (chunk10 ++ (chunk11 ++ (chunk12 ++ (chunk13))))))))))))) := rfl

/-! ## Each stretch read from the stage functions before it -/

set_option maxRecDepth 8192 in
/-- After operations 1 … 12. -/
theorem chunk0_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    :
    after (chunk0 (F := F)) V (Proc.devRef .tc main_arg0) = x0
    ∧ after (chunk0 (F := F)) V (Proc.devRef .tc main_arg1) = x1
    ∧ after (chunk0 (F := F)) V (Proc.devRef .tc main_v2) = val_main_v2 (F := F) x0
    ∧ after (chunk0 (F := F)) V (Proc.devRef .tc main_v4) = val_main_v4 (F := F) x1
    ∧ after (chunk0 (F := F)) V (Proc.devRef .tc main_v6) = val_main_v6 (F := F) x1 := by
  refine ⟨?_, ?_, ?_, ?_, ?_⟩
  · after_results_simp
    exact h_main_arg0
  · after_results_simp
    exact h_main_arg1
  · after_results_simp
    try simp only [cast_cast_cancel]
    unfold val_main_v2 val_main_v1 val_main_v0 val_main_call0_v2 val_main_call0_v1 val_main_call0_cst val_main_call0_v0
    rw [← h_main_arg0]
    all_goals rfl
  · after_results_simp
    try simp only [cast_cast_cancel]
    unfold val_main_v4 val_main_v3
    rw [← h_main_arg1]
    all_goals rfl
  · after_results_simp
    try simp only [cast_cast_cancel]
    unfold val_main_v6 val_main_v5 val_main_c val_main_v4 val_main_v3
    rw [← h_main_arg1]
    all_goals rfl

set_option maxRecDepth 8192 in
/-- After operations 13 … 24. -/
theorem chunk1_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v2 : V (Proc.devRef .tc main_v2) = val_main_v2 (F := F) x0)
    (h_main_v4 : V (Proc.devRef .tc main_v4) = val_main_v4 (F := F) x1)
    (h_main_v6 : V (Proc.devRef .tc main_v6) = val_main_v6 (F := F) x1)
    :
    after (chunk1 (F := F)) V (Proc.devRef .tc main_arg0) = x0
    ∧ after (chunk1 (F := F)) V (Proc.devRef .tc main_arg1) = x1
    ∧ after (chunk1 (F := F)) V (Proc.devRef .tc main_v2) = val_main_v2 (F := F) x0
    ∧ after (chunk1 (F := F)) V (Proc.devRef .tc main_v11) = val_main_v11 (F := F) x0 x1
    ∧ after (chunk1 (F := F)) V (Proc.devRef .tc main_v13) = val_main_v13 (F := F) x1
    ∧ after (chunk1 (F := F)) V (Proc.devRef .tc main_v15) = val_main_v15 (F := F) x1
    ∧ after (chunk1 (F := F)) V (Proc.devRef .tc main_c_2) = val_main_c_2 (F := F) := by
  refine ⟨?_, ?_, ?_, ?_, ?_, ?_, ?_⟩
  · after_results_simp
    exact h_main_arg0
  · after_results_simp
    exact h_main_arg1
  · after_results_simp
    exact h_main_v2
  · after_results_simp
    try simp only [cast_cast_cancel]
    unfold val_main_v11 val_main_v10 val_main_v9 val_main_v8 val_main_v7 val_main_c_0
    rw [← h_main_v2, ← h_main_v6, ← h_main_v4]
    all_goals rfl
  · after_results_simp
    try simp only [cast_cast_cancel]
    unfold val_main_v13 val_main_v12
    rw [← h_main_arg1]
    all_goals rfl
  · after_results_simp
    try simp only [cast_cast_cancel]
    unfold val_main_v15 val_main_v14 val_main_c_1 val_main_v13 val_main_v12
    rw [← h_main_arg1]
    all_goals rfl
  · after_results_simp
    try simp only [cast_cast_cancel]
    unfold val_main_c_2
    all_goals rfl

set_option maxRecDepth 8192 in
/-- After operations 25 … 36. -/
theorem chunk2_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v2 : V (Proc.devRef .tc main_v2) = val_main_v2 (F := F) x0)
    (h_main_v11 : V (Proc.devRef .tc main_v11) = val_main_v11 (F := F) x0 x1)
    (h_main_v13 : V (Proc.devRef .tc main_v13) = val_main_v13 (F := F) x1)
    (h_main_v15 : V (Proc.devRef .tc main_v15) = val_main_v15 (F := F) x1)
    (h_main_c_2 : V (Proc.devRef .tc main_c_2) = val_main_c_2 (F := F))
    :
    after (chunk2 (F := F)) V (Proc.devRef .tc main_arg0) = x0
    ∧ after (chunk2 (F := F)) V (Proc.devRef .tc main_arg1) = x1
    ∧ after (chunk2 (F := F)) V (Proc.devRef .tc main_v11) = val_main_v11 (F := F) x0 x1
    ∧ after (chunk2 (F := F)) V (Proc.devRef .tc main_v20) = val_main_v20 (F := F) x0 x1
    ∧ after (chunk2 (F := F)) V (Proc.devRef .tc main_v26) = val_main_v26 (F := F) := by
  refine ⟨?_, ?_, ?_, ?_, ?_⟩
  · after_results_simp
    exact h_main_arg0
  · after_results_simp
    exact h_main_arg1
  · after_results_simp
    exact h_main_v11
  · after_results_simp
    try simp only [cast_cast_cancel]
    unfold val_main_v20 val_main_v19 val_main_v18 val_main_v17 val_main_v16
    rw [← h_main_v2, ← h_main_v15, ← h_main_v13, ← h_main_c_2]
    all_goals rfl
  · after_results_simp
    try simp only [cast_cast_cancel]
    unfold val_main_v26 val_main_v25 val_main_v24 val_main_v23 val_main_c_3 val_main_v22 val_main_v21
    all_goals rfl

set_option maxRecDepth 8192 in
/-- After operations 37 … 48. -/
theorem chunk3_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v11 : V (Proc.devRef .tc main_v11) = val_main_v11 (F := F) x0 x1)
    (h_main_v20 : V (Proc.devRef .tc main_v20) = val_main_v20 (F := F) x0 x1)
    (h_main_v26 : V (Proc.devRef .tc main_v26) = val_main_v26 (F := F))
    :
    after (chunk3 (F := F)) V (Proc.devRef .tc main_arg0) = x0
    ∧ after (chunk3 (F := F)) V (Proc.devRef .tc main_arg1) = x1
    ∧ after (chunk3 (F := F)) V (Proc.devRef .tc main_v11) = val_main_v11 (F := F) x0 x1
    ∧ after (chunk3 (F := F)) V (Proc.devRef .tc main_v20) = val_main_v20 (F := F) x0 x1
    ∧ after (chunk3 (F := F)) V (Proc.devRef .tc main_v28) = val_main_v28 (F := F)
    ∧ after (chunk3 (F := F)) V (Proc.devRef .tc main_v33) = val_main_v33 (F := F) x0 x1
    ∧ after (chunk3 (F := F)) V (Proc.devRef .tc main_v35) = val_main_v35 (F := F) x0 x1
    ∧ after (chunk3 (F := F)) V (Proc.devRef .tc main_cst_5) = val_main_cst_5 (F := F) := by
  refine ⟨?_, ?_, ?_, ?_, ?_, ?_, ?_, ?_⟩
  · after_results_simp
    exact h_main_arg0
  · after_results_simp
    exact h_main_arg1
  · after_results_simp
    exact h_main_v11
  · after_results_simp
    exact h_main_v20
  · after_results_simp
    try simp only [cast_cast_cancel]
    unfold val_main_v28 val_main_v27 val_main_cst
    rw [← h_main_v26]
    all_goals rfl
  · after_results_simp
    try simp only [cast_cast_cancel]
    unfold val_main_v33 val_main_v32 val_main_v31 val_main_cst_4 val_main_v30 val_main_v29 val_main_v28 val_main_v27 val_main_cst
    rw [← h_main_v11, ← h_main_v26]
    all_goals rfl
  · after_results_simp
    try simp only [cast_cast_cancel]
    unfold val_main_v35 val_main_v34
    rw [← h_main_v20]
    all_goals rfl
  · after_results_simp
    try simp only [cast_cast_cancel]
    unfold val_main_cst_5
    all_goals rfl

set_option maxRecDepth 8192 in
/-- After operations 49 … 61. -/
theorem chunk4_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v11 : V (Proc.devRef .tc main_v11) = val_main_v11 (F := F) x0 x1)
    (h_main_v20 : V (Proc.devRef .tc main_v20) = val_main_v20 (F := F) x0 x1)
    (h_main_v28 : V (Proc.devRef .tc main_v28) = val_main_v28 (F := F))
    (h_main_v33 : V (Proc.devRef .tc main_v33) = val_main_v33 (F := F) x0 x1)
    (h_main_v35 : V (Proc.devRef .tc main_v35) = val_main_v35 (F := F) x0 x1)
    (h_main_cst_5 : V (Proc.devRef .tc main_cst_5) = val_main_cst_5 (F := F))
    :
    after (chunk4 (F := F)) V (Proc.devRef .tc main_arg0) = x0
    ∧ after (chunk4 (F := F)) V (Proc.devRef .tc main_arg1) = x1
    ∧ after (chunk4 (F := F)) V (Proc.devRef .tc main_v33) = val_main_v33 (F := F) x0 x1
    ∧ after (chunk4 (F := F)) V (Proc.devRef .tc main_v38) = val_main_v38 (F := F) x0 x1
    ∧ after (chunk4 (F := F)) V (Proc.devRef .tc main_v42) = val_main_v42 (F := F) x0 x1
    ∧ after (chunk4 (F := F)) V (Proc.devRef .tc main_v46) = val_main_v46 (F := F) x0 x1 := by
  refine ⟨?_, ?_, ?_, ?_, ?_, ?_⟩
  · after_results_simp
    exact h_main_arg0
  · after_results_simp
    exact h_main_arg1
  · after_results_simp
    exact h_main_v33
  · after_results_simp
    try simp only [cast_cast_cancel]
    unfold val_main_v38 val_main_v37 val_main_v36
    rw [← h_main_v35, ← h_main_cst_5, ← h_main_v28]
    all_goals rfl
  · after_results_simp
    try simp only [cast_cast_cancel]
    unfold val_main_v42 val_main_v41 val_main_cst_6 val_main_v40 val_main_v39
    rw [← h_main_v11, ← h_main_v20]
    all_goals rfl
  · after_results_simp
    try simp only [cast_cast_cancel]
    unfold val_main_v46 val_main_v45 val_main_cst_7 val_main_v44 val_main_v43
    rw [← h_main_v20, ← h_main_v11]
    all_goals rfl

set_option maxRecDepth 8192 in
/-- After operations 62 … 62. -/
theorem chunk5_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v33 : V (Proc.devRef .tc main_v33) = val_main_v33 (F := F) x0 x1)
    (h_main_v38 : V (Proc.devRef .tc main_v38) = val_main_v38 (F := F) x0 x1)
    (h_main_v42 : V (Proc.devRef .tc main_v42) = val_main_v42 (F := F) x0 x1)
    (h_main_v46 : V (Proc.devRef .tc main_v46) = val_main_v46 (F := F) x0 x1)
    :
    after (chunk5 (F := F)) V (Proc.devRef .tc main_arg0) = x0
    ∧ after (chunk5 (F := F)) V (Proc.devRef .tc main_arg1) = x1
    ∧ after (chunk5 (F := F)) V (Proc.devRef .tc main_v38) = val_main_v38 (F := F) x0 x1
    ∧ after (chunk5 (F := F)) V (Proc.devRef .tc main_v46) = val_main_v46 (F := F) x0 x1
    ∧ after (chunk5 (F := F)) V (Proc.devRef .tc main_v47) = val_main_v47 (F := F) x0 x1 := by
  refine ⟨?_, ?_, ?_, ?_, ?_⟩
  · after_results_simp
    exact h_main_arg0
  · after_results_simp
    exact h_main_arg1
  · after_results_simp
    exact h_main_v38
  · after_results_simp
    exact h_main_v46
  · after_results_simp
    try simp only [cast_cast_cancel]
    unfold val_main_v47
    rw [← h_main_v42, ← h_main_v33]
    all_goals rfl

set_option maxRecDepth 8192 in
/-- After operations 63 … 74. -/
theorem chunk6_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v38 : V (Proc.devRef .tc main_v38) = val_main_v38 (F := F) x0 x1)
    (h_main_v46 : V (Proc.devRef .tc main_v46) = val_main_v46 (F := F) x0 x1)
    (h_main_v47 : V (Proc.devRef .tc main_v47) = val_main_v47 (F := F) x0 x1)
    :
    after (chunk6 (F := F)) V (Proc.devRef .tc main_arg0) = x0
    ∧ after (chunk6 (F := F)) V (Proc.devRef .tc main_arg1) = x1
    ∧ after (chunk6 (F := F)) V (Proc.devRef .tc main_v48) = val_main_v48 (F := F) x0 x1
    ∧ after (chunk6 (F := F)) V (Proc.devRef .tc main_call1_v5) = val_main_call1_v5 (F := F) x0 x1
    ∧ after (chunk6 (F := F)) V (Proc.devRef .tc main_call1_v7) = val_main_call1_v7 (F := F) x0 x1 := by
  refine ⟨?_, ?_, ?_, ?_, ?_⟩
  · after_results_simp
    exact h_main_arg0
  · after_results_simp
    exact h_main_arg1
  · after_results_simp
    try simp only [cast_cast_cancel]
    unfold val_main_v48
    rw [← h_main_v46, ← h_main_v38]
    all_goals rfl
  · after_results_simp
    try simp only [cast_cast_cancel]
    unfold val_main_call1_v5 val_main_call1_v4 val_main_call1_v3 val_main_call1_v2 val_main_call1_v1 val_main_call1_cst_0 val_main_call1_v0 val_main_call1_cst
    rw [← h_main_v47]
    all_goals rfl
  · after_results_simp
    try simp only [cast_cast_cancel]
    unfold val_main_call1_v7 val_main_call1_cst_1 val_main_call1_v6 val_main_call1_v5 val_main_call1_v4 val_main_call1_v3 val_main_call1_v2 val_main_call1_v1 val_main_call1_cst_0 val_main_call1_v0 val_main_call1_cst
    rw [← h_main_v47]
    all_goals rfl

set_option maxRecDepth 8192 in
/-- After operations 75 … 85. -/
theorem chunk7_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v48 : V (Proc.devRef .tc main_v48) = val_main_v48 (F := F) x0 x1)
    (h_main_call1_v5 : V (Proc.devRef .tc main_call1_v5) = val_main_call1_v5 (F := F) x0 x1)
    (h_main_call1_v7 : V (Proc.devRef .tc main_call1_v7) = val_main_call1_v7 (F := F) x0 x1)
    :
    after (chunk7 (F := F)) V (Proc.devRef .tc main_arg0) = x0
    ∧ after (chunk7 (F := F)) V (Proc.devRef .tc main_arg1) = x1
    ∧ after (chunk7 (F := F)) V (Proc.devRef .tc main_v48) = val_main_v48 (F := F) x0 x1
    ∧ after (chunk7 (F := F)) V (Proc.devRef .tc main_v49) = val_main_v49 (F := F) x0 x1
    ∧ after (chunk7 (F := F)) V (Proc.devRef .tc main_v50) = val_main_v50 (F := F)
    ∧ after (chunk7 (F := F)) V (Proc.devRef .tc main_v51) = val_main_v51 (F := F)
    ∧ after (chunk7 (F := F)) V (Proc.devRef .tc main_v53) = val_main_v53 (F := F)
    ∧ after (chunk7 (F := F)) V (Proc.devRef .tc main_v54) = val_main_v54 (F := F) := by
  refine ⟨?_, ?_, ?_, ?_, ?_, ?_, ?_, ?_⟩
  · after_results_simp
    exact h_main_arg0
  · after_results_simp
    exact h_main_arg1
  · after_results_simp
    exact h_main_v48
  · after_results_simp
    try simp only [cast_cast_cancel]
    unfold val_main_v49 val_main_call1_v10 val_main_call1_v9 val_main_call1_v8
    rw [← h_main_call1_v5, ← h_main_call1_v7]
    all_goals rfl
  · after_results_simp
    try simp only [cast_cast_cancel]
    unfold val_main_v50
    all_goals rfl
  · after_results_simp
    try simp only [cast_cast_cancel]
    unfold val_main_v51
    all_goals rfl
  · after_results_simp
    try simp only [cast_cast_cancel]
    unfold val_main_v53 val_main_v52 val_main_c_8 val_main_v50
    all_goals rfl
  · after_results_simp
    try simp only [cast_cast_cancel]
    unfold val_main_v54 val_main_c_9
    all_goals rfl

set_option maxRecDepth 8192 in
/-- After operations 86 … 96. -/
theorem chunk8_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v48 : V (Proc.devRef .tc main_v48) = val_main_v48 (F := F) x0 x1)
    (h_main_v49 : V (Proc.devRef .tc main_v49) = val_main_v49 (F := F) x0 x1)
    (h_main_v50 : V (Proc.devRef .tc main_v50) = val_main_v50 (F := F))
    (h_main_v51 : V (Proc.devRef .tc main_v51) = val_main_v51 (F := F))
    (h_main_v53 : V (Proc.devRef .tc main_v53) = val_main_v53 (F := F))
    (h_main_v54 : V (Proc.devRef .tc main_v54) = val_main_v54 (F := F))
    :
    after (chunk8 (F := F)) V (Proc.devRef .tc main_arg0) = x0
    ∧ after (chunk8 (F := F)) V (Proc.devRef .tc main_arg1) = x1
    ∧ after (chunk8 (F := F)) V (Proc.devRef .tc main_v48) = val_main_v48 (F := F) x0 x1
    ∧ after (chunk8 (F := F)) V (Proc.devRef .tc main_v49) = val_main_v49 (F := F) x0 x1
    ∧ after (chunk8 (F := F)) V (Proc.devRef .tc main_v62) = val_main_v62 (F := F)
    ∧ after (chunk8 (F := F)) V (Proc.devRef .tc main_v63) = val_main_v63 (F := F) := by
  refine ⟨?_, ?_, ?_, ?_, ?_, ?_⟩
  · after_results_simp
    exact h_main_arg0
  · after_results_simp
    exact h_main_arg1
  · after_results_simp
    exact h_main_v48
  · after_results_simp
    exact h_main_v49
  · after_results_simp
    try simp only [cast_cast_cancel]
    unfold val_main_v62 val_main_v56 val_main_v55
    rw [← h_main_v53, ← h_main_v50, ← h_main_v54]
    all_goals rfl
  · after_results_simp
    try simp only [cast_cast_cancel]
    unfold val_main_v63 val_main_v61 val_main_v60 val_main_v59 val_main_c_11 val_main_v58 val_main_v57 val_main_c_10
    rw [← h_main_v51]
    all_goals rfl

set_option maxRecDepth 8192 in
/-- After operations 97 … 108. -/
theorem chunk9_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v48 : V (Proc.devRef .tc main_v48) = val_main_v48 (F := F) x0 x1)
    (h_main_v49 : V (Proc.devRef .tc main_v49) = val_main_v49 (F := F) x0 x1)
    (h_main_v62 : V (Proc.devRef .tc main_v62) = val_main_v62 (F := F))
    (h_main_v63 : V (Proc.devRef .tc main_v63) = val_main_v63 (F := F))
    :
    after (chunk9 (F := F)) V (Proc.devRef .tc main_arg0) = x0
    ∧ after (chunk9 (F := F)) V (Proc.devRef .tc main_arg1) = x1
    ∧ after (chunk9 (F := F)) V (Proc.devRef .tc main_v48) = val_main_v48 (F := F) x0 x1
    ∧ after (chunk9 (F := F)) V (Proc.devRef .tc main_v68) = val_main_v68 (F := F) x0 x1
    ∧ after (chunk9 (F := F)) V (Proc.devRef .tc main_call2_v2) = val_main_call2_v2 (F := F) x0 x1 := by
  refine ⟨?_, ?_, ?_, ?_, ?_⟩
  · after_results_simp
    exact h_main_arg0
  · after_results_simp
    exact h_main_arg1
  · after_results_simp
    exact h_main_v48
  · after_results_simp
    try simp only [cast_cast_cancel]
    unfold val_main_v68 val_main_cst_13 val_main_v67 val_main_v66 val_main_cst_12 val_main_v65 val_main_v64
    rw [← h_main_v49, ← h_main_v62, ← h_main_v63]
    all_goals rfl
  · after_results_simp
    try simp only [cast_cast_cancel]
    unfold val_main_call2_v2 val_main_call2_v1 val_main_call2_cst_0 val_main_call2_v0 val_main_call2_cst
    rw [← h_main_v48]
    all_goals rfl

set_option maxRecDepth 8192 in
/-- After operations 109 … 120. -/
theorem chunk10_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v48 : V (Proc.devRef .tc main_v48) = val_main_v48 (F := F) x0 x1)
    (h_main_v68 : V (Proc.devRef .tc main_v68) = val_main_v68 (F := F) x0 x1)
    (h_main_call2_v2 : V (Proc.devRef .tc main_call2_v2) = val_main_call2_v2 (F := F) x0 x1)
    :
    after (chunk10 (F := F)) V (Proc.devRef .tc main_arg0) = x0
    ∧ after (chunk10 (F := F)) V (Proc.devRef .tc main_arg1) = x1
    ∧ after (chunk10 (F := F)) V (Proc.devRef .tc main_v68) = val_main_v68 (F := F) x0 x1
    ∧ after (chunk10 (F := F)) V (Proc.devRef .tc main_v69) = val_main_v69 (F := F) x0 x1
    ∧ after (chunk10 (F := F)) V (Proc.devRef .tc main_v70) = val_main_v70 (F := F)
    ∧ after (chunk10 (F := F)) V (Proc.devRef .tc main_v71) = val_main_v71 (F := F) := by
  refine ⟨?_, ?_, ?_, ?_, ?_, ?_⟩
  · after_results_simp
    exact h_main_arg0
  · after_results_simp
    exact h_main_arg1
  · after_results_simp
    exact h_main_v68
  · after_results_simp
    try simp only [cast_cast_cancel]
    unfold val_main_v69 val_main_call2_v10 val_main_call2_v9 val_main_call2_v8 val_main_call2_v7 val_main_call2_cst_1 val_main_call2_v6 val_main_call2_v5 val_main_call2_v4 val_main_call2_v3
    rw [← h_main_v48, ← h_main_call2_v2]
    all_goals rfl
  · after_results_simp
    try simp only [cast_cast_cancel]
    unfold val_main_v70
    all_goals rfl
  · after_results_simp
    try simp only [cast_cast_cancel]
    unfold val_main_v71
    all_goals rfl

set_option maxRecDepth 8192 in
/-- After operations 121 … 128. -/
theorem chunk11_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v68 : V (Proc.devRef .tc main_v68) = val_main_v68 (F := F) x0 x1)
    (h_main_v69 : V (Proc.devRef .tc main_v69) = val_main_v69 (F := F) x0 x1)
    (h_main_v70 : V (Proc.devRef .tc main_v70) = val_main_v70 (F := F))
    (h_main_v71 : V (Proc.devRef .tc main_v71) = val_main_v71 (F := F))
    :
    after (chunk11 (F := F)) V (Proc.devRef .tc main_arg0) = x0
    ∧ after (chunk11 (F := F)) V (Proc.devRef .tc main_arg1) = x1
    ∧ after (chunk11 (F := F)) V (Proc.devRef .tc main_v68) = val_main_v68 (F := F) x0 x1
    ∧ after (chunk11 (F := F)) V (Proc.devRef .tc main_v69) = val_main_v69 (F := F) x0 x1
    ∧ after (chunk11 (F := F)) V (Proc.devRef .tc main_v71) = val_main_v71 (F := F)
    ∧ after (chunk11 (F := F)) V (Proc.devRef .tc main_v76) = val_main_v76 (F := F)
    ∧ after (chunk11 (F := F)) V (Proc.devRef .tc main_c_16) = val_main_c_16 (F := F) := by
  refine ⟨?_, ?_, ?_, ?_, ?_, ?_, ?_⟩
  · after_results_simp
    exact h_main_arg0
  · after_results_simp
    exact h_main_arg1
  · after_results_simp
    exact h_main_v68
  · after_results_simp
    exact h_main_v69
  · after_results_simp
    exact h_main_v71
  · after_results_simp
    try simp only [cast_cast_cancel]
    unfold val_main_v76 val_main_v75 val_main_v74 val_main_c_15 val_main_v73 val_main_v72 val_main_c_14
    rw [← h_main_v70]
    all_goals rfl
  · after_results_simp
    try simp only [cast_cast_cancel]
    unfold val_main_c_16
    all_goals rfl

set_option maxRecDepth 8192 in
/-- After operations 129 … 136. -/
theorem chunk12_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v68 : V (Proc.devRef .tc main_v68) = val_main_v68 (F := F) x0 x1)
    (h_main_v69 : V (Proc.devRef .tc main_v69) = val_main_v69 (F := F) x0 x1)
    (h_main_v71 : V (Proc.devRef .tc main_v71) = val_main_v71 (F := F))
    (h_main_v76 : V (Proc.devRef .tc main_v76) = val_main_v76 (F := F))
    (h_main_c_16 : V (Proc.devRef .tc main_c_16) = val_main_c_16 (F := F))
    :
    after (chunk12 (F := F)) V (Proc.devRef .tc main_arg0) = x0
    ∧ after (chunk12 (F := F)) V (Proc.devRef .tc main_arg1) = x1
    ∧ after (chunk12 (F := F)) V (Proc.devRef .tc main_v68) = val_main_v68 (F := F) x0 x1
    ∧ after (chunk12 (F := F)) V (Proc.devRef .tc main_v69) = val_main_v69 (F := F) x0 x1
    ∧ after (chunk12 (F := F)) V (Proc.devRef .tc main_v82) = val_main_v82 (F := F)
    ∧ after (chunk12 (F := F)) V (Proc.devRef .tc main_v83) = val_main_v83 (F := F) := by
  refine ⟨?_, ?_, ?_, ?_, ?_, ?_⟩
  · after_results_simp
    exact h_main_arg0
  · after_results_simp
    exact h_main_arg1
  · after_results_simp
    exact h_main_v68
  · after_results_simp
    exact h_main_v69
  · after_results_simp
    try simp only [cast_cast_cancel]
    unfold val_main_v82
    rw [← h_main_v76]
    all_goals rfl
  · after_results_simp
    try simp only [cast_cast_cancel]
    unfold val_main_v83 val_main_v81 val_main_v80 val_main_v79 val_main_c_17 val_main_v78 val_main_v77
    rw [← h_main_v71, ← h_main_c_16]
    all_goals rfl

set_option maxRecDepth 8192 in
/-- After operations 137 … 148. -/
theorem chunk13_spec (V : Valuation τ sig (Elt F)) (x0 : (⟨S100000x768, .f32⟩ : BufTy).Contents (Elt F)) (x1 : (⟨S4096x2, .i32⟩ : BufTy).Contents (Elt F))
    (h_main_arg0 : V (Proc.devRef .tc main_arg0) = x0)
    (h_main_arg1 : V (Proc.devRef .tc main_arg1) = x1)
    (h_main_v68 : V (Proc.devRef .tc main_v68) = val_main_v68 (F := F) x0 x1)
    (h_main_v69 : V (Proc.devRef .tc main_v69) = val_main_v69 (F := F) x0 x1)
    (h_main_v82 : V (Proc.devRef .tc main_v82) = val_main_v82 (F := F))
    (h_main_v83 : V (Proc.devRef .tc main_v83) = val_main_v83 (F := F))
    :
    after (chunk13 (F := F)) V (Proc.devRef .tc main_arg0) = x0
    ∧ after (chunk13 (F := F)) V (Proc.devRef .tc main_arg1) = x1
    ∧ after (chunk13 (F := F)) V (Proc.devRef .tc main_v91) = val_main_v91 (F := F) x0 x1 := by
  refine ⟨?_, ?_, ?_⟩
  · after_results_simp
    exact h_main_arg0
  · after_results_simp
    exact h_main_arg1
  · after_results_simp
    try simp only [cast_cast_cancel]
    unfold val_main_v91 val_main_v90 val_main_cst_21 val_main_v89 val_main_cst_20 val_main_v88 val_main_cst_19 val_main_v87 val_main_v86 val_main_cst_18 val_main_v85 val_main_v84
    rw [← h_main_v68, ← h_main_v69, ← h_main_v82, ← h_main_v83]
    all_goals rfl

/-! ## The whole line -/

set_option maxRecDepth 8192 in
/-- After the 148 operations the result buffer holds its stage function of the two arguments' contents, and the
    arguments keep theirs. -/
theorem after_ops (V : Valuation τ sig (Elt F)) :
    after (ops (F := F)) V (Proc.devRef .tc main_v91) = val_main_v91 (F := F) (V (Proc.devRef .tc main_arg0)) (V (Proc.devRef .tc main_arg1))
    ∧ after (ops (F := F)) V (Proc.devRef .tc main_arg0) = V (Proc.devRef .tc main_arg0)
    ∧ after (ops (F := F)) V (Proc.devRef .tc main_arg1) = V (Proc.devRef .tc main_arg1) := by
  rw [ops_eq, after_append, after_append, after_append, after_append, after_append, after_append, after_append, after_append, after_append, after_append, after_append, after_append, after_append]
  obtain ⟨g0_main_arg0, g0_main_arg1, g0_main_v2, g0_main_v4, g0_main_v6⟩ := chunk0_spec (F := F) (V) (V (Proc.devRef .tc main_arg0)) (V (Proc.devRef .tc main_arg1)) rfl rfl
  obtain ⟨g1_main_arg0, g1_main_arg1, g1_main_v2, g1_main_v11, g1_main_v13, g1_main_v15, g1_main_c_2⟩ := chunk1_spec (F := F) (after (chunk0 (F := F)) (V)) (V (Proc.devRef .tc main_arg0)) (V (Proc.devRef .tc main_arg1)) g0_main_arg0 g0_main_arg1 g0_main_v2 g0_main_v4 g0_main_v6
  obtain ⟨g2_main_arg0, g2_main_arg1, g2_main_v11, g2_main_v20, g2_main_v26⟩ := chunk2_spec (F := F) (after (chunk1 (F := F)) (after (chunk0 (F := F)) (V))) (V (Proc.devRef .tc main_arg0)) (V (Proc.devRef .tc main_arg1)) g1_main_arg0 g1_main_arg1 g1_main_v2 g1_main_v11 g1_main_v13 g1_main_v15 g1_main_c_2
  obtain ⟨g3_main_arg0, g3_main_arg1, g3_main_v11, g3_main_v20, g3_main_v28, g3_main_v33, g3_main_v35, g3_main_cst_5⟩ := chunk3_spec (F := F) (after (chunk2 (F := F)) (after (chunk1 (F := F)) (after (chunk0 (F := F)) (V)))) (V (Proc.devRef .tc main_arg0)) (V (Proc.devRef .tc main_arg1)) g2_main_arg0 g2_main_arg1 g2_main_v11 g2_main_v20 g2_main_v26
  obtain ⟨g4_main_arg0, g4_main_arg1, g4_main_v33, g4_main_v38, g4_main_v42, g4_main_v46⟩ := chunk4_spec (F := F) (after (chunk3 (F := F)) (after (chunk2 (F := F)) (after (chunk1 (F := F)) (after (chunk0 (F := F)) (V))))) (V (Proc.devRef .tc main_arg0)) (V (Proc.devRef .tc main_arg1)) g3_main_arg0 g3_main_arg1 g3_main_v11 g3_main_v20 g3_main_v28 g3_main_v33 g3_main_v35 g3_main_cst_5
  obtain ⟨g5_main_arg0, g5_main_arg1, g5_main_v38, g5_main_v46, g5_main_v47⟩ := chunk5_spec (F := F) (after (chunk4 (F := F)) (after (chunk3 (F := F)) (after (chunk2 (F := F)) (after (chunk1 (F := F)) (after (chunk0 (F := F)) (V)))))) (V (Proc.devRef .tc main_arg0)) (V (Proc.devRef .tc main_arg1)) g4_main_arg0 g4_main_arg1 g4_main_v33 g4_main_v38 g4_main_v42 g4_main_v46
  obtain ⟨g6_main_arg0, g6_main_arg1, g6_main_v48, g6_main_call1_v5, g6_main_call1_v7⟩ := chunk6_spec (F := F) (after (chunk5 (F := F)) (after (chunk4 (F := F)) (after (chunk3 (F := F)) (after (chunk2 (F := F)) (after (chunk1 (F := F)) (after (chunk0 (F := F)) (V))))))) (V (Proc.devRef .tc main_arg0)) (V (Proc.devRef .tc main_arg1)) g5_main_arg0 g5_main_arg1 g5_main_v38 g5_main_v46 g5_main_v47
  obtain ⟨g7_main_arg0, g7_main_arg1, g7_main_v48, g7_main_v49, g7_main_v50, g7_main_v51, g7_main_v53, g7_main_v54⟩ := chunk7_spec (F := F) (after (chunk6 (F := F)) (after (chunk5 (F := F)) (after (chunk4 (F := F)) (after (chunk3 (F := F)) (after (chunk2 (F := F)) (after (chunk1 (F := F)) (after (chunk0 (F := F)) (V)))))))) (V (Proc.devRef .tc main_arg0)) (V (Proc.devRef .tc main_arg1)) g6_main_arg0 g6_main_arg1 g6_main_v48 g6_main_call1_v5 g6_main_call1_v7
  obtain ⟨g8_main_arg0, g8_main_arg1, g8_main_v48, g8_main_v49, g8_main_v62, g8_main_v63⟩ := chunk8_spec (F := F) (after (chunk7 (F := F)) (after (chunk6 (F := F)) (after (chunk5 (F := F)) (after (chunk4 (F := F)) (after (chunk3 (F := F)) (after (chunk2 (F := F)) (after (chunk1 (F := F)) (after (chunk0 (F := F)) (V))))))))) (V (Proc.devRef .tc main_arg0)) (V (Proc.devRef .tc main_arg1)) g7_main_arg0 g7_main_arg1 g7_main_v48 g7_main_v49 g7_main_v50 g7_main_v51 g7_main_v53 g7_main_v54
  obtain ⟨g9_main_arg0, g9_main_arg1, g9_main_v48, g9_main_v68, g9_main_call2_v2⟩ := chunk9_spec (F := F) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (V)))))))))) (V (Proc.devRef .tc main_arg0)) (V (Proc.devRef .tc main_arg1)) g8_main_arg0 g8_main_arg1 g8_main_v48 g8_main_v49 g8_main_v62 g8_main_v63
  obtain ⟨g10_main_arg0, g10_main_arg1, g10_main_v68, g10_main_v69, g10_main_v70, g10_main_v71⟩ := chunk10_spec (F := F) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (V))))))))))) (V (Proc.devRef .tc main_arg0)) (V (Proc.devRef .tc main_arg1)) g9_main_arg0 g9_main_arg1 g9_main_v48 g9_main_v68 g9_main_call2_v2
  obtain ⟨g11_main_arg0, g11_main_arg1, g11_main_v68, g11_main_v69, g11_main_v71, g11_main_v76, g11_main_c_16⟩ := chunk11_spec (F := F) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (V)))))))))))) (V (Proc.devRef .tc main_arg0)) (V (Proc.devRef .tc main_arg1)) g10_main_arg0 g10_main_arg1 g10_main_v68 g10_main_v69 g10_main_v70 g10_main_v71
  obtain ⟨g12_main_arg0, g12_main_arg1, g12_main_v68, g12_main_v69, g12_main_v82, g12_main_v83⟩ := chunk12_spec (F := F) (after (chunk11 (F := F)) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (V))))))))))))) (V (Proc.devRef .tc main_arg0)) (V (Proc.devRef .tc main_arg1)) g11_main_arg0 g11_main_arg1 g11_main_v68 g11_main_v69 g11_main_v71 g11_main_v76 g11_main_c_16
  obtain ⟨g13_main_arg0, g13_main_arg1, g13_main_v91⟩ := chunk13_spec (F := F) (after (chunk12 (F := F)) (after (chunk11 (F := F)) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (V)))))))))))))) (V (Proc.devRef .tc main_arg0)) (V (Proc.devRef .tc main_arg1)) g12_main_arg0 g12_main_arg1 g12_main_v68 g12_main_v69 g12_main_v82 g12_main_v83
  exact ⟨g13_main_v91, g13_main_arg0, g13_main_arg1⟩

/-- On every device, for any float values, from any memory with zero counters: every weakly fair execution of the
    program terminates with the result at the operations' composed term of the arguments and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = res_main_v91 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c main_v91).trans (after_ops (F := F) (launchContents m c)).1).trans (val_main_v91_eq m c).symm,
        (h c main_arg0).trans (after_ops (F := F) (launchContents m c)).2.1,
        (h c main_arg1).trans (after_ops (F := F) (launchContents m c)).2.2⟩)
    (run_seq scopedRefs_eq scopedSems_eq defs main (fun _ => ops) main_eq (fun _ => ops_sub) m ρ)

end Cert.ReferenceIdeal.RunChunks

end
-- ==== Proof.LibOnlineSoftmax.lean ====
/-
  Online softmax over the reals: the running maximum and the rescaled running sum.

  A row of scores is read in `N` blocks.  A tiled evaluation keeps a reference point `m` (in practice the running
  maximum) and the sum of `exp (x - m)` over the entries seen so far; when the reference point moves from `m` to
  `m'` the old sum is multiplied by `exp (m - m')` and the new block's exponentials, taken relative to `m'`, are
  added.  This file proves, for arbitrary real reference points (nothing here needs them to be maxima):

  * `exp_mul_sum_exp_sub`: rescaling a sum of exponentials from reference point `m` to `m'`;
  * `sum_lt_succ`: a sum over the first `n + 1` of `N` blocks splits off its last block;
  * `merge_step`: one merge keeps the invariant "running sum = sum over the merged blocks relative to the
    current reference point";
  * `add_log_sum_exp_sub`, `add_log_sum_exp_sub₂`: the log-sum-exp `m + log (∑ exp (x - m))` does not depend on
    the reference point `m` (for one family, and for two families summed together).
-/
import Mathlib.Analysis.SpecialFunctions.Log.Basic
import Mathlib.Algebra.BigOperators.Fin

namespace OnlineSoftmax

open Finset

/-- Moving the reference point of a sum of exponentials from `m` to `m'` multiplies it by `exp (m - m')`. -/
theorem exp_mul_sum_exp_sub {ι : Type*} (s : Finset ι) (f : ι → ℝ) (m m' : ℝ) :
    Real.exp (m - m') * ∑ i ∈ s, Real.exp (f i - m) = ∑ i ∈ s, Real.exp (f i - m') := by
  rw [Finset.mul_sum]
  refine Finset.sum_congr rfl fun i _ => ?_
  rw [← Real.exp_add]
  congr 1
  ring

/-- A sum over the blocks below `n + 1` is the sum over the blocks below `n` plus block `n`. -/
theorem sum_lt_succ {N : ℕ} {M : Type*} [AddCommMonoid M] (F : Fin N → M) (n : ℕ) (h : n < N) :
    (∑ j : Fin N, if j.val < n + 1 then F j else 0)
      = (∑ j : Fin N, if j.val < n then F j else 0) + F ⟨n, h⟩ := by
  have key : ∀ j : Fin N, (if j.val < n + 1 then F j else 0)
      = (if j.val < n then F j else 0) + (if j = ⟨n, h⟩ then F j else 0) := by
    intro j
    by_cases h1 : j.val < n
    · have h2 : j ≠ ⟨n, h⟩ := fun e => by rw [e] at h1; exact lt_irrefl _ h1
      rw [if_pos (Nat.lt_succ_of_lt h1), if_pos h1, if_neg h2, add_zero]
    · by_cases h2 : j = ⟨n, h⟩
      · rw [if_neg h1, if_pos h2, if_pos (by rw [h2]; exact Nat.lt_succ_self n), zero_add]
      · have h3 : ¬ j.val < n + 1 := fun h3 => h2 (Fin.ext (by show j.val = n; omega))
        rw [if_neg h1, if_neg h2, if_neg h3, add_zero]
  simp_rw [key, Finset.sum_add_distrib, Finset.sum_ite_eq' , Finset.mem_univ, if_true]

/-- One merge of the online recurrence.  If every block's sum `E j` rescales like a sum of exponentials, and the
    running sum is the sum of the blocks below `n` relative to `m`, then rescaling it to `m'` and adding block `n`
    relative to `m'` gives the sum of the blocks below `n + 1` relative to `m'`. -/
theorem merge_step {N : ℕ} (E : Fin N → ℝ → ℝ)
    (hE : ∀ j m m', Real.exp (m - m') * E j m = E j m') (n : ℕ) (h : n < N) (m m' : ℝ) :
    Real.exp (m - m') * (∑ j : Fin N, if j.val < n then E j m else 0) + E ⟨n, h⟩ m'
      = ∑ j : Fin N, if j.val < n + 1 then E j m' else 0 := by
  rw [sum_lt_succ (fun j => E j m') n h, Finset.mul_sum]
  congr 1
  refine Finset.sum_congr rfl fun j _ => ?_
  rw [mul_ite, mul_zero, hE]

/-- The log-sum-exp of a nonempty family does not depend on the reference point. -/
theorem add_log_sum_exp_sub {ι : Type*} (s : Finset ι) (hs : s.Nonempty) (f : ι → ℝ) (m : ℝ) :
    m + Real.log (∑ i ∈ s, Real.exp (f i - m)) = Real.log (∑ i ∈ s, Real.exp (f i)) := by
  have hpos : 0 < ∑ i ∈ s, Real.exp (f i - m) := Finset.sum_pos (fun i _ => Real.exp_pos _) hs
  have h := exp_mul_sum_exp_sub s f m 0
  simp only [sub_zero] at h
  rw [← h, Real.log_mul (Real.exp_pos m).ne' hpos.ne', Real.log_exp]

/-- The same for two families summed together, the first of them nonempty. -/
theorem add_log_sum_exp_sub₂ {ι κ : Type*} [Fintype ι] [Fintype κ] [Nonempty ι] (f : ι → ℝ) (g : κ → ℝ) (m : ℝ) :
    m + Real.log ((∑ i, Real.exp (f i - m)) + ∑ k, Real.exp (g k - m))
      = Real.log ((∑ i, Real.exp (f i)) + ∑ k, Real.exp (g k)) := by
  have hf : 0 < ∑ i, Real.exp (f i - m) := Finset.sum_pos (fun i _ => Real.exp_pos _) Finset.univ_nonempty
  have hg : 0 ≤ ∑ k, Real.exp (g k - m) := Finset.sum_nonneg fun k _ => (Real.exp_pos _).le
  have h1 := exp_mul_sum_exp_sub Finset.univ f m 0
  have h2 := exp_mul_sum_exp_sub Finset.univ g m 0
  simp only [sub_zero] at h1 h2
  rw [← h1, ← h2, ← mul_add, Real.log_mul (Real.exp_pos m).ne' (add_pos_of_pos_of_nonneg hf hg).ne', Real.log_exp]

end OnlineSoftmax
-- ==== Proof.LossAlgebra.lean ====
/-
  The tiled loss and the plain loss agree on real-valued tables.

  On real tables every score is a real number, dividing by the temperature is multiplying by the named factor, and
  both sides are read in the reals.  The tiled side's running pair after `n ≥ 1` merges is a real reference point
  `m` together with the sum of `exp (x - m)` over the entries merged so far (the first merge starts from `-∞`, whose
  exponential is `0`, and is treated apart); so the eight merges end at `m + log ∑ exp (x - m)` over all 8192
  entries, which does not depend on `m` and is what the plain side's log-softmax subtracts after taking off the
  row maximum.  Against the diagonal indicator only the diagonal score survives, the two cross products share
  their diagonal, and what is left is arithmetic of finite real sums.
-/
import proofs.«403767_j22084721836062_1_alg».proof.Proof.Spec
import proofs.«403767_j22084721836062_1_alg».proof.Proof.LibOnlineSoftmax
import Mathlib.Analysis.SpecialFunctions.Log.Basic
import Mathlib.Algebra.BigOperators.Fin

noncomputable section

namespace Cert.Contrast

open Idealize.ShloMosaic

/-! ## Coercions and constants -/

/-- A finite sum of real numbers, read in the extended reals, is the sum of the readings. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The 32-bit pattern of `0.05` denotes `13421773 / 2²⁸`. -/
theorem temp_eq : temp = ((13421773 / 268435456 : ℝ) : EReal) := by
  simp [temp, Ideal.ofBits, Ideal.ieee]
  norm_cast

theorem diagPenalty_eq : diagPenalty = ((1000000000 : ℝ) : EReal) := by
  simp [diagPenalty, Ideal.ofBits, Ideal.ieee]
  norm_cast

theorem half_eq : half = ((1 / 2 : ℝ) : EReal) := by
  simp [half, Ideal.ofBits, Ideal.ieee]
  norm_cast
  norm_num

theorem rowCount_eq : rowCount = ((4096 : ℝ) : EReal) := by
  simp [rowCount, Ideal.ofBits, Ideal.ieee]
  norm_cast
  norm_num

/-! ## The score rows on real tables -/

/-- Row `r` of `a` against row `q` of `b`, over the reals. -/
def rdot (a b : Fin 4096 → Fin 768 → ℝ) (r q : Fin 4096) : ℝ := ∑ k : Fin 768, a r k * b q k

/-- A cross score and a diagonal-penalised self score, over the reals. -/
def rcross (a b : Fin 4096 → Fin 768 → ℝ) (r q : Fin 4096) : ℝ := rdot a b r q * (268435456 / 13421773)
def rself (a : Fin 4096 → Fin 768 → ℝ) (r q : Fin 4096) : ℝ :=
  rdot a a r q * (268435456 / 13421773) - (if r = q then 1 else 0) * 1000000000

theorem rdot_comm (a b : Fin 4096 → Fin 768 → ℝ) (r q : Fin 4096) : rdot a b r q = rdot b a q r := by
  unfold rdot
  exact Finset.sum_congr rfl fun k _ => mul_comm _ _

theorem dot_coe (a b : Fin 4096 → Fin 768 → ℝ) (r q : Fin 4096) :
    dot (fun r k => ((a r k : ℝ) : EReal)) (fun r k => ((b r k : ℝ) : EReal)) r q = ((rdot a b r q : ℝ) : EReal) := by
  simp only [dot, rdot, ← EReal.coe_mul, coe_sum]

theorem diag_coe (r q : Fin 4096) : diag r q = (((if r = q then 1 else 0 : ℝ)) : EReal) := by
  unfold diag
  split_ifs <;> simp

theorem tiledCross_coe (a b : Fin 4096 → Fin 768 → ℝ) (r : Fin 4096) :
    tiledCross (fun r k => ((a r k : ℝ) : EReal)) (fun r k => ((b r k : ℝ) : EReal)) r
      = fun q => ((rcross a b r q : ℝ) : EReal) := by
  funext q
  rw [tiledCross, dot_coe, invTemp, ← EReal.coe_mul, rcross]

theorem tiledSelf_coe (a : Fin 4096 → Fin 768 → ℝ) (r : Fin 4096) :
    tiledSelf (fun r k => ((a r k : ℝ) : EReal)) r = fun q => ((rself a r q : ℝ) : EReal) := by
  funext q
  rw [tiledSelf, dot_coe, invTemp, diag_coe, diagPenalty_eq, ← EReal.coe_mul, ← EReal.coe_mul, ← EReal.coe_sub, rself]

/-- Dividing by the temperature is multiplying by the named factor. -/
theorem div_temp (x : EReal) : Ideal.div x temp = x * invTemp := by
  rw [temp_eq, Ideal.div_coe (by norm_num), invTemp]
  congr 2
  norm_num

theorem plainCross_coe (a b : Fin 4096 → Fin 768 → ℝ) (r : Fin 4096) :
    plainCross (fun r k => ((a r k : ℝ) : EReal)) (fun r k => ((b r k : ℝ) : EReal)) r
      = fun q => ((rcross a b r q : ℝ) : EReal) := by
  rw [← tiledCross_coe]
  funext q
  rw [plainCross, div_temp, tiledCross]

theorem plainSelf_coe (a : Fin 4096 → Fin 768 → ℝ) (r : Fin 4096) :
    plainSelf (fun r k => ((a r k : ℝ) : EReal)) r = fun q => ((rself a r q : ℝ) : EReal) := by
  rw [← tiledSelf_coe]
  funext q
  rw [plainSelf, div_temp, tiledSelf]

/-! ## Sums over the eight column blocks and over the joined row -/

/-- The eight blocks of 512 columns are the 4096 columns. -/
theorem sum_col {M : Type*} [AddCommMonoid M] (h : Fin 4096 → M) :
    (∑ j : Fin 8, ∑ p : Fin 512, h (col j p)) = ∑ q : Fin 4096, h q := by
  rw [← Fintype.sum_prod_type' (f := fun j p => h (col j p))]
  refine Fintype.sum_bijective (fun jp : Fin 8 × Fin 512 => col jp.1 jp.2) ⟨?_, ?_⟩ _ _ (fun _ => rfl)
  · rintro ⟨j, p⟩ ⟨j', p'⟩ e
    have e' : 512 * j.val + p.val = 512 * j'.val + p'.val := congrArg Fin.val e
    have hp := p.isLt
    have hp' := p'.isLt
    exact Prod.ext (Fin.ext (by show j.val = j'.val; omega)) (Fin.ext (by show p.val = p'.val; omega))
  · intro q
    have hq := q.isLt
    exact ⟨(⟨q.val / 512, by omega⟩, ⟨q.val % 512, Nat.mod_lt _ (by norm_num)⟩), Fin.ext (by show 512 * (q.val / 512) + q.val % 512 = q.val; omega)⟩

/-- A sum over the joined row is the sum over its first half plus the sum over its second half. -/
theorem sum_joined {M : Type*} [AddCommMonoid M] (g : EReal → M) (u v : Fin 4096 → EReal) :
    (∑ c : Fin 8192, g (joined u v c)) = (∑ q : Fin 4096, g (u q)) + ∑ q : Fin 4096, g (v q) := by
  have h := Fin.sum_univ_add (a := 4096) (b := 4096) (fun c : Fin (4096 + 4096) => g (joined u v c))
  refine h.trans ?_
  have e1 : ∀ q : Fin 4096, joined u v (Fin.castAdd 4096 q) = u q := fun q => by
    have hq : (Fin.castAdd 4096 q).val < 4096 := q.isLt
    rw [joined, dif_pos hq]
    exact congrArg u (Fin.ext rfl)
  have e2 : ∀ q : Fin 4096, joined u v (Fin.natAdd 4096 q) = v q := fun q => by
    have hq : ¬ (Fin.natAdd 4096 q).val < 4096 := by simp
    rw [joined, dif_neg hq]
    exact congrArg v (Fin.ext (by simp))
  simp only [e1, e2]

/-! ## One row: the tiled log-sum-exp -/

section Row

variable (x y : Fin 4096 → ℝ)

/-- Column block `j`'s sum of exponentials relative to `m`, over both rows. -/
def blockExp (j : Fin 8) (m : ℝ) : ℝ :=
  (∑ p : Fin 512, Real.exp (x (col j p) - m)) + ∑ p : Fin 512, Real.exp (y (col j p) - m)

theorem blockExp_shift (j : Fin 8) (m m' : ℝ) : Real.exp (m - m') * blockExp x y j m = blockExp x y j m' := by
  unfold blockExp
  rw [mul_add, OnlineSoftmax.exp_mul_sum_exp_sub, OnlineSoftmax.exp_mul_sum_exp_sub]

/-- The log-sum-exp of the two rows together. -/
def rlse : ℝ := Real.log ((∑ q : Fin 4096, Real.exp (x q)) + ∑ q : Fin 4096, Real.exp (y q))

/-- The supremum of a nonempty finite family of real numbers is a real number. -/
theorem exists_sup_coe {ι : Type*} [Fintype ι] [Nonempty ι] (f : ι → ℝ) :
    ∃ B : ℝ, Finset.univ.sup (fun i => ((f i : ℝ) : EReal)) = (B : EReal) := by
  obtain ⟨i, -, hi⟩ := Finset.exists_mem_eq_sup Finset.univ Finset.univ_nonempty (fun i => ((f i : ℝ) : EReal))
  exact ⟨f i, hi⟩

theorem blockMax_coe (j : Fin 8) :
    ∃ B : ℝ, blockMax (fun q => ((x q : ℝ) : EReal)) (fun q => ((y q : ℝ) : EReal)) j = (B : EReal) := by
  obtain ⟨B1, h1⟩ := exists_sup_coe (fun p : Fin 512 => x (col j p))
  obtain ⟨B2, h2⟩ := exists_sup_coe (fun p : Fin 512 => y (col j p))
  refine ⟨max B1 B2, ?_⟩
  rw [blockMax, h1, h2]
  exact (EReal.coe_strictMono.monotone.map_max).symm

theorem blockSum_coe (j : Fin 8) (M : ℝ) :
    (∑ p : Fin 512, Ideal.exp (((x (col j p) : ℝ) : EReal) - (M : EReal)))
      + (∑ p : Fin 512, Ideal.exp (((y (col j p) : ℝ) : EReal) - (M : EReal))) = ((blockExp x y j M : ℝ) : EReal) := by
  simp only [← EReal.coe_sub, Ideal.exp_coe, coe_sum, ← EReal.coe_add, blockExp]

/-- The first merge, from `(-∞, 0)`: the old sum's factor is `exp (-∞) = 0`. -/
theorem merge_bot (j : Fin 8) :
    ∃ M : ℝ, mergeMax (fun q => ((x q : ℝ) : EReal)) (fun q => ((y q : ℝ) : EReal)) j ⊥ = (M : EReal)
      ∧ mergeSum (fun q => ((x q : ℝ) : EReal)) (fun q => ((y q : ℝ) : EReal)) j ⊥ 0 = ((blockExp x y j M : ℝ) : EReal) := by
  obtain ⟨B, hB⟩ := blockMax_coe x y j
  have hm : mergeMax (fun q => ((x q : ℝ) : EReal)) (fun q => ((y q : ℝ) : EReal)) j ⊥ = (B : EReal) := by
    rw [mergeMax, hB]
    exact max_eq_right bot_le
  refine ⟨B, hm, ?_⟩
  rw [mergeSum, hm, mul_zero, zero_add, blockSum_coe]

/-- A later merge, from a real maximum and a real sum. -/
theorem merge_coe (j : Fin 8) (M L : ℝ) :
    ∃ M' : ℝ, mergeMax (fun q => ((x q : ℝ) : EReal)) (fun q => ((y q : ℝ) : EReal)) j (M : EReal) = (M' : EReal)
      ∧ mergeSum (fun q => ((x q : ℝ) : EReal)) (fun q => ((y q : ℝ) : EReal)) j (M : EReal) (L : EReal)
          = ((Real.exp (M - M') * L + blockExp x y j M' : ℝ) : EReal) := by
  obtain ⟨B, hB⟩ := blockMax_coe x y j
  have hm : mergeMax (fun q => ((x q : ℝ) : EReal)) (fun q => ((y q : ℝ) : EReal)) j (M : EReal) = ((max M B : ℝ) : EReal) := by
    rw [mergeMax, hB]
    exact (EReal.coe_strictMono.monotone.map_max).symm
  refine ⟨max M B, hm, ?_⟩
  rw [mergeSum, hm, blockSum_coe, ← EReal.coe_sub, Ideal.exp_coe, ← EReal.coe_mul, ← EReal.coe_add]

theorem running_succ (u v : Fin 4096 → EReal) (n : ℕ) (h : n < 8) :
    running u v (n + 1)
      = (mergeMax u v ⟨n, h⟩ (running u v n).1, mergeSum u v ⟨n, h⟩ (running u v n).1 (running u v n).2) := by
  rw [running, dif_pos h]

/-- After `n ≥ 1` merges the running pair is a real reference point and the sum of the merged blocks'
    exponentials relative to it. -/
theorem running_coe (n : ℕ) (h1 : 1 ≤ n) (h8 : n ≤ 8) :
    ∃ M : ℝ, running (fun q => ((x q : ℝ) : EReal)) (fun q => ((y q : ℝ) : EReal)) n
      = ((M : EReal), ((∑ j : Fin 8, if j.val < n then blockExp x y j M else 0 : ℝ) : EReal)) := by
  induction n, h1 using Nat.le_induction with
  | base =>
    obtain ⟨M, hM, hL⟩ := merge_bot x y ⟨0, by norm_num⟩
    refine ⟨M, ?_⟩
    rw [running_succ _ _ 0 (by norm_num)]
    show (mergeMax _ _ _ ⊥, mergeSum _ _ _ ⊥ 0) = _
    rw [hM, hL, OnlineSoftmax.sum_lt_succ (fun j => blockExp x y j M) 0 (by norm_num)]
    simp
  | succ n h1 ih =>
    have hn : n < 8 := h8
    obtain ⟨M, hM⟩ := ih (Nat.le_of_succ_le h8)
    obtain ⟨M', hM', hL'⟩ := merge_coe x y ⟨n, hn⟩ M (∑ j : Fin 8, if j.val < n then blockExp x y j M else 0)
    refine ⟨M', ?_⟩
    rw [running_succ _ _ n hn, hM]
    show (mergeMax _ _ _ (M : EReal), mergeSum _ _ _ (M : EReal) _) = _
    rw [hM', hL', OnlineSoftmax.merge_step (blockExp x y) (blockExp_shift x y) n hn M M']

/-- The eight merges end at the log-sum-exp of the two rows. -/
theorem tiledLse_coe :
    tiledLse (fun q => ((x q : ℝ) : EReal)) (fun q => ((y q : ℝ) : EReal)) = ((rlse x y : ℝ) : EReal) := by
  obtain ⟨M, hM⟩ := running_coe x y 8 (by norm_num) le_rfl
  have hL : (∑ j : Fin 8, if j.val < 8 then blockExp x y j M else 0)
      = (∑ q : Fin 4096, Real.exp (x q - M)) + ∑ q : Fin 4096, Real.exp (y q - M) := by
    simp only [Fin.is_lt, if_true, blockExp, Finset.sum_add_distrib]
    rw [sum_col (fun q => Real.exp (x q - M)), sum_col (fun q => Real.exp (y q - M))]
  have hpos : 0 < (∑ q : Fin 4096, Real.exp (x q - M)) + ∑ q : Fin 4096, Real.exp (y q - M) :=
    add_pos_of_pos_of_nonneg (Finset.sum_pos (fun _ _ => Real.exp_pos _) Finset.univ_nonempty)
      (Finset.sum_nonneg fun _ _ => (Real.exp_pos _).le)
  rw [tiledLse, hM]
  show (M : EReal) + Ideal.log ((_ : ℝ) : EReal) = _
  rw [hL, Ideal.log_coe, if_neg (not_le.mpr hpos), ← EReal.coe_add, rlse, ← OnlineSoftmax.add_log_sum_exp_sub₂ x y M]

/-! ## One row: the plain log-softmax at the diagonal -/

theorem joined_coe : ∃ z : Fin 8192 → ℝ,
    joined (fun q => ((x q : ℝ) : EReal)) (fun q => ((y q : ℝ) : EReal)) = fun c => ((z c : ℝ) : EReal) := by
  refine ⟨fun c => if h : c.val < 4096 then x ⟨c.val, h⟩ else y ⟨c.val - 4096, by have := c.isLt; omega⟩, ?_⟩
  funext c
  by_cases h : c.val < 4096
  · rw [joined, dif_pos h]
    simp only [dif_pos h]
  · rw [joined, dif_neg h]
    simp only [dif_neg h]

theorem logSoftmaxAt_coe (r : Fin 4096) :
    logSoftmaxAt (fun q => ((x q : ℝ) : EReal)) (fun q => ((y q : ℝ) : EReal)) r = ((x r - rlse x y : ℝ) : EReal) := by
  obtain ⟨z, hz⟩ := joined_coe x y
  obtain ⟨M, hM⟩ : ∃ M : ℝ, Finset.univ.sup (joined (fun q => ((x q : ℝ) : EReal)) (fun q => ((y q : ℝ) : EReal))) = (M : EReal) := by
    rw [hz]
    exact exists_sup_coe z
  have hr : joined (fun q => ((x q : ℝ) : EReal)) (fun q => ((y q : ℝ) : EReal)) ⟨r.val, by have := r.isLt; omega⟩
      = ((x r : ℝ) : EReal) := by
    rw [joined, dif_pos r.isLt]
  have hpos : 0 < (∑ q : Fin 4096, Real.exp (x q - M)) + ∑ q : Fin 4096, Real.exp (y q - M) :=
    add_pos_of_pos_of_nonneg (Finset.sum_pos (fun _ _ => Real.exp_pos _) Finset.univ_nonempty)
      (Finset.sum_nonneg fun _ _ => (Real.exp_pos _).le)
  rw [logSoftmaxAt, hr, hM, sum_joined (fun t => Ideal.exp (t - (M : EReal)))]
  simp only [← EReal.coe_sub, Ideal.exp_coe, coe_sum, ← EReal.coe_add]
  rw [Ideal.log_coe, if_neg (not_le.mpr hpos), ← EReal.coe_sub, rlse, ← OnlineSoftmax.add_log_sum_exp_sub₂ x y M]
  refine congrArg Real.toEReal ?_
  ring

/-! ## One row: the diagonal pick -/

theorem picked_eq (u e : Fin 4096 → EReal) (n : ℕ) (h8 : n ≤ 8) :
    picked u e n = ∑ j : Fin 8, if j.val < n then ∑ p : Fin 512, u (col j p) * e (col j p) else 0 := by
  induction n with
  | zero => simp [picked]
  | succ n ih =>
    have hn : n < 8 := h8
    rw [picked, dif_pos hn, ih (Nat.le_of_succ_le h8),
      OnlineSoftmax.sum_lt_succ (fun j => ∑ p : Fin 512, u (col j p) * e (col j p)) n hn]

/-- Against the diagonal indicator of row `r` only the entry at `r` survives. -/
theorem picked_coe (r : Fin 4096) : picked (fun q => ((x q : ℝ) : EReal)) (diag r) 8 = ((x r : ℝ) : EReal) := by
  rw [picked_eq _ _ 8 le_rfl]
  simp only [Fin.is_lt, if_true]
  rw [sum_col (fun q => ((x q : ℝ) : EReal) * diag r q)]
  simp only [diag, mul_ite, mul_one, mul_zero, Finset.sum_ite_eq, Finset.mem_univ, if_true]

end Row

/-! ## The two losses -/

theorem tiledRow_coe (a b : Fin 4096 → Fin 768 → ℝ) (r : Fin 4096) :
    tiledRow (fun r k => ((a r k : ℝ) : EReal)) (fun r k => ((b r k : ℝ) : EReal)) r
      = (((1 / 2 * rlse (rcross a b r) (rself a r) + 1 / 2 * rlse (rcross b a r) (rself b r))
          - rcross a b r r : ℝ) : EReal) := by
  rw [tiledRow, tiledCross_coe, tiledSelf_coe, tiledCross_coe, tiledSelf_coe, tiledLse_coe, tiledLse_coe, picked_coe,
    half_eq, ← EReal.coe_mul, ← EReal.coe_mul, ← EReal.coe_add, ← EReal.coe_sub]

theorem tiledLoss_coe (a b : Fin 4096 → Fin 768 → ℝ) :
    tiledLoss (fun r k => ((a r k : ℝ) : EReal)) (fun r k => ((b r k : ℝ) : EReal))
      = (((∑ r : Fin 4096, ((1 / 2 * rlse (rcross a b r) (rself a r) + 1 / 2 * rlse (rcross b a r) (rself b r))
          - rcross a b r r)) * (1 / 4096) : ℝ) : EReal) := by
  rw [tiledLoss, rowCount_eq, Ideal.div_coe (by norm_num)]
  simp only [tiledRow_coe, coe_sum, ← EReal.coe_mul]

theorem plainLossA_coe (a b : Fin 4096 → Fin 768 → ℝ) :
    plainLossA (fun r k => ((a r k : ℝ) : EReal)) (fun r k => ((b r k : ℝ) : EReal))
      = (((-(∑ r : Fin 4096, (rcross a b r r - rlse (rcross a b r) (rself a r)))) * (1 / 4096) : ℝ) : EReal) := by
  rw [plainLossA, rowCount_eq, Ideal.div_coe (by norm_num)]
  simp only [plainCross_coe, plainSelf_coe, logSoftmaxAt_coe, coe_sum, ← EReal.coe_neg, ← EReal.coe_mul]

theorem plainLossB_coe (a b : Fin 4096 → Fin 768 → ℝ) :
    plainLossB (fun r k => ((a r k : ℝ) : EReal)) (fun r k => ((b r k : ℝ) : EReal))
      = (((-(∑ r : Fin 4096, (rcross b a r r - rlse (rcross b a r) (rself b r)))) * (1 / 4096) : ℝ) : EReal) := by
  rw [plainLossB, rowCount_eq, Ideal.div_coe (by norm_num)]
  simp only [plainCross_coe, plainSelf_coe, logSoftmaxAt_coe, coe_sum, ← EReal.coe_neg, ← EReal.coe_mul]

/-- On real-valued tables the tiled loss and the plain loss are the same extended real. -/
theorem tiledLoss_eq_plainLoss (a b : Fin 4096 → Fin 768 → ℝ) :
    tiledLoss (fun r k => ((a r k : ℝ) : EReal)) (fun r k => ((b r k : ℝ) : EReal))
      = plainLoss (fun r k => ((a r k : ℝ) : EReal)) (fun r k => ((b r k : ℝ) : EReal)) := by
  rw [tiledLoss_coe, plainLoss, plainLossA_coe, plainLossB_coe, half_eq, ← EReal.coe_mul, ← EReal.coe_mul,
    ← EReal.coe_add]
  refine congrArg Real.toEReal ?_
  have hsym : ∀ r : Fin 4096, rcross b a r r = rcross a b r r := fun r => by
    unfold rcross
    rw [rdot_comm]
  simp only [hsym, Finset.sum_sub_distrib, Finset.sum_add_distrib, ← Finset.mul_sum]
  ring

end Cert.Contrast

end
-- ==== Proof.lean ====
/-
  The certificate of the tiled contrastive loss against its plain jnp reference.

  Both programs pick 4096 pairs of rows from a table of 100000 rows of 768 entries, divide each picked row by its
  Euclidean length, form the four matrices of row-by-row dot products over a temperature, take `10⁹` off the diagonal of
  the two self-products, and return the mean over the rows of half the log-sum-exp of `[a·bᵀ | a·aᵀ]` plus half that of
  `[b·aᵀ | b·bᵀ]` minus the diagonal of `a·bᵀ`.  The plain program divides by the 32-bit value of `0.05` and takes each
  row's maximum, exponentials and logarithm over all 8192 columns at once; the tiled one multiplies by the named value
  `1 / f32(0.05)`, walks the columns in eight blocks of 512 keeping a running maximum and a rescaled running sum per row,
  and normalises the rows after picking them rather than before.

  Under the precondition — every table entry finite, every index in range, every table row of positive length — the
  picked normalised rows are the same real-valued tables on both sides (`PreDecoded`, `TiledHost…`, `RefTables`), each
  program's result is the specification's function of them (`TiledResult`, `RefResult`), and the two functions agree on
  real tables (`LossAlgebra`: the rescaled running sum is the sum of exponentials relative to the running maximum, and
  `x · (1/T) = x / T`).  The frames: the tiled program's launch is written once for any float instance, the two tables'
  arrays held by halves between their row-block and column-block windows, and read at the word-level and at the ideal
  instance; the plain program's is its run.  The idealization names one constant, four times.
-/
import proofs.«403767_j22084721836062_1_alg».proof.Defs
import proofs.«403767_j22084721836062_1_alg».proof.Proof.Gen.Kernel
import proofs.«403767_j22084721836062_1_alg».proof.Proof.Gen.KernelIdeal
import proofs.«403767_j22084721836062_1_alg».proof.Proof.Gen.ReferenceIdeal
import proofs.«403767_j22084721836062_1_alg».proof.Proof.Gen.Pre_finite_inputs
import proofs.«403767_j22084721836062_1_alg».proof.Proof.WordTiledLaunch
import proofs.«403767_j22084721836062_1_alg».proof.Proof.TiledResult
import proofs.«403767_j22084721836062_1_alg».proof.Proof.RefResult
import proofs.«403767_j22084721836062_1_alg».proof.Proof.RefRunChunks
import proofs.«403767_j22084721836062_1_alg».proof.Proof.PreDecoded
import proofs.«403767_j22084721836062_1_alg».proof.Proof.LossAlgebra
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level tiled program runs to the end and leaves its two arguments as launched. -/
theorem frame_word : Cert.frame_Kernel (hKernel := Cert.Kernel.Gen.facts) (hPre_finite_inputs := Cert.Pre_finite_inputs.Gen.facts) :=
  fun m ρ _ => Cert.Kernel.Gen.frame m ρ

/-- So does the tiled program at the ideal values. -/
theorem frame_ideal : Cert.frame_KernelIdeal (hKernelIdeal := Cert.KernelIdeal.Gen.facts) (hPre_finite_inputs := Cert.Pre_finite_inputs.Gen.facts) :=
  fun m ρ _ => Cert.KernelIdeal.Gen.frame m ρ

/-- The plain program's frame is its run with the result dropped. -/
theorem frame_plain : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunChunks.run' (F := Ideal) m ρ)

/-- The idealization's ledger: the scalar `20.0` that scales each of the four score matrices is named `1 / f32(0.05)`. -/
theorem preserves : Cert.preserves_Kernel_KernelIdeal :=
  ⟨IdealRules.named_const.statement Cert.KernelIdeal.κ "inv_tau" .f32 0x41A00000#32 ((268435456 / 13421773 : ℝ) : EReal) rfl,
   IdealRules.named_const.statement Cert.KernelIdeal.κ "inv_tau" .f32 0x41A00000#32 ((268435456 / 13421773 : ℝ) : EReal) rfl,
   IdealRules.named_const.statement Cert.KernelIdeal.κ "inv_tau" .f32 0x41A00000#32 ((268435456 / 13421773 : ℝ) : EReal) rfl,
   IdealRules.named_const.statement Cert.KernelIdeal.κ "inv_tau" .f32 0x41A00000#32 ((268435456 / 13421773 : ℝ) : EReal) rfl⟩

/-- At the ideal values, from memories agreeing on the arguments, both programs end at the specification's loss of the
    same two tables of picked normalised rows; the tables are real-valued, where the tiled and the plain loss agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hA : ∀ c : Dev Cert.KernelIdeal.nD, Cert.Contrast.Admissible
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
    fun c => Cert.Contrast.admissible_of_pre _ _ (hpre c)
  refine ⟨fun c => fun _ => Cert.Contrast.tiledLoss
      (Cert.Contrast.picked_rows (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) 0)
      (Cert.Contrast.picked_rows (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) 1), ?_, ?_⟩
  · refine (θ_run Cert.KernelIdeal.defs _ _).mono (fun r h c => ⟨?_, ?_, ?_⟩) (Cert.KernelIdeal.Gen.run_main (F := Ideal) m ρ)
    · exact (h c _ (Cert.KernelIdeal.Gen.mem_uc Cert.KernelIdeal.main_v0 (by decide))).trans (Cert.KernelIdeal.Result.kernel_result m ρ c (hA c))
    · exact (h c _ (Cert.KernelIdeal.Gen.mem_uc Cert.KernelIdeal.main_arg0 (by decide))).trans (Cert.KernelIdeal.Gen.W3_main_arg0 m ρ c)
    · exact (h c _ (Cert.KernelIdeal.Gen.mem_uc Cert.KernelIdeal.main_arg1 (by decide))).trans (Cert.KernelIdeal.Gen.W3_main_arg1 m ρ c)
  · refine (θ_run Cert.ReferenceIdeal.defs _ _).mono (fun r h c => ⟨(h c).1.trans ?_, (h c).2⟩)
      (Cert.ReferenceIdeal.RunChunks.run' (F := Ideal) m' ρ')
    have hA' : Cert.Contrast.Admissible
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := by
      rw [(hagree c).1, (hagree c).2]; exact hA c
    rw [Cert.ReferenceIdeal.Loss.result_eq m' c hA', (hagree c).1, (hagree c).2]
    obtain ⟨a, ha⟩ := Cert.Contrast.picked_rows_real (hA c) 0
    obtain ⟨b, hb⟩ := Cert.Contrast.picked_rows_real (hA c) 1
    funext _
    dsimp only
    rw [ha, hb]
    exact (Cert.Contrast.tiledLoss_eq_plainLoss a b).symm

theorem claim : Cert.Claim :=
  ⟨Cert.Kernel.Gen.facts, Cert.KernelIdeal.Gen.facts, Cert.ReferenceIdeal.Gen.facts, Cert.Pre_finite_inputs.Gen.facts,
    frame_word, frame_ideal, frame_plain, preserves, algebraic⟩

end Cert.Proof

end
